-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S4096x2 : Shape := ⟨2, ![4096, 2]⟩
abbrev S2 : Shape := ⟨1, ![2]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x2 : S_.BroadcastsInDim S4096x2 (![] : Fin 0 → Fin S4096x2.rank)
  reducesTo_S4096x2_S_d0_1 : S4096x2.ReducesTo [0, 1] S_
  bcast_S_S2 : S_.BroadcastsInDim S2 (![] : Fin 0 → Fin S2.rank)
  reducesTo_S2_S_d0 : S2.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_arg11 : FVec F S4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S4096 .f32) (main_arg8 : FVec F S4096x2 .f32) (main_arg9 : FVec F S2 .f32) (main_arg10 : FVec F S4096x4096 .f32) (main_arg11 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x2 .f32 := Host.absf main_arg8
  let main_cst_14 : FVec F S_ .f32 := constant S_ .f32 0x7F800000#32
  let main_v40 : FVec F S4096x2 .f32 := broadcastInDim S4096x2 ![] bcast_S_S4096x2 main_cst_14
  let main_v41 : IVec S4096x2 1 := cmpf .olt main_v39 main_v40
  let main_c_15 : IVec S_ 1 := constantI S_ 1 1#1
  let main_v42 : IVec S_ 1 := (fun x v => Host.reduce IntOp.andi x v reducesTo_S4096x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_v48 main_v49 main_v50

def fn_part1 {F : FTy → Type} [FloatOps F] (main_arg4 : FVec F S4096 .f32) (main_arg5 : FVec F S4096 .f32) (main_arg6 : FVec F S8192x4096 .f32) (main_arg7 : FVec F S4096 .f32) (main_arg8 : FVec F S4096x2 .f32) (main_arg9 : FVec F S2 .f32) (main_arg10 : FVec F S4096x4096 .f32) (main_arg11 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S8192x4096 .f32 := Host.absf main_arg6
  let main_cst_10 : FVec F S_ .f32 := constant S_ .f32 0x7F800000#32
  let main_v30 : FVec F S8192x4096 .f32 := broadcastInDim S8192x4096 ![] bcast_S_S8192x4096 main_cst_10
  let main_v31 : IVec S8192x4096 1 := cmpf .olt main_v29 main_v30
  let main_c_11 : IVec S_ 1 := constantI S_ 1 1#1
  let main_v32 : IVec S_ 1 := (fun x v => Host.reduce IntOp.andi x v reducesTo_S8192x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x4096 .f32) (main_arg1 : FVec F S8192x4096 .f32) (main_arg2 : FVec F S4096 .f32) (main_arg3 : FVec F S4096 .f32) (main_arg4 : FVec F S4096 .f32) (main_arg5 : FVec F S4096 .f32) (main_arg6 : FVec F S8192x4096 .f32) (main_arg7 : FVec F S4096 .f32) (main_arg8 : FVec F S4096x2 .f32) (main_arg9 : FVec F S2 .f32) (main_arg10 : FVec F S4096x4096 .f32) (main_arg11 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S8192x4096 : Shape := ⟨2, ![8192, 4096]⟩
abbrev S4096 : Shape := ⟨1, ![4096]⟩
abbrev S4096x2 : Shape := ⟨2, ![4096, 2]⟩
abbrev S2 : Shape := ⟨1, ![2]⟩
abbrev S4096x4096 : Shape := ⟨2, ![4096, 4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S256x256 : Shape := ⟨2, ![256, 256]⟩
abbrev S256x2 : Shape := ⟨2, ![256, 2]⟩
abbrev S1x2 : Shape := ⟨2, ![1, 2]⟩
abbrev S256x512 : Shape := ⟨2, ![256, 512]⟩
abbrev S512x4096 : Shape := ⟨2, ![512, 4096]⟩

abbrev nBuf : Space → Nat
  | .hbm => 21
  | .vmem => 34
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S4096, .f32⟩
  | .hbm, ⟨8, _⟩ => ⟨S4096x2, .f32⟩
  | .hbm, ⟨9, _⟩ => ⟨S2, .f32⟩
  | .hbm, ⟨10, _⟩ => ⟨S4096x4096, .f32⟩
  | .hbm, ⟨11, _⟩ => ⟨S4096, .f32⟩
  | .hbm, ⟨12, _⟩ => ⟨S8192x4096, .bf16⟩
  | .hbm, ⟨13, _⟩ => ⟨S8192x4096, .bf16⟩
  | .hbm, ⟨14, _⟩ => ⟨S4096x4096, .f32⟩
  | .hbm, ⟨15, _⟩ => ⟨S4096x4096, .bf16⟩
  | .hbm, ⟨16, _⟩ => ⟨S4096x4096, .f32⟩
  | .hbm, ⟨17, _⟩ => ⟨S4096x4096, .bf16⟩
  | .hbm, ⟨18, _⟩ => ⟨S8192x4096, .bf16⟩
  | .hbm, ⟨19, _⟩ => ⟨S4096x4096, .bf16⟩
  | .hbm, ⟨20, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096, .f32⟩
  | .local _ .vmem, ⟨5, _⟩ => ⟨S4096, .f32⟩
  | .local _ .vmem, ⟨6, _⟩ => ⟨S4096, .f32⟩
  | .local _ .vmem, ⟨7, _⟩ => ⟨S4096, .f32⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S4096x2, .f32⟩
  | .local _ .vmem, ⟨21, _⟩ => ⟨S4096, .f32⟩
  | .local _ .vmem, ⟨22, _⟩ => ⟨S2, .f32⟩
  | .local _ .vmem, ⟨23, _⟩ => ⟨S256x4096, .bf16⟩
  | .local _ .vmem, ⟨24, _⟩ => ⟨S256x4096, .bf16⟩
  | .local _ .vmem, ⟨25, _⟩ => ⟨S256x4096, .f32⟩
  | .local _ .vmem, ⟨26, _⟩ => ⟨S256x512, .bf16⟩
  | .local _ .vmem, ⟨27, _⟩ => ⟨S256x512, .bf16⟩
  | .local _ .vmem, ⟨28, _⟩ => ⟨S512x4096, .bf16⟩
  | .local _ .vmem, ⟨29, _⟩ => ⟨S512x4096, .bf16⟩
  | .local _ .vmem, ⟨30, _⟩ => ⟨S4096, .f32⟩
  | .local _ .vmem, ⟨31, _⟩ => ⟨S256x4096, .f32⟩
  | .local _ .vmem, ⟨32, _⟩ => ⟨S256x4096, .f32⟩
  | .local _ .vmem, ⟨33, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg3_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![32, 16], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k1_cond2 (i : grid1.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_11 : BitVec 32 := 0#32
  let v25 : BitVec 1 := Scalar.cmpi .ne v24 c0_i32_11
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S4096x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![32, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  slices_S8192x4096_S4096x4096_0_0 : S8192x4096.Slices ![0, 0] S4096x4096
  slices_S8192x4096_S4096x4096_4096_0 : S8192x4096.Slices ![4096, 0] S4096x4096
  shapeCasts_S256x4096_S256x4096 : S256x4096.ShapeCasts S256x4096
  h_S256x256 : 0 < S256x256.numel
  shapeCasts_S256x256_S256x256 : S256x256.ShapeCasts S256x256
  inb_S4096x2_S4096x2_0_0 : ∀ a, (![0, 0] : Fin 2 → Nat) a + S4096x2.size a ≤ S4096x2.size a
  h_S4096x2 : 0 < S4096x2.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  reduces_S256x2_S256 : S256x2.Reduces [1] S256
  broadcasts_S256x1_S256x2 : S256x1.Broadcasts S256x2
  slices_S256x2_o0_0_S256x1 : S256x2.Slices ![0, 0] S256x1
  slices_S256x2_o0_1_S256x1 : S256x2.Slices ![0, 1] S256x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S256x256_S256x4096_S256x4096_1_0_0_1_n_n_wf : DotDims.WF S256x256 S256x4096 S256x4096 [1] [0] [0] [1] [] []
  dot_S256x4096_S4096x2_S256x2_1_0_0_1_n_n_wf : DotDims.WF S256x4096 S4096x2 S256x2 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S8192x4096.size a
  hwx0_6 : ∀ i : grid0.Coords, EltTy.bits .bf16 = 32 ∨ (Rect.block (s := S8192x4096) S256x4096.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S8192x4096.size a
  hwx0_7 : ∀ i : grid0.Coords, EltTy.bits .bf16 = 32 ∨ (Rect.block (s := S8192x4096) S256x4096.size (cc0_transform_7 i) (hinb0_7 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x256.size a ≤ S256x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .bf16 = 32 ∨ (Rect.block (s := S8192x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .bf16 = 32 ∨ (Rect.block (s := S4096x4096) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .bf16 = 32 ∨ (Rect.block (s := S4096x4096) S256x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x2.size a ≤ S4096x2.size a
  hwx1_4 : ∀ i : grid1.Coords, EltTy.bits .f32 = 32 ∨ (Rect.block (s := S4096x2) S4096x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096.size a ≤ S4096.size a
  hwx1_5 : ∀ i : grid1.Coords, EltTy.bits .f32 = 32 ∨ (Rect.block (s := S4096) S4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2.size a ≤ S2.size a
  hwx1_6 : ∀ i : grid1.Coords, EltTy.bits .f32 = 32 ∨ (Rect.block (s := S2) S2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x4096.size a ≤ S8192x4096.size a
  hwx1_7 : ∀ i : grid1.Coords, EltTy.bits .bf16 = 32 ∨ (Rect.block (s := S8192x4096) S256x4096.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S8192x4096.size a
  hwx2_0 : ∀ i : grid2.Coords, EltTy.bits .bf16 = 32 ∨ (Rect.block (s := S8192x4096) S256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S4096.size a
  hwx2_2 : ∀ i : grid2.Coords, EltTy.bits .f32 = 32 ∨ (Rect.block (s := S4096) S4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S8192x4096.size a
  hwx2_3 : ∀ i : grid2.Coords, EltTy.bits .f32 = 32 ∨ (Rect.block (s := S8192x4096) S256x4096.size (cc2_transform_3 i) (hinb2_3 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x2_S256x2_1_0_0_1_n_n : DotDims S256x4096 S4096x2 S256x2 where
  lhsContracting := [1]
  rhsContracting := [0]
  lhsNonContracting := [0]
  rhsNonContracting := [1]
  lhsBatch := []
  rhsBatch := []
  wf := dot_S256x4096_S4096x2_S256x2_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S4096x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S256x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v5) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S256x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096 : Shape := ⟨1, ![4096]⟩
abbrev S4096x2 : Shape := ⟨2, ![4096, 2]⟩
abbrev S2 : Shape := ⟨1, ![2]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x8192 : Shape := ⟨2, ![8192, 8192]⟩
abbrev S8192x2 : Shape := ⟨2, ![8192, 2]⟩
abbrev S1x2 : Shape := ⟨2, ![1, 2]⟩

abbrev nBuf : Space → Nat
  | .hbm => 107
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S4096, .f32⟩
  | .hbm, ⟨8, _⟩ => ⟨S4096x2, .f32⟩
  | .hbm, ⟨9, _⟩ => ⟨S2, .f32⟩
  | .hbm, ⟨10, _⟩ => ⟨S4096x4096, .f32⟩
  | .hbm, ⟨11, _⟩ => ⟨S4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x4096, .f32⟩
  | .hbm, ⟨63, _⟩ => ⟨S8192x4096, .f32⟩
  | .hbm, ⟨64, _⟩ => ⟨S1x4096, .f32⟩
  | .hbm, ⟨65, _⟩ => ⟨S8192x4096, .f32⟩
  | .hbm, ⟨66, _⟩ => ⟨S8192x4096, .f32⟩
  | .hbm, ⟨67, _⟩ => ⟨S1x4096, .f32⟩
  | .hbm, ⟨68, _⟩ => ⟨S8192x4096, .f32⟩
  | .hbm, ⟨69, _⟩ => ⟨S8192x4096, .f32⟩
  | .hbm, ⟨70, _⟩ => ⟨S8192x8192, .f32⟩
  | .hbm, ⟨71, _⟩ => ⟨S8192x4096, .f32⟩
  | .hbm, ⟨72, _⟩ => ⟨S1x4096, .f32⟩
  | .hbm, ⟨73, _⟩ => ⟨S8192x4096, .f32⟩
  | .hbm, ⟨74, _⟩ => ⟨S8192x4096, .f32⟩
  | .hbm, ⟨75, _⟩ => ⟨S_, .f32⟩
  | .hbm, ⟨76, _⟩ => ⟨S8192x4096, .f32⟩
  | .hbm, ⟨77, _⟩ => ⟨S8192x4096, .f32⟩
  | .hbm, ⟨78, _⟩ => ⟨S8192x2, .f32⟩
  | .hbm, ⟨79, _⟩ => ⟨S1x2, .f32⟩
  | .hbm, ⟨80, _⟩ => ⟨S8192x2, .f32⟩
  | .hbm, ⟨81, _⟩ => ⟨S8192x2, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192x1, .f32⟩
  | .hbm, ⟨88, _⟩ => ⟨S8192x2, .f32⟩
  | .hbm, ⟨89, _⟩ => ⟨S8192x2, .f32⟩
  | .hbm, ⟨90, _⟩ => ⟨S8192x2, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x2, .f32⟩
  | .hbm, ⟨95, _⟩ => ⟨S8192x2, .f32⟩
  | .hbm, ⟨96, _⟩ => ⟨S8192x1, .f32⟩
  | .hbm, ⟨97, _⟩ => ⟨S8192x4096, .f32⟩
  | .hbm, ⟨98, _⟩ => ⟨S8192x4096, .f32⟩
  | .hbm, ⟨99, _⟩ => ⟨S8192x1, .f32⟩
  | .hbm, ⟨100, _⟩ => ⟨S8192x4096, .f32⟩
  | .hbm, ⟨101, _⟩ => ⟨S8192x4096, .f32⟩
  | .hbm, ⟨102, _⟩ => ⟨S8192x4096, .f32⟩
  | .hbm, ⟨103, _⟩ => ⟨S8192x4096, .f32⟩
  | .hbm, ⟨104, _⟩ => ⟨S1x4096, .f32⟩
  | .hbm, ⟨105, _⟩ => ⟨S8192x4096, .f32⟩
  | .hbm, ⟨106, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  concatenates_S8192x4096_S8192x4096_S8192x8192_d1 : Shape.Concatenates [S8192x4096, S8192x4096] S8192x8192 1
  bcast_S_S8192x4096 : S_.BroadcastsInDim S8192x4096 (![] : Fin 0 → Fin S8192x4096.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S_S8192 : S_.BroadcastsInDim S8192 (![] : Fin 0 → Fin S8192.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  dot_S8192x8192_S8192x4096_S8192x4096_1_0_0_1_n_n_wf : DotDims.WF S8192x8192 S8192x4096 S8192x4096 [1] [0] [0] [1] [] []
  dot_S8192x4096_S4096x2_S8192x2_1_0_0_1_n_n_wf : DotDims.WF S8192x4096 S4096x2 S8192x2 [1] [0] [0] [1] [] []
  dot_S8192x4096_S4096x4096_S8192x4096_1_0_0_1_n_n_wf : DotDims.WF S8192x4096 S4096x4096 S8192x4096 [1] [0] [0] [1] [] []

variable [Facts₀]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def dot_S8192x4096_S4096x2_S8192x2_1_0_0_1_n_n : DotDims S8192x4096 S4096x2 S8192x2 where
  lhsContracting := [1]
  rhsContracting := [0]
  lhsNonContracting := [0]
  rhsNonContracting := [1]
  lhsBatch := []
  rhsBatch := []
  wf := dot_S8192x4096_S4096x2_S8192x2_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Reg0Def.lean ====
/- Region 0 (the two layer norms, one row block of 256 rows per grid point): what each window's block is and
   what the body leaves in its two output windows, as functions of the input blocks; the region's proof data. -/
import proofs.«120078_j69518340653173_1_alg».proof.Proof.Gen.Kernel.Launch
import proofs.«120078_j69518340653173_1_alg».proof.Proof.Gen.Kernel.Skeleton
import proofs.«120078_j69518340653173_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first normalised row block: each row of `x` less its mean, times the reciprocal root of its variance plus
    epsilon, times the gain, plus the bias. -/
def out0_6 (x : Vec F S256x4096 .f32) (g b : Vec F S4096 .f32) : Vec F S256x4096 .bf16 := k0_pay2 x g b

/-- The second normalised row block, the same function spelt through the mean and the variance as separate values. -/
def out0_7 (y : Vec F S256x4096 .f32) (g b : Vec F S4096 .f32) : Vec F S256x4096 .bf16 :=
  k0_pay1 y (k0_pay3 y) (k0_pay4 y) g b

/-- The proof data of region 0 on core `c`: the arrays as the region finds them; after the body at point `t` each
    input's buffer at its block and each output's at the normalised block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 2 t) (iblk0 V c 3 t) := by dsimp only [dat0]
theorem after0_7 (c : Dev nD) (t : Fin cfg0.N) :
    (dat0 V c).after 7 t = out0_7 (iblk0 V c 1 t) (iblk0 V c 4 t) (iblk0 V c 5 t) := by dsimp only [dat0]

end Cert.Kernel.Hand

end
-- ==== Proof.K.Reg0Body.lean ====
/- Region 0's body obligation: at every grid point the layer-norm body, handed its six input blocks, leaves the two
   normalised blocks in the output windows' buffers and everything else as it was. -/
import proofs.«120078_j69518340653173_1_alg».proof.Proof.K.Reg0Def
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, fetched there or not: where it is not
    fetched its block index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not: where it is not
    fetched its block index has not moved, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not: where it is not
    fetched its block index has not moved, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not: where it is not
    fetched its block index has not moved, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4's current staging buffer holds its block at every point, fetched there or not: where it is not
    fetched its block index has not moved, and the body leaves the block in place. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5's current staging buffer holds its block at every point, fetched there or not: where it is not
    fetched its block index has not moved, and the body leaves the block in place. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- The whole-buffer rectangles' offsets are all zero. -/
theorem hz0_2 : (![0, 0] : Fin 2 → ℕ) = fun _ => 0 := funext fun a => by fin_cases a <;> rfl
theorem hz0_1 : (![0] : Fin 1 → ℕ) = fun _ => 0 := funext fun a => by fin_cases a; rfl

/-- One store through the whole-buffer rectangle covers the buffer, whatever its payload. -/
theorem cover0_out (p0 : Vec F S256x4096 .bf16) (y : S256x4096.Idx) :
    ∃ pc ∈ ([⟨Rect.unit (s := S256x4096) ![0, 0] S256x4096.size inb_S256x4096_S256x4096_0_0, p0⟩] : List (View.Piece (Elt F) S256x4096 .bf16)), y ∈ pc.1.set :=
  ⟨_, List.mem_singleton_self _, View.mem_set_unit_zero (S := S256x4096) hz0_2 inb_S256x4096_S256x4096_0_0 y⟩

set_option maxHeartbeats 4000000 in
/-- The body on whole staging memrefs, the six inputs' at read contents and the two outputs' at anything, runs to the
    continuation holding the inputs' as they were and the outputs' at the two normalised blocks. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S4096 .f32) (harg6 : arg6.IsWhole) (arg7 : Memref sig .tc .vmem S256x4096 .bf16) (harg7 : arg7.IsWhole) (arg8 : Memref sig .tc .vmem S256x4096 .bf16) (harg8 : arg8.IsWhole)
    (x0 x1 : Vec F S256x4096 .f32) (x2 x3 x4 x5 : Vec F S4096 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x2 x3)
            ∗ owns (c : Thread nD τ) arg8 fullShare (out0_7 x1 x4 x5)) -∗ K ⟨⟩))
      ⊢ wp frame (wpE (defs₀ (F := F)) Variants.none c none) E (cc0__ln_kernel i arg1 harg1 arg2 harg2 arg3 harg3 arg4 harg4 arg5 harg5 arg6 harg6 arg7 harg7 arg8 harg8) K := by
  simp only [cc0__ln_kernel_eq_skeleton]; unfold cc0__ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover0_out _)]
    rw [View.canon_unit_zero hz0_2]
    simp only [View.readAt_eq_ld, View.ld_unit_zero (S := S256x4096) hz0_2, View.ld_unit_zero (S := S4096) hz0_1]
    rfl
  iexists _; isplitr
  swap; · iexact H7
  ipureintro
  rw [View.read_writes_eq_canon _ _ _ (cover0_out _)]
  rw [View.canon_unit_zero hz0_2]
  sl_unfold_run_names
  simp only [View.readAt_eq_ld, View.ld_unit_zero (S := S256x4096) hz0_2, View.ld_unit_zero (S := S4096) hz0_1]
  rfl

/-- What the body is called with at point `t`: the invariant, the core's debts, and every window's current staging
    buffer at what the pipeline hands over, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same with every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Region 0's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Def.lean ====
/- Region 1 (the gate): per row block of 256 rows, sixteen grid points add one 256-column slice of the two normalised
   blocks times the matching 256 rows of the two halves of the first weight matrix into an accumulator kept in
   scratch; the last of the sixteen turns the accumulator into the two mixing weights and stores the mixed block.
   What each window's block is, what the accumulator holds after each point, what the last point stores; the
   region's proof data. -/
import proofs.«120078_j69518340653173_1_alg».proof.Proof.Gen.Kernel.Launch
import proofs.«120078_j69518340653173_1_alg».proof.Proof.Gen.Kernel.Skeleton
import proofs.«120078_j69518340653173_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 256 columns of a 256 × 4096 block that the point's second coordinate names. -/
abbrev rs1 (i : grid1.Coords) : Rect S256x4096 := Rect.unit (s := S256x4096) (k1_off1 i) S256x256.size (k1_off1_inb i)

/-- One accumulation: the accumulator plus the slice of the first block times the first weight rows plus the slice of
    the second block times the second weight rows. -/
def step1 (i : grid1.Coords) (x0 x1 x2 x3 : Vec F S256x4096 .bf16) (acc : Vec F S256x4096 .f32) : Vec F S256x4096 .f32 :=
  k1_pay2 (View.ld x0 (rs1 i)) (View.ld x1 (rs1 i)) acc x2 x3

/-- What the accumulator holds after the body at position `n`: reset to zero at the first of each sixteen points,
    then one accumulation per point. -/
def acc1 (c : Dev nD) : (n : ℕ) → n < cfg1.N → Vec F S256x4096 .f32
  | 0, hn => step1 (grid1.coords ⟨0, hn⟩) (iblk1 V c 0 ⟨0, hn⟩) (iblk1 V c 1 ⟨0, hn⟩) (iblk1 V c 2 ⟨0, hn⟩) (iblk1 V c 3 ⟨0, hn⟩) (k1_pay1 (F := F))
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 16 = 0 then (k1_pay1 (F := F)) else acc1 c n (Nat.lt_of_succ_lt hn))

/-- At the first of sixteen points the accumulator restarts from zero. -/
theorem acc1_reset (c : Dev nD) (t : Fin cfg1.N) (h : t.val % 16 = 0) :
    acc1 V c t.val t.isLt = step1 (grid1.coords t) (iblk1 V c 0 t) (iblk1 V c 1 t) (iblk1 V c 2 t) (iblk1 V c 3 t) (k1_pay1 (F := F)) := by
  obtain ⟨n, hn⟩ := t
  cases n with
  | zero => rfl
  | succ n => exact congrArg _ (if_pos h)

/-- At the others it goes on from what the point before left. -/
theorem acc1_succ (c : Dev nD) (t : Fin cfg1.N) (h : ¬ t.val % 16 = 0) :
    acc1 V c t.val t.isLt = step1 (grid1.coords t) (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd (Nat.zero_mod _) h
  | succ n => exact congrArg _ (if_neg h)

/-- What the last of sixteen points stores: the rectified accumulator plus bias through the second weight matrix, the
    two logits' softmax, and the two normalised blocks mixed by it. -/
def out1 (c : Dev nD) (t : Fin cfg1.N) : Vec F S256x4096 .bf16 :=
  k1_pay3 (acc1 V c t.val t.isLt) (iblk1 V c 5 t) (iblk1 V c 4 t) (iblk1 V c 6 t) (iblk1 V c 0 t) (iblk1 V c 1 t)

/-- The scratch accumulator as a memref. -/
abbrev scM1_0 : Memref sig .tc .vmem S256x4096 .f32 := Memref.whole cc1_scratch0

/-- The scoped buffers other than the accumulator (the staging buffers and scratch of the other regions), each at
    anything: they ride through the region untouched. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point the scoped rest at anything and the generator
    register; afterwards the accumulator at what the point before left, the other scoped buffers at anything, and the
    generator register. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ rest1 c) ∗ (∃ r, prngReg c r)) := by
  cases n with
  | zero => exact absurd rfl hz
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

end Cert.Kernel.Hand

end
-- ==== Proof.K.Reg1Body.lean ====
/- Region 1's body obligation: at every grid point the gate body, handed its blocks and the accumulator at what the point before left, leaves the accumulator one step on and, at the last of sixteen points, the mixed block in the output window's buffer. -/
import proofs.«120078_j69518340653173_1_alg».proof.Proof.K.Reg1Def
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The first conditional's condition: the point's second coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition: the point's second coordinate is fifteen. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- The output window is idle where the second conditional is not taken, -/
theorem idleAt1_7 : ∀ t : Fin cfg1.N, ¬cond1_1 (grid1.coords t) → cfg1.idle 7 (grid1.coords t) = true := by decide +kernel
/-- is not written back there, -/
theorem noFlush1_7 : ∀ t : Fin cfg1.N, ¬cond1_1 (grid1.coords t) → (cfg1.win 7).flush t = false := by decide +kernel
/-- and is live where it is taken. -/
theorem liveAt1_7 : ∀ t : Fin cfg1.N, cond1_1 (grid1.coords t) → cfg1.idle 7 (grid1.coords t) = false := by decide +kernel

/-! ## What the inputs' staging buffers hold when the body runs -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The invariant handed in: the accumulator's buffer beside the rest of the scoped buffers -/

/-- The scoped rest split at the accumulator: it at some contents, the other scoped buffers unopened. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ rest1 c) :=
  Pipeline.scopedRest_split_of_list spec1 c [cc1_scratch0] (by decide) (by decide)

/-- What the launch hands the region, with the accumulator as a memref owned at some contents. -/
theorem PhiA1_eq (c : Dev nD) :
    (Pipeline.ΦA spec1 c : sProp 𝕄)
      = iprop(iprop(iprop((∃ d, owns (c : Thread nD τ) scM1_0 fullShare d)) ∗ rest1 c) ∗ (∃ r, prngReg c r)) := by
  unfold Pipeline.ΦA; rw [scopedRest1_split]; simp only [scM1_0, owns_whole]; try rfl

/-! ## The body on any staging memrefs, case by case: the runs and what their pieces read back as -/

/-- The zero offsets of a rank-two rectangle, as a constant function. -/
theorem zero1_2 : (![0, 0] : Fin 2 → ℕ) = fun _ => 0 := funext fun a => by fin_cases a <;> rfl

set_option maxHeartbeats 4000000 in
/-- The body where the first conditional is taken and the second is not: the accumulator zeroed, then one accumulation.
    The pieces the accumulator ends with are found by the run. -/
noncomputable def kernelRun1_A (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : cond1_0 i) (hc1 : ¬cond1_1 i)
    (x0 x1 x2 x3 : Vec F S256x4096 .bf16) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg10.view.loc (c : Thread nD τ) ↦[arg10.view.set]{fullShare} arg10.view.writes (Elt F) f LS0)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Where only the first conditional is taken the accumulator's pieces cover it. -/
theorem scover1_A (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : cond1_0 i) (hc1 : ¬cond1_1 i)
    (x0 x1 x2 x3 : Vec F S256x4096 .bf16) (y : S256x4096.Idx) :
    ∃ pc ∈ (kernelRun1_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).1 S256x4096.size (by sl_kernel_rfl) y

/-- and read back as one accumulation on zero. -/
theorem canon1_A (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : cond1_0 i) (hc1 : ¬cond1_1 i)
    (x0 x1 x2 x3 : Vec F S256x4096 .bf16) :
    View.canon (kernelRun1_A c i arg2 harg2 arg3 harg3 arg4 harg4 arg5 harg5 arg6 harg6 arg7 harg7 arg8 harg8 arg9 harg9 arg10 harg10 hc0 hc1 x0 x1 x2 x3).1 = step1 i x0 x1 x2 x3 (k1_pay1 (F := F)) := by
  unfold kernelRun1_A; dsimp only; sl_unfold_words
  rw [View.canon_cons_unit_zero (S := S256x4096) zero1_2]
  simp only [View.readAt_eq_ld, harg2.read_unread, harg3.read_unread, harg4.read_unread, harg5.read_unread, View.ld_unit_zero (S := S256x4096) zero1_2, View.readCov_unit_zero (S := S256x4096) _ zero1_2]
  rfl

set_option maxHeartbeats 4000000 in
/-- The body where neither conditional is taken: one accumulation on the carried accumulator. The pieces the accumulator
    ends with are found by the run. -/
noncomputable def kernelRun1_B (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : ¬cond1_1 i)
    (x0 x1 x2 x3 : Vec F S256x4096 .bf16) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg10.view.loc (c : Thread nD τ) ↦[arg10.view.set]{fullShare} arg10.view.writes (Elt F) f LS0)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Where neither conditional is taken the accumulator's pieces cover it. -/
theorem scover1_B (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : ¬cond1_1 i)
    (x0 x1 x2 x3 : Vec F S256x4096 .bf16) (xs0 : Vec F S256x4096 .f32) (y : S256x4096.Idx) :
    ∃ pc ∈ (kernelRun1_B c i arg2 harg2 arg3 harg3 arg4 harg4 arg5 harg5 arg6 harg6 arg7 harg7 arg8 harg8 arg9 harg9 arg10 harg10 hc0 hc1 x0 x1 x2 x3 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0).1 S256x4096.size (by sl_kernel_rfl) y

/-- and read back as one accumulation on what was carried. -/
theorem canon1_B (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : ¬cond1_1 i)
    (x0 x1 x2 x3 : Vec F S256x4096 .bf16) (xs0 : Vec F S256x4096 .f32) :
    View.canon (kernelRun1_B c i arg2 harg2 arg3 harg3 arg4 harg4 arg5 harg5 arg6 harg6 arg7 harg7 arg8 harg8 arg9 harg9 arg10 harg10 hc0 hc1 x0 x1 x2 x3 xs0).1 = step1 i x0 x1 x2 x3 xs0 := by
  unfold kernelRun1_B; dsimp only; sl_unfold_words
  rw [View.canon_unit_zero zero1_2]
  simp only [View.readAt_eq_ld, harg2.read_unread, harg3.read_unread, harg4.read_unread, harg5.read_unread, harg10.read_unread, View.ld_unit_zero (S := S256x4096) zero1_2]
  rfl

set_option maxHeartbeats 4000000 in
/-- The body where the first conditional is not taken and the second is: one accumulation on the carried accumulator, then
    the output stored. The pieces the output and the accumulator end with are found by the run. -/
noncomputable def kernelRun1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) :
    Σ' (L7 : List (View.Piece (Elt F) S256x4096 .bf16)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, ?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Where only the second conditional is taken the accumulator's pieces cover it, -/
theorem scover1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) (y : S256x4096.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S256x4096.size (by sl_kernel_rfl) y

/-- the output's pieces cover it, -/
theorem cover1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) (y : S256x4096.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S256x4096.size (by sl_kernel_rfl) y

/-- the accumulator reads back as one accumulation on what was carried, -/
theorem canon1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) :
    View.canon (kernelRun1_C c i arg2 harg2 arg3 harg3 arg4 harg4 arg5 harg5 arg6 harg6 arg7 harg7 arg8 harg8 arg9 harg9 arg10 harg10 hc0 hc1 x0 x1 x2 x3 x4 x5 x6 xs0).2.1 = step1 i x0 x1 x2 x3 xs0 := by
  unfold kernelRun1_C; dsimp only; sl_unfold_words
  rw [View.canon_unit_zero zero1_2]
  simp only [View.readAt_eq_ld, harg2.read_unread, harg3.read_unread, harg4.read_unread, harg5.read_unread, harg10.read_unread, View.ld_unit_zero (S := S256x4096) zero1_2]
  rfl

/-- The zero offset of a rank-one rectangle, as a constant function. -/
theorem zero1_1 : (![0] : Fin 1 → ℕ) = fun _ => 0 := funext fun a => by fin_cases a <;> rfl

/-- and the output as the mix computed from the accumulator after this accumulation. -/
theorem canonO1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) :
    View.canon (kernelRun1_C c i arg2 harg2 arg3 harg3 arg4 harg4 arg5 harg5 arg6 harg6 arg7 harg7 arg8 harg8 arg9 harg9 arg10 harg10 hc0 hc1 x0 x1 x2 x3 x4 x5 x6 xs0).1 = k1_pay3 (step1 i x0 x1 x2 x3 xs0) x5 x4 x6 x0 x1 := by
  unfold kernelRun1_C; dsimp only; sl_unfold_words
  rw [View.canon_unit_zero zero1_2]
  simp only [View.readAt_eq_ld, harg2.read_unread, harg3.read_unread, harg4.read_unread, harg5.read_unread, harg6.read_unread, harg7.read_unread, harg8.read_unread, harg10.read_unread, View.ld_unit_zero (S := S256x4096) zero1_2, View.ld_unit_zero (S := S4096x2) zero1_2, View.ld_unit_zero (S := S4096) zero1_1, View.ld_unit_zero (S := S2) zero1_1, View.readCov_unit_zero (S := S256x4096) _ zero1_2]
  rfl

/-! ## The body obligation, at a generic point -/

/-- Each window's current staging memref at point `t`, as the pipeline passes it, and its wholeness. -/
abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x4096 .bf16 := win1_7.stage (cfg1.slots t 7)
abbrev hs1_7 (t : Fin cfg1.N) : (ms1_7 t).IsWhole := hstage1_7 ((cfg1.slots t 7).cast nbuf1_7)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' buffers hold their blocks; the closed forms say which case the point is in; the
    case's run applies; the invariant hands the accumulator over at what the point before left (at anything at the
    first point) and takes it back one accumulation on; where the output is stored, its buffer holds the mix. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [acc1_reset V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))).trans (canon1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))).trans (canon1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      unfold out1
      rw [acc1_succ V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))).trans (canon1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      exact (View.read_writes_eq_canon _ _ _ (cover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))).trans (canonO1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))
    · rw [Dat.leavesExact_idle (dat1 V c) 7 t (idleAt1_7 t (fun h => h1 ((hcond1_1 t).mp h))) (noFlush1_7 t (fun h => h1 ((hcond1_1 t).mp h)))]
      rw [acc1_succ V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt)))).trans (canon1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- After the last point the invariant gives the scoped rest back: the accumulator's contents are forgotten. -/
theorem hout1 (c : Dev nD) : (dat1 V c).Φ (Fin.last cfg1.N) ⊢ (Pipeline.ΦA spec1 c : sProp 𝕄) :=
  Phi_out1 V c _ (by rw [Fin.val_last]; have : cfg1.N = 512 := N_1; omega)

end Cert.Kernel.Hand

end
-- ==== Proof.K.Reg2Def.lean ====
/- Region 2 (the last linear layer): per row block of 256 rows, eight grid points add one 256 × 512 block of the mixed
   rows times the matching 512 rows of the output weight matrix into an accumulator kept in scratch; the last of the
   eight adds the bias and stores the block. What each window's block is, what the accumulator holds after each
   point, what the last point stores; the region's proof data. -/
import proofs.«120078_j69518340653173_1_alg».proof.Proof.Gen.Kernel.Launch
import proofs.«120078_j69518340653173_1_alg».proof.Proof.Gen.Kernel.Skeleton
import proofs.«120078_j69518340653173_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One accumulation: the accumulator plus the block of mixed rows times the block of weight rows. -/
def step2 (x0 : Vec F S256x512 .bf16) (x1 : Vec F S512x4096 .bf16) (acc : Vec F S256x4096 .f32) : Vec F S256x4096 .f32 :=
  k2_pay2 acc x0 x1

/-- What the accumulator holds after the body at position `n`: reset to zero at the first of each eight points, then
    one accumulation per point. -/
def acc2 (c : Dev nD) : (n : ℕ) → n < cfg2.N → Vec F S256x4096 .f32
  | 0, hn => step2 (iblk2 V c 0 ⟨0, hn⟩) (iblk2 V c 1 ⟨0, hn⟩) (k2_pay1 (F := F))
  | n + 1, hn => step2 (iblk2 V c 0 ⟨n + 1, hn⟩) (iblk2 V c 1 ⟨n + 1, hn⟩)
      (if (n + 1) % 8 = 0 then (k2_pay1 (F := F)) else acc2 c n (Nat.lt_of_succ_lt hn))

/-- At the first of eight points the accumulator restarts from zero. -/
theorem acc2_reset (c : Dev nD) (t : Fin cfg2.N) (h : t.val % 8 = 0) :
    acc2 V c t.val t.isLt = step2 (iblk2 V c 0 t) (iblk2 V c 1 t) (k2_pay1 (F := F)) := by
  obtain ⟨n, hn⟩ := t
  cases n with
  | zero => rfl
  | succ n => exact congrArg _ (if_pos h)

/-- At the others it goes on from what the point before left. -/
theorem acc2_succ (c : Dev nD) (t : Fin cfg2.N) (h : ¬ t.val % 8 = 0) :
    acc2 V c t.val t.isLt = step2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact congrArg _ (if_neg h)

/-- What the last of eight points stores: the accumulator plus the bias row. -/
def out2 (c : Dev nD) (t : Fin cfg2.N) : Vec F S256x4096 .f32 :=
  k2_pay3 (acc2 V c t.val t.isLt) (iblk2 V c 2 t)

/-- The scratch accumulator as a memref. -/
abbrev scM2_0 : Memref sig .tc .vmem S256x4096 .f32 := Memref.whole cc2_scratch0

/-- The scoped buffers other than the accumulator (the staging buffers and scratch of the other regions), each at
    anything: they ride through the region untouched. -/
abbrev rest2 (c : Dev nD) : sProp 𝕄 :=
  Pipeline.scopedRestBut (Ix := Unit) (Name := ℕ) (U := UR sig nD τ) (Lvl := ℕ) (Val := Elt F) spec2 c [cc2_scratch0]

/-- The region invariant before position `n`: before the first point the scoped rest at anything and the generator
    register; afterwards the accumulator at what the point before left, the other scoped buffers at anything, and the
    generator register. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ rest2 c) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

end Cert.Kernel.Hand

end
-- ==== Proof.K.Reg2Body.lean ====
/- Region 2's body obligation: at every grid point the body, handed its blocks and the accumulator at what the point before left, leaves the accumulator one step on and, at the last of eight points, the biased block in the output window's buffer. -/
import proofs.«120078_j69518340653173_1_alg».proof.Proof.K.Reg2Def
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The first conditional's condition (the second coordinate is zero), from the grid coordinates. -/
abbrev cond2_0 (i : grid2.Coords) : Prop := (Scalar.cmpi .ne (Scalar.extui (Scalar.cmpi .eq (BitVec.ofNat 32 (i 1).val) 0#32)) 0#32) = 1#1
/-- It holds at the first of each eight points. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (the second coordinate is seven). -/
abbrev cond2_1 (i : grid2.Coords) : Prop := k2_cond2 i = 1#1
/-- It holds at the last of each eight points. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the last of eight points the output window is idle, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at the last of eight it is live. -/
theorem liveAt2_3 : ∀ t : Fin cfg2.N, cond2_1 (grid2.coords t) → cfg2.idle 3 (grid2.coords t) = false := by decide +kernel

/-! ## The scratch accumulator in the invariant -/

/-- The launch's invariant with the accumulator as a memref owned at some contents, the other scoped buffers beside it. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

/-! ## The inputs' staging buffers hold their blocks -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The body on any whole memrefs, case by case: the pieces each run leaves in the accumulator -/

set_option maxHeartbeats 4000000 in
/-- At the first of eight points: the accumulator, found at anything, is zeroed, then one accumulation is stored; the
    output's buffer is handed back untouched. The pieces the accumulator ends with are the witness the run finds. -/
noncomputable def kernelRun2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i)
    (x0 : Vec F S256x512 .bf16) (x1 : Vec F S512x4096 .bf16) (x2 : Vec F S4096 .f32) :
    { LS0 : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_kernel i arg2 harg2 arg3 harg3 arg4 harg4 arg5 harg5 arg6 harg6) K } := by
  refine ⟨?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- At a point strictly inside a run of eight: one accumulation onto what the point before left; the output's buffer
    is handed back untouched. -/
noncomputable def kernelRun2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i)
    (x0 : Vec F S256x512 .bf16) (x1 : Vec F S512x4096 .bf16) (x2 : Vec F S4096 .f32) (xs0 : Vec F S256x4096 .f32) :
    { LS0 : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_kernel i arg2 harg2 arg3 harg3 arg4 harg4 arg5 harg5 arg6 harg6) K } := by
  refine ⟨?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- At the last of eight points: one accumulation onto what the point before left, then the accumulator is read back
    and, the bias row added, stored into the output's buffer (found at anything). -/
noncomputable def kernelRun2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i)
    (x0 : Vec F S256x512 .bf16) (x1 : Vec F S512x4096 .bf16) (x2 : Vec F S4096 .f32) (xs0 : Vec F S256x4096 .f32) :
    Σ' (L3 : List (View.Piece (Elt F) S256x4096 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__final_kernel i arg2 harg2 arg3 harg3 arg4 harg4 arg5 harg5 arg6 harg6) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What the runs' pieces read back -/

theorem zeros2_rank2 : (![0, 0] : Fin 2 → ℕ) = fun _ => 0 := funext fun a => by fin_cases a <;> rfl
theorem zeros2_rank1 : (![0] : Fin 1 → ℕ) = fun _ => 0 := funext fun a => by fin_cases a; rfl

/-- The first case's two stores (the reset, then the accumulation, each the whole buffer) cover the accumulator. -/
theorem scover2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i) (x0 : Vec F S256x512 .bf16) (x1 : Vec F S512x4096 .bf16) (x2 : Vec F S4096 .f32) (y : S256x4096.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S256x4096.size (by sl_kernel_rfl) y

/-- They leave one accumulation over zero: the later store's payload, its accumulator operand the reset read back. -/
theorem canon2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i) (x0 : Vec F S256x512 .bf16) (x1 : Vec F S512x4096 .bf16) (x2 : Vec F S4096 .f32) :
    View.canon (kernelRun2_A c i arg2 harg2 arg3 harg3 arg4 harg4 arg5 harg5 arg6 harg6 hc0 hc1 x0 x1 x2).1 = step2 x0 x1 (k2_pay1 (F := F)) := by
  unfold kernelRun2_A; dsimp only; sl_unfold_words
  rw [View.canon_cons_unit_zero (S := S256x4096) zeros2_rank2, View.readCov_unit_zero (S := S256x4096) _ zeros2_rank2]
  simp only [View.readAt_eq_ld, harg2.read_unread, harg3.read_unread, View.ld_unit_zero (S := S256x512) zeros2_rank2, View.ld_unit_zero (S := S512x4096) zeros2_rank2]
  rfl

theorem sread2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i) (x0 : Vec F S256x512 .bf16) (x1 : Vec F S512x4096 .bf16) (x2 : Vec F S4096 .f32) (f : arg6.view.ty.Contents (Elt F)) :
    arg6.view.read (Elt F) (arg6.view.writes (Elt F) f (kernelRun2_A c i arg2 harg2 arg3 harg3 arg4 harg4 arg5 harg5 arg6 harg6 hc0 hc1 x0 x1 x2).1) = step2 x0 x1 (k2_pay1 (F := F)) :=
  (View.read_writes_eq_canon _ _ _ (scover2_A c i arg2 harg2 arg3 harg3 arg4 harg4 arg5 harg5 arg6 harg6 hc0 hc1 x0 x1 x2)).trans (canon2_A c i arg2 harg2 arg3 harg3 arg4 harg4 arg5 harg5 arg6 harg6 hc0 hc1 x0 x1 x2)

/-- The middle case's one store covers the accumulator, -/
theorem scover2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i) (x0 : Vec F S256x512 .bf16) (x1 : Vec F S512x4096 .bf16) (x2 : Vec F S4096 .f32) (xs0 : Vec F S256x4096 .f32) (y : S256x4096.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S256x4096.size (by sl_kernel_rfl) y

/-- and leaves one accumulation over what the accumulator held. -/
theorem canon2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i) (x0 : Vec F S256x512 .bf16) (x1 : Vec F S512x4096 .bf16) (x2 : Vec F S4096 .f32) (xs0 : Vec F S256x4096 .f32) :
    View.canon (kernelRun2_B c i arg2 harg2 arg3 harg3 arg4 harg4 arg5 harg5 arg6 harg6 hc0 hc1 x0 x1 x2 xs0).1 = step2 x0 x1 xs0 := by
  unfold kernelRun2_B; dsimp only; sl_unfold_words
  rw [View.canon_unit_zero (S := S256x4096) zeros2_rank2]
  simp only [View.readAt_eq_ld, harg2.read_unread, harg3.read_unread, harg6.read_unread, View.ld_unit_zero (S := S256x512) zeros2_rank2, View.ld_unit_zero (S := S512x4096) zeros2_rank2, View.ld_unit_zero (S := S256x4096) zeros2_rank2]
  rfl

theorem sread2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i) (x0 : Vec F S256x512 .bf16) (x1 : Vec F S512x4096 .bf16) (x2 : Vec F S4096 .f32) (xs0 : Vec F S256x4096 .f32) (f : arg6.view.ty.Contents (Elt F)) :
    arg6.view.read (Elt F) (arg6.view.writes (Elt F) f (kernelRun2_B c i arg2 harg2 arg3 harg3 arg4 harg4 arg5 harg5 arg6 harg6 hc0 hc1 x0 x1 x2 xs0).1) = step2 x0 x1 xs0 :=
  (View.read_writes_eq_canon _ _ _ (scover2_B c i arg2 harg2 arg3 harg3 arg4 harg4 arg5 harg5 arg6 harg6 hc0 hc1 x0 x1 x2 xs0)).trans (canon2_B c i arg2 harg2 arg3 harg3 arg4 harg4 arg5 harg5 arg6 harg6 hc0 hc1 x0 x1 x2 xs0)

/-- The last case: the same for the accumulator, -/
theorem scover2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (y : S256x4096.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S256x4096.size (by sl_kernel_rfl) y

theorem canon2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) :
    View.canon (kernelRun2_C c i arg2 harg2 arg3 harg3 arg4 harg4 arg5 harg5 arg6 harg6 hc0 hc1 x0 x1 x2 xs0).2.1 = step2 x0 x1 xs0 := by
  unfold kernelRun2_C; dsimp only; sl_unfold_words
  rw [View.canon_unit_zero (S := S256x4096) zeros2_rank2]
  simp only [View.readAt_eq_ld, harg2.read_unread, harg3.read_unread, harg6.read_unread, View.ld_unit_zero (S := S256x512) zeros2_rank2, View.ld_unit_zero (S := S512x4096) zeros2_rank2, View.ld_unit_zero (S := S256x4096) zeros2_rank2]
  rfl

theorem sread2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (f : arg6.view.ty.Contents (Elt F)) :
    arg6.view.read (Elt F) (arg6.view.writes (Elt F) f (kernelRun2_C c i arg2 harg2 arg3 harg3 arg4 harg4 arg5 harg5 arg6 harg6 hc0 hc1 x0 x1 x2 xs0).2.1) = step2 x0 x1 xs0 :=
  (View.read_writes_eq_canon _ _ _ (scover2_C c i arg2 harg2 arg3 harg3 arg4 harg4 arg5 harg5 arg6 harg6 hc0 hc1 x0 x1 x2 xs0)).trans (canon2_C c i arg2 harg2 arg3 harg3 arg4 harg4 arg5 harg5 arg6 harg6 hc0 hc1 x0 x1 x2 xs0)

/-- and the output's one store covers its buffer -/
theorem ocover2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (y : S256x4096.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S256x4096.size (by sl_kernel_rfl) y

/-- and leaves the bias row added to the accumulator as this point's accumulation left it (the accumulator read back
    after its store). -/
theorem ocanon2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) :
    View.canon (kernelRun2_C c i arg2 harg2 arg3 harg3 arg4 harg4 arg5 harg5 arg6 harg6 hc0 hc1 x0 x1 x2 xs0).1 = k2_pay3 (step2 x0 x1 xs0) x2 := by
  unfold kernelRun2_C; dsimp only; sl_unfold_words
  rw [View.canon_unit_zero (S := S256x4096) zeros2_rank2, View.readCov_unit_zero (S := S256x4096) _ zeros2_rank2]
  simp only [View.readAt_eq_ld, harg2.read_unread, harg3.read_unread, harg4.read_unread, harg6.read_unread, View.ld_unit_zero (S := S256x512) zeros2_rank2, View.ld_unit_zero (S := S512x4096) zeros2_rank2, View.ld_unit_zero (S := S256x4096) zeros2_rank2, View.ld_unit_zero (S := S4096) zeros2_rank1]
  rfl

theorem oread2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (f : arg5.view.ty.Contents (Elt F)) :
    arg5.view.read (Elt F) (arg5.view.writes (Elt F) f (kernelRun2_C c i arg2 harg2 arg3 harg3 arg4 harg4 arg5 harg5 arg6 harg6 hc0 hc1 x0 x1 x2 xs0).1) = k2_pay3 (step2 x0 x1 xs0) x2 :=
  (View.read_writes_eq_canon _ _ _ (ocover2_C c i arg2 harg2 arg3 harg3 arg4 harg4 arg5 harg5 arg6 harg6 hc0 hc1 x0 x1 x2 xs0)).trans (ocanon2_C c i arg2 harg2 arg3 harg3 arg4 harg4 arg5 harg5 arg6 harg6 hc0 hc1 x0 x1 x2 xs0)

/-! ## The body obligation, at a generic point -/

/-- Each window's current staging memref at point `t`, as the pipeline passes it, and its wholeness. -/
abbrev ms2_0 (t : Fin cfg2.N) : Memref sig .tc .vmem S256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .f32 := win2_3.stage (cfg2.slots t 3)
abbrev hs2_3 (t : Fin cfg2.N) : (ms2_3 t).IsWhole := hstage2_3 ((cfg2.slots t 3).cast nbuf2_3)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position among its eight says which case
    it is in; the invariant hands the body the accumulator at what the point before left (at anything at the very first
    point) and takes it back one accumulation on (from zero at the first of eight); away from the last of eight the
    output's buffer goes back as it came, at the last it holds the accumulator, as this point left it, plus the bias
    row. The other scoped buffers and the generator register ride through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [acc2_reset V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) es0
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) es0
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc2_succ V c t h0]
    rw [PhiS2_castSucc V c t, PhiS2_pos V c _ _ hz]
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      unfold out2
      rw [acc2_succ V c t h0]
      iintro ⟨⟨⟨HS0, Hr⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact sread2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) es0
          iexact Hr
        iexact Hg
      isplitl [Ho]; · iexact Ho
      isplitl [H0]; · iexact H0
      isplitl [H1]; · iexact H1
      isplitl [H2]; · iexact H2
      unfold owns; iexists _; isplitr
      swap; · iexact H3
      ipureintro; exact oread2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) e3
    · rw [Dat.leavesExact_idle (dat2 V c) 3 t (idleAt2_3 t (fun h => h1 ((hcond2_1 t).mp h))) (noFlush2_3 t (fun h => h1 ((hcond2_1 t).mp h)))]
      iintro ⟨⟨⟨HS0, Hr⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt)) es0
          iexact Hr
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's contents are forgotten. -/
theorem hout2 (c : Dev nD) : (dat2 V c).Φ (Fin.last cfg2.N) ⊢ (Pipeline.ΦA spec2 c : sProp 𝕄) := by
  have ht : (Fin.last cfg2.N).val ≠ 0 := by rw [Fin.val_last]; have : cfg2.N = 256 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨⟨HS0, Hr⟩, Hg⟩
  isplitl [HS0 Hr]
  · isplitl [HS0]
    · iexists _; iexact HS0
    iexact Hr
  iexact Hg

end Cert.Kernel.Hand

end
-- ==== Proof.K.Run.lean ====
/- The run of @main: the buffers' contents at each boundary between its items (region 0, two slices and two format
   changes of the first weight matrix, region 1, a format change of the output weight matrix, region 2), the three
   regions as segments over the thread state "every unscoped buffer at the boundary's contents, the generator
   register at some state, nothing owed", and the launch: every weakly fair execution terminates with every unscoped
   buffer at the last boundary's contents. From it: the arguments end as launched, and the result array holds what
   region 2's write-backs leave. -/
import proofs.«120078_j69518340653173_1_alg».proof.Proof.K.Reg0Body
import proofs.«120078_j69518340653173_1_alg».proof.Proof.K.Reg1Body
import proofs.«120078_j69518340653173_1_alg».proof.Proof.K.Reg2Body
import proofs.«120078_j69518340653173_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b

/-- At region 0's exit: its arrays at what the pipeline leaves (the inputs as entered, each output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- A buffer that is no OUTPUT array of region 0 leaves the region as it entered: an input array is never written,
    and a buffer no window stages bypasses the region. -/
theorem W1_keep (c : Dev nD) (b : Ref sig .tc) (h : ∀ w, Pipeline.arrRef spec0 w = b → (cfg0.win w).isOut = false) :
    W1 m c (Proc.devRef .tc b) = W0 m c (Proc.devRef .tc b) := by
  by_cases hb : ∃ w, Pipeline.arrRef spec0 w = b
  · obtain ⟨w, rfl⟩ := hb
    exact (W1_arr m c w).trans (((dat0 (V0 m) c).arrAt_in w (h w rfl) _).trans (A_eq0 (V0 m) c w))
  · exact W1_of_ne m c b fun w e => hb ⟨w, e⟩

/-- After the host operations between regions 0 and 1 (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- At region 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- A buffer that is no OUTPUT array of region 1 leaves the region as it entered: an input array is never written,
    and a buffer no window stages bypasses the region. -/
theorem W3_keep (c : Dev nD) (b : Ref sig .tc) (h : ∀ w, Pipeline.arrRef spec1 w = b → (cfg1.win w).isOut = false) :
    W3 m c (Proc.devRef .tc b) = W2 m c (Proc.devRef .tc b) := by
  by_cases hb : ∃ w, Pipeline.arrRef spec1 w = b
  · obtain ⟨w, rfl⟩ := hb
    exact (W3_arr m c w).trans (((dat1 (V2 m) c).arrAt_in w (h w rfl) _).trans (A_eq1 (V2 m) c w))
  · exact W3_of_ne m c b fun w e => hb ⟨w, e⟩

/-- After the host operation between regions 1 and 2 (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- At region 2's exit: its arrays at what the pipeline leaves (the inputs as entered, each output's write-backs
    folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- A buffer that is no OUTPUT array of region 2 leaves the region as it entered: an input array is never written,
    and a buffer no window stages bypasses the region. -/
theorem W5_keep (c : Dev nD) (b : Ref sig .tc) (h : ∀ w, Pipeline.arrRef spec2 w = b → (cfg2.win w).isOut = false) :
    W5 m c (Proc.devRef .tc b) = W4 m c (Proc.devRef .tc b) := by
  by_cases hb : ∃ w, Pipeline.arrRef spec2 w = b
  · obtain ⟨w, rfl⟩ := hb
    exact (W5_arr m c w).trans (((dat2 (V4 m) c).arrAt_in w (h w rfl) _).trans (A_eq2 (V4 m) c w))
  · exact W5_of_ne m c b fun w e => hb ⟨w, e⟩

/-! ## The arguments end as launched -/

/-- `main_arg0` ends as launched: no host operation writes it and no region has it as an output. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_keep m c main_arg0 (by decide)
    _ = W3 m c (Proc.devRef .tc main_arg0) := StableHlo.after_of_writes_sub hostOps2 _ hostOps2_writes (by decide)
    _ = W2 m c (Proc.devRef .tc main_arg0) := W3_keep m c main_arg0 (by decide)
    _ = W1 m c (Proc.devRef .tc main_arg0) := StableHlo.after_of_writes_sub hostOps1 _ hostOps1_writes (by decide)
    _ = W0 m c (Proc.devRef .tc main_arg0) := W1_keep m c main_arg0 (by decide)
    _ = m ((c : Thread nD τ).loc main_arg0) := rfl

/-- `main_arg1` ends as launched: no host operation writes it and no region has it as an output. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_keep m c main_arg1 (by decide)
    _ = W3 m c (Proc.devRef .tc main_arg1) := StableHlo.after_of_writes_sub hostOps2 _ hostOps2_writes (by decide)
    _ = W2 m c (Proc.devRef .tc main_arg1) := W3_keep m c main_arg1 (by decide)
    _ = W1 m c (Proc.devRef .tc main_arg1) := StableHlo.after_of_writes_sub hostOps1 _ hostOps1_writes (by decide)
    _ = W0 m c (Proc.devRef .tc main_arg1) := W1_keep m c main_arg1 (by decide)
    _ = m ((c : Thread nD τ).loc main_arg1) := rfl

/-- `main_arg2` ends as launched: no host operation writes it and no region has it as an output. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_keep m c main_arg2 (by decide)
    _ = W3 m c (Proc.devRef .tc main_arg2) := StableHlo.after_of_writes_sub hostOps2 _ hostOps2_writes (by decide)
    _ = W2 m c (Proc.devRef .tc main_arg2) := W3_keep m c main_arg2 (by decide)
    _ = W1 m c (Proc.devRef .tc main_arg2) := StableHlo.after_of_writes_sub hostOps1 _ hostOps1_writes (by decide)
    _ = W0 m c (Proc.devRef .tc main_arg2) := W1_keep m c main_arg2 (by decide)
    _ = m ((c : Thread nD τ).loc main_arg2) := rfl

/-- `main_arg3` ends as launched: no host operation writes it and no region has it as an output. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_keep m c main_arg3 (by decide)
    _ = W3 m c (Proc.devRef .tc main_arg3) := StableHlo.after_of_writes_sub hostOps2 _ hostOps2_writes (by decide)
    _ = W2 m c (Proc.devRef .tc main_arg3) := W3_keep m c main_arg3 (by decide)
    _ = W1 m c (Proc.devRef .tc main_arg3) := StableHlo.after_of_writes_sub hostOps1 _ hostOps1_writes (by decide)
    _ = W0 m c (Proc.devRef .tc main_arg3) := W1_keep m c main_arg3 (by decide)
    _ = m ((c : Thread nD τ).loc main_arg3) := rfl

/-- `main_arg4` ends as launched: no host operation writes it and no region has it as an output. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_keep m c main_arg4 (by decide)
    _ = W3 m c (Proc.devRef .tc main_arg4) := StableHlo.after_of_writes_sub hostOps2 _ hostOps2_writes (by decide)
    _ = W2 m c (Proc.devRef .tc main_arg4) := W3_keep m c main_arg4 (by decide)
    _ = W1 m c (Proc.devRef .tc main_arg4) := StableHlo.after_of_writes_sub hostOps1 _ hostOps1_writes (by decide)
    _ = W0 m c (Proc.devRef .tc main_arg4) := W1_keep m c main_arg4 (by decide)
    _ = m ((c : Thread nD τ).loc main_arg4) := rfl

/-- `main_arg5` ends as launched: no host operation writes it and no region has it as an output. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_keep m c main_arg5 (by decide)
    _ = W3 m c (Proc.devRef .tc main_arg5) := StableHlo.after_of_writes_sub hostOps2 _ hostOps2_writes (by decide)
    _ = W2 m c (Proc.devRef .tc main_arg5) := W3_keep m c main_arg5 (by decide)
    _ = W1 m c (Proc.devRef .tc main_arg5) := StableHlo.after_of_writes_sub hostOps1 _ hostOps1_writes (by decide)
    _ = W0 m c (Proc.devRef .tc main_arg5) := W1_keep m c main_arg5 (by decide)
    _ = m ((c : Thread nD τ).loc main_arg5) := rfl

/-- `main_arg6` ends as launched: no host operation writes it and no region has it as an output. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_keep m c main_arg6 (by decide)
    _ = W3 m c (Proc.devRef .tc main_arg6) := StableHlo.after_of_writes_sub hostOps2 _ hostOps2_writes (by decide)
    _ = W2 m c (Proc.devRef .tc main_arg6) := W3_keep m c main_arg6 (by decide)
    _ = W1 m c (Proc.devRef .tc main_arg6) := StableHlo.after_of_writes_sub hostOps1 _ hostOps1_writes (by decide)
    _ = W0 m c (Proc.devRef .tc main_arg6) := W1_keep m c main_arg6 (by decide)
    _ = m ((c : Thread nD τ).loc main_arg6) := rfl

/-- `main_arg7` ends as launched: no host operation writes it and no region has it as an output. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_keep m c main_arg7 (by decide)
    _ = W3 m c (Proc.devRef .tc main_arg7) := StableHlo.after_of_writes_sub hostOps2 _ hostOps2_writes (by decide)
    _ = W2 m c (Proc.devRef .tc main_arg7) := W3_keep m c main_arg7 (by decide)
    _ = W1 m c (Proc.devRef .tc main_arg7) := StableHlo.after_of_writes_sub hostOps1 _ hostOps1_writes (by decide)
    _ = W0 m c (Proc.devRef .tc main_arg7) := W1_keep m c main_arg7 (by decide)
    _ = m ((c : Thread nD τ).loc main_arg7) := rfl

/-- `main_arg8` ends as launched: no host operation writes it and no region has it as an output. -/
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_keep m c main_arg8 (by decide)
    _ = W3 m c (Proc.devRef .tc main_arg8) := StableHlo.after_of_writes_sub hostOps2 _ hostOps2_writes (by decide)
    _ = W2 m c (Proc.devRef .tc main_arg8) := W3_keep m c main_arg8 (by decide)
    _ = W1 m c (Proc.devRef .tc main_arg8) := StableHlo.after_of_writes_sub hostOps1 _ hostOps1_writes (by decide)
    _ = W0 m c (Proc.devRef .tc main_arg8) := W1_keep m c main_arg8 (by decide)
    _ = m ((c : Thread nD τ).loc main_arg8) := rfl

/-- `main_arg9` ends as launched: no host operation writes it and no region has it as an output. -/
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_keep m c main_arg9 (by decide)
    _ = W3 m c (Proc.devRef .tc main_arg9) := StableHlo.after_of_writes_sub hostOps2 _ hostOps2_writes (by decide)
    _ = W2 m c (Proc.devRef .tc main_arg9) := W3_keep m c main_arg9 (by decide)
    _ = W1 m c (Proc.devRef .tc main_arg9) := StableHlo.after_of_writes_sub hostOps1 _ hostOps1_writes (by decide)
    _ = W0 m c (Proc.devRef .tc main_arg9) := W1_keep m c main_arg9 (by decide)
    _ = m ((c : Thread nD τ).loc main_arg9) := rfl

/-- `main_arg10` ends as launched: no host operation writes it and no region has it as an output. -/
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_keep m c main_arg10 (by decide)
    _ = W3 m c (Proc.devRef .tc main_arg10) := StableHlo.after_of_writes_sub hostOps2 _ hostOps2_writes (by decide)
    _ = W2 m c (Proc.devRef .tc main_arg10) := W3_keep m c main_arg10 (by decide)
    _ = W1 m c (Proc.devRef .tc main_arg10) := StableHlo.after_of_writes_sub hostOps1 _ hostOps1_writes (by decide)
    _ = W0 m c (Proc.devRef .tc main_arg10) := W1_keep m c main_arg10 (by decide)
    _ = m ((c : Thread nD τ).loc main_arg10) := rfl

/-- `main_arg11` ends as launched: no host operation writes it and no region has it as an output. -/
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_keep m c main_arg11 (by decide)
    _ = W3 m c (Proc.devRef .tc main_arg11) := StableHlo.after_of_writes_sub hostOps2 _ hostOps2_writes (by decide)
    _ = W2 m c (Proc.devRef .tc main_arg11) := W3_keep m c main_arg11 (by decide)
    _ = W1 m c (Proc.devRef .tc main_arg11) := StableHlo.after_of_writes_sub hostOps1 _ hostOps1_writes (by decide)
    _ = W0 m c (Proc.devRef .tc main_arg11) := W1_keep m c main_arg11 (by decide)
    _ = m ((c : Thread nD τ).loc main_arg11) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V2 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W0`, left at `W1`. Its arrays are
    split out of the unscoped buffers and put back at the exit contents; the generator register goes into the region's
    invariant and comes out; nothing is owed; the kernel has no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the region's
    invariant and comes out; nothing is owed; the kernel has no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (admH (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers and put back at the exit contents; the generator register goes into the region's
    invariant and comes out; nothing is owed; the kernel has no semaphore of its own. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (admH (F := F) 2).1
        ∗ Pipeline.scopedRest spec2 c) ⊢ (Pipeline.ΦA spec2 c : sProp 𝕄) := by
      unfold Pipeline.ΦA
      iintro ⟨Hp, -, Hr⟩
      isplitl [Hr]; · iexact Hr
      iexact Hp
    exact h.trans (hin2 (V4 m) c)
  hout c := by
    rw [Pipeline.ownSems0_none]
    have h : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (hout2 (V4 m) c).trans h
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) admH (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_main m ρ)

/-- THE RESULT beside the frame: the result array ends at what region 2's write-backs leave in it. -/
theorem run_result : θ_run defs (onTc (τ := τ) (main (F := F))) ⟨m, fun _ => 0, ρ⟩ (fun r => ∀ c : Dev nD,
      r.2.mem ((c.tc : Thread nD τ).loc main_v7) = (dat2 (V4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (W5_arr m c 3),
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_main m ρ)

end Cert.Kernel.Hand

end
-- ==== Proof.KI.Reg0Def.lean ====
/- Region 0 (the two layer norms, one row block of 256 rows per grid point): what each window's block is and
   what the body leaves in its two output windows, as functions of the input blocks; the region's proof data. -/
import proofs.«120078_j69518340653173_1_alg».proof.Proof.Gen.KernelIdeal.Launch
import proofs.«120078_j69518340653173_1_alg».proof.Proof.Gen.KernelIdeal.Skeleton
import proofs.«120078_j69518340653173_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first normalised row block: each row of `x` less its mean, times the reciprocal root of its variance plus
    epsilon, times the gain, plus the bias. -/
def out0_6 (x : Vec F S256x4096 .f32) (g b : Vec F S4096 .f32) : Vec F S256x4096 .bf16 := k0_pay2 x g b

/-- The second normalised row block, the same function spelt through the mean and the variance as separate values. -/
def out0_7 (y : Vec F S256x4096 .f32) (g b : Vec F S4096 .f32) : Vec F S256x4096 .bf16 :=
  k0_pay1 y (k0_pay3 y) (k0_pay4 y) g b

/-- The proof data of region 0 on core `c`: the arrays as the region finds them; after the body at point `t` each
    input's buffer at its block and each output's at the normalised block; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 2 t) (iblk0 V c 3 t) := by dsimp only [dat0]
theorem after0_7 (c : Dev nD) (t : Fin cfg0.N) :
    (dat0 V c).after 7 t = out0_7 (iblk0 V c 1 t) (iblk0 V c 4 t) (iblk0 V c 5 t) := by dsimp only [dat0]

end Cert.KernelIdeal.Hand

end
-- ==== Proof.KI.Reg0Body.lean ====
/- Region 0's body obligation: at every grid point the layer-norm body, handed its six input blocks, leaves the two
   normalised blocks in the output windows' buffers and everything else as it was. -/
import proofs.«120078_j69518340653173_1_alg».proof.Proof.KI.Reg0Def
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, fetched there or not: where it is not
    fetched its block index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not: where it is not
    fetched its block index has not moved, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not: where it is not
    fetched its block index has not moved, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not: where it is not
    fetched its block index has not moved, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4's current staging buffer holds its block at every point, fetched there or not: where it is not
    fetched its block index has not moved, and the body leaves the block in place. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5's current staging buffer holds its block at every point, fetched there or not: where it is not
    fetched its block index has not moved, and the body leaves the block in place. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- The whole-buffer rectangles' offsets are all zero. -/
theorem hz0_2 : (![0, 0] : Fin 2 → ℕ) = fun _ => 0 := funext fun a => by fin_cases a <;> rfl
theorem hz0_1 : (![0] : Fin 1 → ℕ) = fun _ => 0 := funext fun a => by fin_cases a; rfl

/-- One store through the whole-buffer rectangle covers the buffer, whatever its payload. -/
theorem cover0_out (p0 : Vec F S256x4096 .bf16) (y : S256x4096.Idx) :
    ∃ pc ∈ ([⟨Rect.unit (s := S256x4096) ![0, 0] S256x4096.size inb_S256x4096_S256x4096_0_0, p0⟩] : List (View.Piece (Elt F) S256x4096 .bf16)), y ∈ pc.1.set :=
  ⟨_, List.mem_singleton_self _, View.mem_set_unit_zero (S := S256x4096) hz0_2 inb_S256x4096_S256x4096_0_0 y⟩

set_option maxHeartbeats 4000000 in
/-- The body on whole staging memrefs, the six inputs' at read contents and the two outputs' at anything, runs to the
    continuation holding the inputs' as they were and the outputs' at the two normalised blocks. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S4096 .f32) (harg6 : arg6.IsWhole) (arg7 : Memref sig .tc .vmem S256x4096 .bf16) (harg7 : arg7.IsWhole) (arg8 : Memref sig .tc .vmem S256x4096 .bf16) (harg8 : arg8.IsWhole)
    (x0 x1 : Vec F S256x4096 .f32) (x2 x3 x4 x5 : Vec F S4096 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x2 x3)
            ∗ owns (c : Thread nD τ) arg8 fullShare (out0_7 x1 x4 x5)) -∗ K ⟨⟩))
      ⊢ wp frame (wpE (defs₀ (F := F)) Variants.none c none) E (cc0__ln_kernel i arg1 harg1 arg2 harg2 arg3 harg3 arg4 harg4 arg5 harg5 arg6 harg6 arg7 harg7 arg8 harg8) K := by
  simp only [cc0__ln_kernel_eq_skeleton]; unfold cc0__ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover0_out _)]
    rw [View.canon_unit_zero hz0_2]
    simp only [View.readAt_eq_ld, View.ld_unit_zero (S := S256x4096) hz0_2, View.ld_unit_zero (S := S4096) hz0_1]
    rfl
  iexists _; isplitr
  swap; · iexact H7
  ipureintro
  rw [View.read_writes_eq_canon _ _ _ (cover0_out _)]
  rw [View.canon_unit_zero hz0_2]
  sl_unfold_run_names
  simp only [View.readAt_eq_ld, View.ld_unit_zero (S := S256x4096) hz0_2, View.ld_unit_zero (S := S4096) hz0_1]
  rfl

/-- What the body is called with at point `t`: the invariant, the core's debts, and every window's current staging
    buffer at what the pipeline hands over, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same with every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Region 0's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Def.lean ====
/- Region 1 (the gate): per row block of 256 rows, sixteen grid points add one 256-column slice of the two normalised
   blocks times the matching 256 rows of the two halves of the first weight matrix into an accumulator kept in
   scratch; the last of the sixteen turns the accumulator into the two mixing weights and stores the mixed block.
   What each window's block is, what the accumulator holds after each point, what the last point stores; the
   region's proof data. -/
import proofs.«120078_j69518340653173_1_alg».proof.Proof.Gen.KernelIdeal.Launch
import proofs.«120078_j69518340653173_1_alg».proof.Proof.Gen.KernelIdeal.Skeleton
import proofs.«120078_j69518340653173_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 256 columns of a 256 × 4096 block that the point's second coordinate names. -/
abbrev rs1 (i : grid1.Coords) : Rect S256x4096 := Rect.unit (s := S256x4096) (k1_off1 i) S256x256.size (k1_off1_inb i)

/-- One accumulation: the accumulator plus the slice of the first block times the first weight rows plus the slice of
    the second block times the second weight rows. -/
def step1 (i : grid1.Coords) (x0 x1 x2 x3 : Vec F S256x4096 .bf16) (acc : Vec F S256x4096 .f32) : Vec F S256x4096 .f32 :=
  k1_pay2 (View.ld x0 (rs1 i)) (View.ld x1 (rs1 i)) acc x2 x3

/-- What the accumulator holds after the body at position `n`: reset to zero at the first of each sixteen points,
    then one accumulation per point. -/
def acc1 (c : Dev nD) : (n : ℕ) → n < cfg1.N → Vec F S256x4096 .f32
  | 0, hn => step1 (grid1.coords ⟨0, hn⟩) (iblk1 V c 0 ⟨0, hn⟩) (iblk1 V c 1 ⟨0, hn⟩) (iblk1 V c 2 ⟨0, hn⟩) (iblk1 V c 3 ⟨0, hn⟩) (k1_pay1 (F := F))
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 16 = 0 then (k1_pay1 (F := F)) else acc1 c n (Nat.lt_of_succ_lt hn))

/-- At the first of sixteen points the accumulator restarts from zero. -/
theorem acc1_reset (c : Dev nD) (t : Fin cfg1.N) (h : t.val % 16 = 0) :
    acc1 V c t.val t.isLt = step1 (grid1.coords t) (iblk1 V c 0 t) (iblk1 V c 1 t) (iblk1 V c 2 t) (iblk1 V c 3 t) (k1_pay1 (F := F)) := by
  obtain ⟨n, hn⟩ := t
  cases n with
  | zero => rfl
  | succ n => exact congrArg _ (if_pos h)

/-- At the others it goes on from what the point before left. -/
theorem acc1_succ (c : Dev nD) (t : Fin cfg1.N) (h : ¬ t.val % 16 = 0) :
    acc1 V c t.val t.isLt = step1 (grid1.coords t) (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd (Nat.zero_mod _) h
  | succ n => exact congrArg _ (if_neg h)

/-- What the last of sixteen points stores: the rectified accumulator plus bias through the second weight matrix, the
    two logits' softmax, and the two normalised blocks mixed by it. -/
def out1 (c : Dev nD) (t : Fin cfg1.N) : Vec F S256x4096 .bf16 :=
  k1_pay3 (acc1 V c t.val t.isLt) (iblk1 V c 5 t) (iblk1 V c 4 t) (iblk1 V c 6 t) (iblk1 V c 0 t) (iblk1 V c 1 t)

/-- The scratch accumulator as a memref. -/
abbrev scM1_0 : Memref sig .tc .vmem S256x4096 .f32 := Memref.whole cc1_scratch0

/-- The scoped buffers other than the accumulator (the staging buffers and scratch of the other regions), each at
    anything: they ride through the region untouched. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point the scoped rest at anything and the generator
    register; afterwards the accumulator at what the point before left, the other scoped buffers at anything, and the
    generator register. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ rest1 c) ∗ (∃ r, prngReg c r)) := by
  cases n with
  | zero => exact absurd rfl hz
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

end Cert.KernelIdeal.Hand

end
-- ==== Proof.KI.Reg1Body.lean ====
/- Region 1's body obligation: at every grid point the gate body, handed its blocks and the accumulator at what the point before left, leaves the accumulator one step on and, at the last of sixteen points, the mixed block in the output window's buffer. -/
import proofs.«120078_j69518340653173_1_alg».proof.Proof.KI.Reg1Def
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The first conditional's condition: the point's second coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition: the point's second coordinate is fifteen. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- The output window is idle where the second conditional is not taken, -/
theorem idleAt1_7 : ∀ t : Fin cfg1.N, ¬cond1_1 (grid1.coords t) → cfg1.idle 7 (grid1.coords t) = true := by decide +kernel
/-- is not written back there, -/
theorem noFlush1_7 : ∀ t : Fin cfg1.N, ¬cond1_1 (grid1.coords t) → (cfg1.win 7).flush t = false := by decide +kernel
/-- and is live where it is taken. -/
theorem liveAt1_7 : ∀ t : Fin cfg1.N, cond1_1 (grid1.coords t) → cfg1.idle 7 (grid1.coords t) = false := by decide +kernel

/-! ## What the inputs' staging buffers hold when the body runs -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The invariant handed in: the accumulator's buffer beside the rest of the scoped buffers -/

/-- The scoped rest split at the accumulator: it at some contents, the other scoped buffers unopened. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ rest1 c) :=
  Pipeline.scopedRest_split_of_list spec1 c [cc1_scratch0] (by decide) (by decide)

/-- What the launch hands the region, with the accumulator as a memref owned at some contents. -/
theorem PhiA1_eq (c : Dev nD) :
    (Pipeline.ΦA spec1 c : sProp 𝕄)
      = iprop(iprop(iprop((∃ d, owns (c : Thread nD τ) scM1_0 fullShare d)) ∗ rest1 c) ∗ (∃ r, prngReg c r)) := by
  unfold Pipeline.ΦA; rw [scopedRest1_split]; simp only [scM1_0, owns_whole]; try rfl

/-! ## The body on any staging memrefs, case by case: the runs and what their pieces read back as -/

/-- The zero offsets of a rank-two rectangle, as a constant function. -/
theorem zero1_2 : (![0, 0] : Fin 2 → ℕ) = fun _ => 0 := funext fun a => by fin_cases a <;> rfl

set_option maxHeartbeats 4000000 in
/-- The body where the first conditional is taken and the second is not: the accumulator zeroed, then one accumulation.
    The pieces the accumulator ends with are found by the run. -/
noncomputable def kernelRun1_A (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : cond1_0 i) (hc1 : ¬cond1_1 i)
    (x0 x1 x2 x3 : Vec F S256x4096 .bf16) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg10.view.loc (c : Thread nD τ) ↦[arg10.view.set]{fullShare} arg10.view.writes (Elt F) f LS0)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Where only the first conditional is taken the accumulator's pieces cover it. -/
theorem scover1_A (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : cond1_0 i) (hc1 : ¬cond1_1 i)
    (x0 x1 x2 x3 : Vec F S256x4096 .bf16) (y : S256x4096.Idx) :
    ∃ pc ∈ (kernelRun1_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).1 S256x4096.size (by sl_kernel_rfl) y

/-- and read back as one accumulation on zero. -/
theorem canon1_A (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : cond1_0 i) (hc1 : ¬cond1_1 i)
    (x0 x1 x2 x3 : Vec F S256x4096 .bf16) :
    View.canon (kernelRun1_A c i arg2 harg2 arg3 harg3 arg4 harg4 arg5 harg5 arg6 harg6 arg7 harg7 arg8 harg8 arg9 harg9 arg10 harg10 hc0 hc1 x0 x1 x2 x3).1 = step1 i x0 x1 x2 x3 (k1_pay1 (F := F)) := by
  unfold kernelRun1_A; dsimp only; sl_unfold_words
  rw [View.canon_cons_unit_zero (S := S256x4096) zero1_2]
  simp only [View.readAt_eq_ld, harg2.read_unread, harg3.read_unread, harg4.read_unread, harg5.read_unread, View.ld_unit_zero (S := S256x4096) zero1_2, View.readCov_unit_zero (S := S256x4096) _ zero1_2]
  rfl

set_option maxHeartbeats 4000000 in
/-- The body where neither conditional is taken: one accumulation on the carried accumulator. The pieces the accumulator
    ends with are found by the run. -/
noncomputable def kernelRun1_B (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : ¬cond1_1 i)
    (x0 x1 x2 x3 : Vec F S256x4096 .bf16) (xs0 : Vec F S256x4096 .f32) :
    { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg10.view.loc (c : Thread nD τ) ↦[arg10.view.set]{fullShare} arg10.view.writes (Elt F) f LS0)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-- Where neither conditional is taken the accumulator's pieces cover it. -/
theorem scover1_B (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : ¬cond1_1 i)
    (x0 x1 x2 x3 : Vec F S256x4096 .bf16) (xs0 : Vec F S256x4096 .f32) (y : S256x4096.Idx) :
    ∃ pc ∈ (kernelRun1_B c i arg2 harg2 arg3 harg3 arg4 harg4 arg5 harg5 arg6 harg6 arg7 harg7 arg8 harg8 arg9 harg9 arg10 harg10 hc0 hc1 x0 x1 x2 x3 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs0).1 S256x4096.size (by sl_kernel_rfl) y

/-- and read back as one accumulation on what was carried. -/
theorem canon1_B (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : ¬cond1_1 i)
    (x0 x1 x2 x3 : Vec F S256x4096 .bf16) (xs0 : Vec F S256x4096 .f32) :
    View.canon (kernelRun1_B c i arg2 harg2 arg3 harg3 arg4 harg4 arg5 harg5 arg6 harg6 arg7 harg7 arg8 harg8 arg9 harg9 arg10 harg10 hc0 hc1 x0 x1 x2 x3 xs0).1 = step1 i x0 x1 x2 x3 xs0 := by
  unfold kernelRun1_B; dsimp only; sl_unfold_words
  rw [View.canon_unit_zero zero1_2]
  simp only [View.readAt_eq_ld, harg2.read_unread, harg3.read_unread, harg4.read_unread, harg5.read_unread, harg10.read_unread, View.ld_unit_zero (S := S256x4096) zero1_2]
  rfl

set_option maxHeartbeats 4000000 in
/-- The body where the first conditional is not taken and the second is: one accumulation on the carried accumulator, then
    the output stored. The pieces the output and the accumulator end with are found by the run. -/
noncomputable def kernelRun1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) :
    Σ' (L7 : List (View.Piece (Elt F) S256x4096 .bf16)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, ?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Where only the second conditional is taken the accumulator's pieces cover it, -/
theorem scover1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) (y : S256x4096.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S256x4096.size (by sl_kernel_rfl) y

/-- the output's pieces cover it, -/
theorem cover1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) (y : S256x4096.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S256x4096.size (by sl_kernel_rfl) y

/-- the accumulator reads back as one accumulation on what was carried, -/
theorem canon1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) :
    View.canon (kernelRun1_C c i arg2 harg2 arg3 harg3 arg4 harg4 arg5 harg5 arg6 harg6 arg7 harg7 arg8 harg8 arg9 harg9 arg10 harg10 hc0 hc1 x0 x1 x2 x3 x4 x5 x6 xs0).2.1 = step1 i x0 x1 x2 x3 xs0 := by
  unfold kernelRun1_C; dsimp only; sl_unfold_words
  rw [View.canon_unit_zero zero1_2]
  simp only [View.readAt_eq_ld, harg2.read_unread, harg3.read_unread, harg4.read_unread, harg5.read_unread, harg10.read_unread, View.ld_unit_zero (S := S256x4096) zero1_2]
  rfl

/-- The zero offset of a rank-one rectangle, as a constant function. -/
theorem zero1_1 : (![0] : Fin 1 → ℕ) = fun _ => 0 := funext fun a => by fin_cases a <;> rfl

/-- and the output as the mix computed from the accumulator after this accumulation. -/
theorem canonO1_C (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬cond1_0 i) (hc1 : cond1_1 i)
    (x0 x1 x2 x3 : Vec F S256x4096 .bf16) (x4 : Vec F S4096x2 .f32) (x5 : Vec F S4096 .f32) (x6 : Vec F S2 .f32) (xs0 : Vec F S256x4096 .f32) :
    View.canon (kernelRun1_C c i arg2 harg2 arg3 harg3 arg4 harg4 arg5 harg5 arg6 harg6 arg7 harg7 arg8 harg8 arg9 harg9 arg10 harg10 hc0 hc1 x0 x1 x2 x3 x4 x5 x6 xs0).1 = k1_pay3 (step1 i x0 x1 x2 x3 xs0) x5 x4 x6 x0 x1 := by
  unfold kernelRun1_C; dsimp only; sl_unfold_words
  rw [View.canon_unit_zero zero1_2]
  simp only [View.readAt_eq_ld, harg2.read_unread, harg3.read_unread, harg4.read_unread, harg5.read_unread, harg6.read_unread, harg7.read_unread, harg8.read_unread, harg10.read_unread, View.ld_unit_zero (S := S256x4096) zero1_2, View.ld_unit_zero (S := S4096x2) zero1_2, View.ld_unit_zero (S := S4096) zero1_1, View.ld_unit_zero (S := S2) zero1_1, View.readCov_unit_zero (S := S256x4096) _ zero1_2]
  rfl

/-! ## The body obligation, at a generic point -/

/-- Each window's current staging memref at point `t`, as the pipeline passes it, and its wholeness. -/
abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x4096 .bf16 := win1_7.stage (cfg1.slots t 7)
abbrev hs1_7 (t : Fin cfg1.N) : (ms1_7 t).IsWhole := hstage1_7 ((cfg1.slots t 7).cast nbuf1_7)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' buffers hold their blocks; the closed forms say which case the point is in; the
    case's run applies; the invariant hands the accumulator over at what the point before left (at anything at the
    first point) and takes it back one accumulation on; where the output is stored, its buffer holds the mix. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [acc1_reset V c t h0]
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))).trans (canon1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))).trans (canon1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      unfold out1
      rw [acc1_succ V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))).trans (canon1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      exact (View.read_writes_eq_canon _ _ _ (cover1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))).trans (canonO1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)))
    · rw [Dat.leavesExact_idle (dat1 V c) 7 t (idleAt1_7 t (fun h => h1 ((hcond1_1 t).mp h))) (noFlush1_7 t (fun h => h1 ((hcond1_1 t).mp h)))]
      rw [acc1_succ V c t h0]
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt))).2 Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro
            exact (View.read_writes_eq_canon _ _ _ (scover1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt)))).trans (canon1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- After the last point the invariant gives the scoped rest back: the accumulator's contents are forgotten. -/
theorem hout1 (c : Dev nD) : (dat1 V c).Φ (Fin.last cfg1.N) ⊢ (Pipeline.ΦA spec1 c : sProp 𝕄) :=
  Phi_out1 V c _ (by rw [Fin.val_last]; have : cfg1.N = 512 := N_1; omega)

end Cert.KernelIdeal.Hand

end
-- ==== Proof.KI.Reg2Def.lean ====
/- Region 2 (the last linear layer): per row block of 256 rows, eight grid points add one 256 × 512 block of the mixed
   rows times the matching 512 rows of the output weight matrix into an accumulator kept in scratch; the last of the
   eight adds the bias and stores the block. What each window's block is, what the accumulator holds after each
   point, what the last point stores; the region's proof data. -/
import proofs.«120078_j69518340653173_1_alg».proof.Proof.Gen.KernelIdeal.Launch
import proofs.«120078_j69518340653173_1_alg».proof.Proof.Gen.KernelIdeal.Skeleton
import proofs.«120078_j69518340653173_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One accumulation: the accumulator plus the block of mixed rows times the block of weight rows. -/
def step2 (x0 : Vec F S256x512 .bf16) (x1 : Vec F S512x4096 .bf16) (acc : Vec F S256x4096 .f32) : Vec F S256x4096 .f32 :=
  k2_pay2 acc x0 x1

/-- What the accumulator holds after the body at position `n`: reset to zero at the first of each eight points, then
    one accumulation per point. -/
def acc2 (c : Dev nD) : (n : ℕ) → n < cfg2.N → Vec F S256x4096 .f32
  | 0, hn => step2 (iblk2 V c 0 ⟨0, hn⟩) (iblk2 V c 1 ⟨0, hn⟩) (k2_pay1 (F := F))
  | n + 1, hn => step2 (iblk2 V c 0 ⟨n + 1, hn⟩) (iblk2 V c 1 ⟨n + 1, hn⟩)
      (if (n + 1) % 8 = 0 then (k2_pay1 (F := F)) else acc2 c n (Nat.lt_of_succ_lt hn))

/-- At the first of eight points the accumulator restarts from zero. -/
theorem acc2_reset (c : Dev nD) (t : Fin cfg2.N) (h : t.val % 8 = 0) :
    acc2 V c t.val t.isLt = step2 (iblk2 V c 0 t) (iblk2 V c 1 t) (k2_pay1 (F := F)) := by
  obtain ⟨n, hn⟩ := t
  cases n with
  | zero => rfl
  | succ n => exact congrArg _ (if_pos h)

/-- At the others it goes on from what the point before left. -/
theorem acc2_succ (c : Dev nD) (t : Fin cfg2.N) (h : ¬ t.val % 8 = 0) :
    acc2 V c t.val t.isLt = step2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact congrArg _ (if_neg h)

/-- What the last of eight points stores: the accumulator plus the bias row. -/
def out2 (c : Dev nD) (t : Fin cfg2.N) : Vec F S256x4096 .f32 :=
  k2_pay3 (acc2 V c t.val t.isLt) (iblk2 V c 2 t)

/-- The scratch accumulator as a memref. -/
abbrev scM2_0 : Memref sig .tc .vmem S256x4096 .f32 := Memref.whole cc2_scratch0

/-- The scoped buffers other than the accumulator (the staging buffers and scratch of the other regions), each at
    anything: they ride through the region untouched. -/
abbrev rest2 (c : Dev nD) : sProp 𝕄 :=
  Pipeline.scopedRestBut (Ix := Unit) (Name := ℕ) (U := UR sig nD τ) (Lvl := ℕ) (Val := Elt F) spec2 c [cc2_scratch0]

/-- The region invariant before position `n`: before the first point the scoped rest at anything and the generator
    register; afterwards the accumulator at what the point before left, the other scoped buffers at anything, and the
    generator register. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (acc2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ rest2 c) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

end Cert.KernelIdeal.Hand

end
-- ==== Proof.KI.Reg2Body.lean ====
/- Region 2's body obligation: at every grid point the body, handed its blocks and the accumulator at what the point before left, leaves the accumulator one step on and, at the last of eight points, the biased block in the output window's buffer. -/
import proofs.«120078_j69518340653173_1_alg».proof.Proof.KI.Reg2Def
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The first conditional's condition (the second coordinate is zero), from the grid coordinates. -/
abbrev cond2_0 (i : grid2.Coords) : Prop := (Scalar.cmpi .ne (Scalar.extui (Scalar.cmpi .eq (BitVec.ofNat 32 (i 1).val) 0#32)) 0#32) = 1#1
/-- It holds at the first of each eight points. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (the second coordinate is seven). -/
abbrev cond2_1 (i : grid2.Coords) : Prop := k2_cond2 i = 1#1
/-- It holds at the last of each eight points. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the last of eight points the output window is idle, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at the last of eight it is live. -/
theorem liveAt2_3 : ∀ t : Fin cfg2.N, cond2_1 (grid2.coords t) → cfg2.idle 3 (grid2.coords t) = false := by decide +kernel

/-! ## The scratch accumulator in the invariant -/

/-- The launch's invariant with the accumulator as a memref owned at some contents, the other scoped buffers beside it. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

/-! ## The inputs' staging buffers hold their blocks -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The body on any whole memrefs, case by case: the pieces each run leaves in the accumulator -/

set_option maxHeartbeats 4000000 in
/-- At the first of eight points: the accumulator, found at anything, is zeroed, then one accumulation is stored; the
    output's buffer is handed back untouched. The pieces the accumulator ends with are the witness the run finds. -/
noncomputable def kernelRun2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i)
    (x0 : Vec F S256x512 .bf16) (x1 : Vec F S512x4096 .bf16) (x2 : Vec F S4096 .f32) :
    { LS0 : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_kernel i arg2 harg2 arg3 harg3 arg4 harg4 arg5 harg5 arg6 harg6) K } := by
  refine ⟨?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- At a point strictly inside a run of eight: one accumulation onto what the point before left; the output's buffer
    is handed back untouched. -/
noncomputable def kernelRun2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i)
    (x0 : Vec F S256x512 .bf16) (x1 : Vec F S512x4096 .bf16) (x2 : Vec F S4096 .f32) (xs0 : Vec F S256x4096 .f32) :
    { LS0 : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__final_kernel i arg2 harg2 arg3 harg3 arg4 harg4 arg5 harg5 arg6 harg6) K } := by
  refine ⟨?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- At the last of eight points: one accumulation onto what the point before left, then the accumulator is read back
    and, the bias row added, stored into the output's buffer (found at anything). -/
noncomputable def kernelRun2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i)
    (x0 : Vec F S256x512 .bf16) (x1 : Vec F S512x4096 .bf16) (x2 : Vec F S4096 .f32) (xs0 : Vec F S256x4096 .f32) :
    Σ' (L3 : List (View.Piece (Elt F) S256x4096 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__final_kernel i arg2 harg2 arg3 harg3 arg4 harg4 arg5 harg5 arg6 harg6) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What the runs' pieces read back -/

theorem zeros2_rank2 : (![0, 0] : Fin 2 → ℕ) = fun _ => 0 := funext fun a => by fin_cases a <;> rfl
theorem zeros2_rank1 : (![0] : Fin 1 → ℕ) = fun _ => 0 := funext fun a => by fin_cases a; rfl

/-- The first case's two stores (the reset, then the accumulation, each the whole buffer) cover the accumulator. -/
theorem scover2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i) (x0 : Vec F S256x512 .bf16) (x1 : Vec F S512x4096 .bf16) (x2 : Vec F S4096 .f32) (y : S256x4096.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S256x4096.size (by sl_kernel_rfl) y

/-- They leave one accumulation over zero: the later store's payload, its accumulator operand the reset read back. -/
theorem canon2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i) (x0 : Vec F S256x512 .bf16) (x1 : Vec F S512x4096 .bf16) (x2 : Vec F S4096 .f32) :
    View.canon (kernelRun2_A c i arg2 harg2 arg3 harg3 arg4 harg4 arg5 harg5 arg6 harg6 hc0 hc1 x0 x1 x2).1 = step2 x0 x1 (k2_pay1 (F := F)) := by
  unfold kernelRun2_A; dsimp only; sl_unfold_words
  rw [View.canon_cons_unit_zero (S := S256x4096) zeros2_rank2, View.readCov_unit_zero (S := S256x4096) _ zeros2_rank2]
  simp only [View.readAt_eq_ld, harg2.read_unread, harg3.read_unread, View.ld_unit_zero (S := S256x512) zeros2_rank2, View.ld_unit_zero (S := S512x4096) zeros2_rank2]
  rfl

theorem sread2_A (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : cond2_0 i) (hc1 : ¬cond2_1 i) (x0 : Vec F S256x512 .bf16) (x1 : Vec F S512x4096 .bf16) (x2 : Vec F S4096 .f32) (f : arg6.view.ty.Contents (Elt F)) :
    arg6.view.read (Elt F) (arg6.view.writes (Elt F) f (kernelRun2_A c i arg2 harg2 arg3 harg3 arg4 harg4 arg5 harg5 arg6 harg6 hc0 hc1 x0 x1 x2).1) = step2 x0 x1 (k2_pay1 (F := F)) :=
  (View.read_writes_eq_canon _ _ _ (scover2_A c i arg2 harg2 arg3 harg3 arg4 harg4 arg5 harg5 arg6 harg6 hc0 hc1 x0 x1 x2)).trans (canon2_A c i arg2 harg2 arg3 harg3 arg4 harg4 arg5 harg5 arg6 harg6 hc0 hc1 x0 x1 x2)

/-- The middle case's one store covers the accumulator, -/
theorem scover2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i) (x0 : Vec F S256x512 .bf16) (x1 : Vec F S512x4096 .bf16) (x2 : Vec F S4096 .f32) (xs0 : Vec F S256x4096 .f32) (y : S256x4096.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S256x4096.size (by sl_kernel_rfl) y

/-- and leaves one accumulation over what the accumulator held. -/
theorem canon2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i) (x0 : Vec F S256x512 .bf16) (x1 : Vec F S512x4096 .bf16) (x2 : Vec F S4096 .f32) (xs0 : Vec F S256x4096 .f32) :
    View.canon (kernelRun2_B c i arg2 harg2 arg3 harg3 arg4 harg4 arg5 harg5 arg6 harg6 hc0 hc1 x0 x1 x2 xs0).1 = step2 x0 x1 xs0 := by
  unfold kernelRun2_B; dsimp only; sl_unfold_words
  rw [View.canon_unit_zero (S := S256x4096) zeros2_rank2]
  simp only [View.readAt_eq_ld, harg2.read_unread, harg3.read_unread, harg6.read_unread, View.ld_unit_zero (S := S256x512) zeros2_rank2, View.ld_unit_zero (S := S512x4096) zeros2_rank2, View.ld_unit_zero (S := S256x4096) zeros2_rank2]
  rfl

theorem sread2_B (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : ¬cond2_1 i) (x0 : Vec F S256x512 .bf16) (x1 : Vec F S512x4096 .bf16) (x2 : Vec F S4096 .f32) (xs0 : Vec F S256x4096 .f32) (f : arg6.view.ty.Contents (Elt F)) :
    arg6.view.read (Elt F) (arg6.view.writes (Elt F) f (kernelRun2_B c i arg2 harg2 arg3 harg3 arg4 harg4 arg5 harg5 arg6 harg6 hc0 hc1 x0 x1 x2 xs0).1) = step2 x0 x1 xs0 :=
  (View.read_writes_eq_canon _ _ _ (scover2_B c i arg2 harg2 arg3 harg3 arg4 harg4 arg5 harg5 arg6 harg6 hc0 hc1 x0 x1 x2 xs0)).trans (canon2_B c i arg2 harg2 arg3 harg3 arg4 harg4 arg5 harg5 arg6 harg6 hc0 hc1 x0 x1 x2 xs0)

/-- The last case: the same for the accumulator, -/
theorem scover2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (y : S256x4096.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S256x4096.size (by sl_kernel_rfl) y

theorem canon2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) :
    View.canon (kernelRun2_C c i arg2 harg2 arg3 harg3 arg4 harg4 arg5 harg5 arg6 harg6 hc0 hc1 x0 x1 x2 xs0).2.1 = step2 x0 x1 xs0 := by
  unfold kernelRun2_C; dsimp only; sl_unfold_words
  rw [View.canon_unit_zero (S := S256x4096) zeros2_rank2]
  simp only [View.readAt_eq_ld, harg2.read_unread, harg3.read_unread, harg6.read_unread, View.ld_unit_zero (S := S256x512) zeros2_rank2, View.ld_unit_zero (S := S512x4096) zeros2_rank2, View.ld_unit_zero (S := S256x4096) zeros2_rank2]
  rfl

theorem sread2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (f : arg6.view.ty.Contents (Elt F)) :
    arg6.view.read (Elt F) (arg6.view.writes (Elt F) f (kernelRun2_C c i arg2 harg2 arg3 harg3 arg4 harg4 arg5 harg5 arg6 harg6 hc0 hc1 x0 x1 x2 xs0).2.1) = step2 x0 x1 xs0 :=
  (View.read_writes_eq_canon _ _ _ (scover2_C c i arg2 harg2 arg3 harg3 arg4 harg4 arg5 harg5 arg6 harg6 hc0 hc1 x0 x1 x2 xs0)).trans (canon2_C c i arg2 harg2 arg3 harg3 arg4 harg4 arg5 harg5 arg6 harg6 hc0 hc1 x0 x1 x2 xs0)

/-- and the output's one store covers its buffer -/
theorem ocover2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (y : S256x4096.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S256x4096.size (by sl_kernel_rfl) y

/-- and leaves the bias row added to the accumulator as this point's accumulation left it (the accumulator read back
    after its store). -/
theorem ocanon2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) :
    View.canon (kernelRun2_C c i arg2 harg2 arg3 harg3 arg4 harg4 arg5 harg5 arg6 harg6 hc0 hc1 x0 x1 x2 xs0).1 = k2_pay3 (step2 x0 x1 xs0) x2 := by
  unfold kernelRun2_C; dsimp only; sl_unfold_words
  rw [View.canon_unit_zero (S := S256x4096) zeros2_rank2, View.readCov_unit_zero (S := S256x4096) _ zeros2_rank2]
  simp only [View.readAt_eq_ld, harg2.read_unread, harg3.read_unread, harg4.read_unread, harg6.read_unread, View.ld_unit_zero (S := S256x512) zeros2_rank2, View.ld_unit_zero (S := S512x4096) zeros2_rank2, View.ld_unit_zero (S := S256x4096) zeros2_rank2, View.ld_unit_zero (S := S4096) zeros2_rank1]
  rfl

theorem oread2_C (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬cond2_0 i) (hc1 : cond2_1 i) (x0 : Vec F S256x512 .bf16) (x1 : Vec F S512x4096 .bf16) (x2 : Vec F S4096 .f32) (xs0 : Vec F S256x4096 .f32) (f : arg5.view.ty.Contents (Elt F)) :
    arg5.view.read (Elt F) (arg5.view.writes (Elt F) f (kernelRun2_C c i arg2 harg2 arg3 harg3 arg4 harg4 arg5 harg5 arg6 harg6 hc0 hc1 x0 x1 x2 xs0).1) = k2_pay3 (step2 x0 x1 xs0) x2 :=
  (View.read_writes_eq_canon _ _ _ (ocover2_C c i arg2 harg2 arg3 harg3 arg4 harg4 arg5 harg5 arg6 harg6 hc0 hc1 x0 x1 x2 xs0)).trans (ocanon2_C c i arg2 harg2 arg3 harg3 arg4 harg4 arg5 harg5 arg6 harg6 hc0 hc1 x0 x1 x2 xs0)

/-! ## The body obligation, at a generic point -/

/-- Each window's current staging memref at point `t`, as the pipeline passes it, and its wholeness. -/
abbrev ms2_0 (t : Fin cfg2.N) : Memref sig .tc .vmem S256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .f32 := win2_3.stage (cfg2.slots t 3)
abbrev hs2_3 (t : Fin cfg2.N) : (ms2_3 t).IsWhole := hstage2_3 ((cfg2.slots t 3).cast nbuf2_3)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position among its eight says which case
    it is in; the invariant hands the body the accumulator at what the point before left (at anything at the very first
    point) and takes it back one accumulation on (from zero at the first of eight); away from the last of eight the
    output's buffer goes back as it came, at the last it holds the accumulator, as this point left it, plus the bias
    row. The other scoped buffers and the generator register ride through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [acc2_reset V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) es0
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t) es0
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc2_succ V c t h0]
    rw [PhiS2_castSucc V c t, PhiS2_pos V c _ _ hz]
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      unfold out2
      rw [acc2_succ V c t h0]
      iintro ⟨⟨⟨HS0, Hr⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt))).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact sread2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) es0
          iexact Hr
        iexact Hg
      isplitl [Ho]; · iexact Ho
      isplitl [H0]; · iexact H0
      isplitl [H1]; · iexact H1
      isplitl [H2]; · iexact H2
      unfold owns; iexists _; isplitr
      swap; · iexact H3
      ipureintro; exact oread2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) e3
    · rw [Dat.leavesExact_idle (dat2 V c) 3 t (idleAt2_3 t (fun h => h1 ((hcond2_1 t).mp h))) (noFlush2_3 t (fun h => h1 ((hcond2_1 t).mp h)))]
      iintro ⟨⟨⟨HS0, Hr⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt)) es0
          iexact Hr
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := by
  intro t
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's contents are forgotten. -/
theorem hout2 (c : Dev nD) : (dat2 V c).Φ (Fin.last cfg2.N) ⊢ (Pipeline.ΦA spec2 c : sProp 𝕄) := by
  have ht : (Fin.last cfg2.N).val ≠ 0 := by rw [Fin.val_last]; have : cfg2.N = 256 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨⟨HS0, Hr⟩, Hg⟩
  isplitl [HS0 Hr]
  · isplitl [HS0]
    · iexists _; iexact HS0
    iexact Hr
  iexact Hg

end Cert.KernelIdeal.Hand

end
-- ==== Proof.KI.Run.lean ====
/- The run of @main: the buffers' contents at each boundary between its items (region 0, two slices and two format
   changes of the first weight matrix, region 1, a format change of the output weight matrix, region 2), the three
   regions as segments over the thread state "every unscoped buffer at the boundary's contents, the generator
   register at some state, nothing owed", and the launch: every weakly fair execution terminates with every unscoped
   buffer at the last boundary's contents. From it: the arguments end as launched, and the result array holds what
   region 2's write-backs leave. -/
import proofs.«120078_j69518340653173_1_alg».proof.Proof.KI.Reg0Body
import proofs.«120078_j69518340653173_1_alg».proof.Proof.KI.Reg1Body
import proofs.«120078_j69518340653173_1_alg».proof.Proof.KI.Reg2Body
import proofs.«120078_j69518340653173_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b

/-- At region 0's exit: its arrays at what the pipeline leaves (the inputs as entered, each output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- A buffer that is no OUTPUT array of region 0 leaves the region as it entered: an input array is never written,
    and a buffer no window stages bypasses the region. -/
theorem W1_keep (c : Dev nD) (b : Ref sig .tc) (h : ∀ w, Pipeline.arrRef spec0 w = b → (cfg0.win w).isOut = false) :
    W1 m c (Proc.devRef .tc b) = W0 m c (Proc.devRef .tc b) := by
  by_cases hb : ∃ w, Pipeline.arrRef spec0 w = b
  · obtain ⟨w, rfl⟩ := hb
    exact (W1_arr m c w).trans (((dat0 (V0 m) c).arrAt_in w (h w rfl) _).trans (A_eq0 (V0 m) c w))
  · exact W1_of_ne m c b fun w e => hb ⟨w, e⟩

/-- After the host operations between regions 0 and 1 (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- At region 1's exit: its arrays at what the pipeline leaves (the inputs as entered, each output's write-backs
    folded), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- A buffer that is no OUTPUT array of region 1 leaves the region as it entered: an input array is never written,
    and a buffer no window stages bypasses the region. -/
theorem W3_keep (c : Dev nD) (b : Ref sig .tc) (h : ∀ w, Pipeline.arrRef spec1 w = b → (cfg1.win w).isOut = false) :
    W3 m c (Proc.devRef .tc b) = W2 m c (Proc.devRef .tc b) := by
  by_cases hb : ∃ w, Pipeline.arrRef spec1 w = b
  · obtain ⟨w, rfl⟩ := hb
    exact (W3_arr m c w).trans (((dat1 (V2 m) c).arrAt_in w (h w rfl) _).trans (A_eq1 (V2 m) c w))
  · exact W3_of_ne m c b fun w e => hb ⟨w, e⟩

/-- After the host operation between regions 1 and 2 (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- At region 2's exit: its arrays at what the pipeline leaves (the inputs as entered, each output's write-backs
    folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- A buffer that is no OUTPUT array of region 2 leaves the region as it entered: an input array is never written,
    and a buffer no window stages bypasses the region. -/
theorem W5_keep (c : Dev nD) (b : Ref sig .tc) (h : ∀ w, Pipeline.arrRef spec2 w = b → (cfg2.win w).isOut = false) :
    W5 m c (Proc.devRef .tc b) = W4 m c (Proc.devRef .tc b) := by
  by_cases hb : ∃ w, Pipeline.arrRef spec2 w = b
  · obtain ⟨w, rfl⟩ := hb
    exact (W5_arr m c w).trans (((dat2 (V4 m) c).arrAt_in w (h w rfl) _).trans (A_eq2 (V4 m) c w))
  · exact W5_of_ne m c b fun w e => hb ⟨w, e⟩

/-! ## The arguments end as launched -/

/-- `main_arg0` ends as launched: no host operation writes it and no region has it as an output. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_keep m c main_arg0 (by decide)
    _ = W3 m c (Proc.devRef .tc main_arg0) := StableHlo.after_of_writes_sub hostOps2 _ hostOps2_writes (by decide)
    _ = W2 m c (Proc.devRef .tc main_arg0) := W3_keep m c main_arg0 (by decide)
    _ = W1 m c (Proc.devRef .tc main_arg0) := StableHlo.after_of_writes_sub hostOps1 _ hostOps1_writes (by decide)
    _ = W0 m c (Proc.devRef .tc main_arg0) := W1_keep m c main_arg0 (by decide)
    _ = m ((c : Thread nD τ).loc main_arg0) := rfl

/-- `main_arg1` ends as launched: no host operation writes it and no region has it as an output. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_keep m c main_arg1 (by decide)
    _ = W3 m c (Proc.devRef .tc main_arg1) := StableHlo.after_of_writes_sub hostOps2 _ hostOps2_writes (by decide)
    _ = W2 m c (Proc.devRef .tc main_arg1) := W3_keep m c main_arg1 (by decide)
    _ = W1 m c (Proc.devRef .tc main_arg1) := StableHlo.after_of_writes_sub hostOps1 _ hostOps1_writes (by decide)
    _ = W0 m c (Proc.devRef .tc main_arg1) := W1_keep m c main_arg1 (by decide)
    _ = m ((c : Thread nD τ).loc main_arg1) := rfl

/-- `main_arg2` ends as launched: no host operation writes it and no region has it as an output. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_keep m c main_arg2 (by decide)
    _ = W3 m c (Proc.devRef .tc main_arg2) := StableHlo.after_of_writes_sub hostOps2 _ hostOps2_writes (by decide)
    _ = W2 m c (Proc.devRef .tc main_arg2) := W3_keep m c main_arg2 (by decide)
    _ = W1 m c (Proc.devRef .tc main_arg2) := StableHlo.after_of_writes_sub hostOps1 _ hostOps1_writes (by decide)
    _ = W0 m c (Proc.devRef .tc main_arg2) := W1_keep m c main_arg2 (by decide)
    _ = m ((c : Thread nD τ).loc main_arg2) := rfl

/-- `main_arg3` ends as launched: no host operation writes it and no region has it as an output. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_keep m c main_arg3 (by decide)
    _ = W3 m c (Proc.devRef .tc main_arg3) := StableHlo.after_of_writes_sub hostOps2 _ hostOps2_writes (by decide)
    _ = W2 m c (Proc.devRef .tc main_arg3) := W3_keep m c main_arg3 (by decide)
    _ = W1 m c (Proc.devRef .tc main_arg3) := StableHlo.after_of_writes_sub hostOps1 _ hostOps1_writes (by decide)
    _ = W0 m c (Proc.devRef .tc main_arg3) := W1_keep m c main_arg3 (by decide)
    _ = m ((c : Thread nD τ).loc main_arg3) := rfl

/-- `main_arg4` ends as launched: no host operation writes it and no region has it as an output. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_keep m c main_arg4 (by decide)
    _ = W3 m c (Proc.devRef .tc main_arg4) := StableHlo.after_of_writes_sub hostOps2 _ hostOps2_writes (by decide)
    _ = W2 m c (Proc.devRef .tc main_arg4) := W3_keep m c main_arg4 (by decide)
    _ = W1 m c (Proc.devRef .tc main_arg4) := StableHlo.after_of_writes_sub hostOps1 _ hostOps1_writes (by decide)
    _ = W0 m c (Proc.devRef .tc main_arg4) := W1_keep m c main_arg4 (by decide)
    _ = m ((c : Thread nD τ).loc main_arg4) := rfl

/-- `main_arg5` ends as launched: no host operation writes it and no region has it as an output. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_keep m c main_arg5 (by decide)
    _ = W3 m c (Proc.devRef .tc main_arg5) := StableHlo.after_of_writes_sub hostOps2 _ hostOps2_writes (by decide)
    _ = W2 m c (Proc.devRef .tc main_arg5) := W3_keep m c main_arg5 (by decide)
    _ = W1 m c (Proc.devRef .tc main_arg5) := StableHlo.after_of_writes_sub hostOps1 _ hostOps1_writes (by decide)
    _ = W0 m c (Proc.devRef .tc main_arg5) := W1_keep m c main_arg5 (by decide)
    _ = m ((c : Thread nD τ).loc main_arg5) := rfl

/-- `main_arg6` ends as launched: no host operation writes it and no region has it as an output. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_keep m c main_arg6 (by decide)
    _ = W3 m c (Proc.devRef .tc main_arg6) := StableHlo.after_of_writes_sub hostOps2 _ hostOps2_writes (by decide)
    _ = W2 m c (Proc.devRef .tc main_arg6) := W3_keep m c main_arg6 (by decide)
    _ = W1 m c (Proc.devRef .tc main_arg6) := StableHlo.after_of_writes_sub hostOps1 _ hostOps1_writes (by decide)
    _ = W0 m c (Proc.devRef .tc main_arg6) := W1_keep m c main_arg6 (by decide)
    _ = m ((c : Thread nD τ).loc main_arg6) := rfl

/-- `main_arg7` ends as launched: no host operation writes it and no region has it as an output. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_keep m c main_arg7 (by decide)
    _ = W3 m c (Proc.devRef .tc main_arg7) := StableHlo.after_of_writes_sub hostOps2 _ hostOps2_writes (by decide)
    _ = W2 m c (Proc.devRef .tc main_arg7) := W3_keep m c main_arg7 (by decide)
    _ = W1 m c (Proc.devRef .tc main_arg7) := StableHlo.after_of_writes_sub hostOps1 _ hostOps1_writes (by decide)
    _ = W0 m c (Proc.devRef .tc main_arg7) := W1_keep m c main_arg7 (by decide)
    _ = m ((c : Thread nD τ).loc main_arg7) := rfl

/-- `main_arg8` ends as launched: no host operation writes it and no region has it as an output. -/
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_keep m c main_arg8 (by decide)
    _ = W3 m c (Proc.devRef .tc main_arg8) := StableHlo.after_of_writes_sub hostOps2 _ hostOps2_writes (by decide)
    _ = W2 m c (Proc.devRef .tc main_arg8) := W3_keep m c main_arg8 (by decide)
    _ = W1 m c (Proc.devRef .tc main_arg8) := StableHlo.after_of_writes_sub hostOps1 _ hostOps1_writes (by decide)
    _ = W0 m c (Proc.devRef .tc main_arg8) := W1_keep m c main_arg8 (by decide)
    _ = m ((c : Thread nD τ).loc main_arg8) := rfl

/-- `main_arg9` ends as launched: no host operation writes it and no region has it as an output. -/
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_keep m c main_arg9 (by decide)
    _ = W3 m c (Proc.devRef .tc main_arg9) := StableHlo.after_of_writes_sub hostOps2 _ hostOps2_writes (by decide)
    _ = W2 m c (Proc.devRef .tc main_arg9) := W3_keep m c main_arg9 (by decide)
    _ = W1 m c (Proc.devRef .tc main_arg9) := StableHlo.after_of_writes_sub hostOps1 _ hostOps1_writes (by decide)
    _ = W0 m c (Proc.devRef .tc main_arg9) := W1_keep m c main_arg9 (by decide)
    _ = m ((c : Thread nD τ).loc main_arg9) := rfl

/-- `main_arg10` ends as launched: no host operation writes it and no region has it as an output. -/
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_keep m c main_arg10 (by decide)
    _ = W3 m c (Proc.devRef .tc main_arg10) := StableHlo.after_of_writes_sub hostOps2 _ hostOps2_writes (by decide)
    _ = W2 m c (Proc.devRef .tc main_arg10) := W3_keep m c main_arg10 (by decide)
    _ = W1 m c (Proc.devRef .tc main_arg10) := StableHlo.after_of_writes_sub hostOps1 _ hostOps1_writes (by decide)
    _ = W0 m c (Proc.devRef .tc main_arg10) := W1_keep m c main_arg10 (by decide)
    _ = m ((c : Thread nD τ).loc main_arg10) := rfl

/-- `main_arg11` ends as launched: no host operation writes it and no region has it as an output. -/
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_keep m c main_arg11 (by decide)
    _ = W3 m c (Proc.devRef .tc main_arg11) := StableHlo.after_of_writes_sub hostOps2 _ hostOps2_writes (by decide)
    _ = W2 m c (Proc.devRef .tc main_arg11) := W3_keep m c main_arg11 (by decide)
    _ = W1 m c (Proc.devRef .tc main_arg11) := StableHlo.after_of_writes_sub hostOps1 _ hostOps1_writes (by decide)
    _ = W0 m c (Proc.devRef .tc main_arg11) := W1_keep m c main_arg11 (by decide)
    _ = m ((c : Thread nD τ).loc main_arg11) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V0 m) c
  | ⟨1, _⟩ => fun c => dat1 (V2 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W0`, left at `W1`. Its arrays are
    split out of the unscoped buffers and put back at the exit contents; the generator register goes into the region's
    invariant and comes out; nothing is owed; the kernel has no semaphore of its own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the region's
    invariant and comes out; nothing is owed; the kernel has no semaphore of its own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (admH (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers and put back at the exit contents; the generator register goes into the region's
    invariant and comes out; nothing is owed; the kernel has no semaphore of its own. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (admH (F := F) 2).1
        ∗ Pipeline.scopedRest spec2 c) ⊢ (Pipeline.ΦA spec2 c : sProp 𝕄) := by
      unfold Pipeline.ΦA
      iintro ⟨Hp, -, Hr⟩
      isplitl [Hr]; · iexact Hr
      iexact Hp
    exact h.trans (hin2 (V4 m) c)
  hout c := by
    rw [Pipeline.ownSems0_none]
    have h : (Pipeline.ΦA spec2 c : sProp 𝕄) ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (hout2 (V4 m) c).trans h
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) admH (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_main m ρ)

/-- THE RESULT beside the frame: the result array ends at what region 2's write-backs leave in it. -/
theorem run_result : θ_run defs (onTc (τ := τ) (main (F := F))) ⟨m, fun _ => 0, ρ⟩ (fun r => ∀ c : Dev nD,
      r.2.mem ((c.tc : Thread nD τ).loc main_v7) = (dat2 (V4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (W5_arr m c 3),
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_main m ρ)

end Cert.KernelIdeal.Hand

end
-- ==== Proof.Spec.lean ====
/- What the program computes, row by row, over the extended reals: two layer norms, a gate (a rectified linear layer
   on the two normalised rows side by side, two logits, their softmax), the rows mixed by the gate, a last linear
   layer. No program is imported here. -/
import Idealize.ShloMosaic.PureOps.Ideal
import Idealize.ShloMosaic.PureOps.Ideal.Laws

noncomputable section

namespace Cert.Spec

open Idealize.ShloMosaic
open scoped BigOperators

/-- The row length as the programs write it, the epsilon under the root, zero, and minus infinity: the same words on
    both sides, never evaluated (zero apart). -/
abbrev c4096 : EReal := Ideal.ofBits .f32 0x45800000#32
abbrev ceps : EReal := Ideal.ofBits .f32 0x3727C5AC#32
abbrev czero : EReal := Ideal.ofBits .f32 0x00000000#32
abbrev cninf : EReal := Ideal.ofBits .f32 0xFF800000#32

/-- A row's mean. -/
def mean (x : Fin 4096 → EReal) : EReal := Ideal.div (∑ j, x j) c4096
/-- A row's variance about its mean. -/
def var (x : Fin 4096 → EReal) : EReal := Ideal.div (∑ j, (x j - mean x) * (x j - mean x)) c4096
/-- The normalised row: centred, scaled by the reciprocal root of the variance plus epsilon, times gain plus bias. -/
def ln (x g b : Fin 4096 → EReal) (j : Fin 4096) : EReal :=
  (x j - mean x) * Ideal.rsqrt (var x + ceps) * g j + b j

/-- The two normalised rows side by side. -/
def comb (tn kn : Fin 4096 → EReal) (k : Fin 8192) : EReal :=
  if h : k.val < 4096 then tn ⟨k.val, h⟩ else kn ⟨k.val - 4096, by omega⟩
/-- The hidden row: the joined row through the first weight matrix, plus bias, rectified. -/
def hid (tn kn : Fin 4096 → EReal) (W1 : Fin 8192 → Fin 4096 → EReal) (b1 : Fin 4096 → EReal) (j : Fin 4096) : EReal :=
  max ((∑ k : Fin 8192, comb tn kn k * W1 k j) + b1 j) czero
/-- The two logits. -/
def logit (h : Fin 4096 → EReal) (W2 : Fin 4096 → Fin 2 → EReal) (b2 : Fin 2 → EReal) (q : Fin 2) : EReal :=
  (∑ j : Fin 4096, h j * W2 j q) + b2 q
/-- Their maximum, as both programs take it: the fold of `max` from minus infinity, then once more against it. -/
def rmax (l : Fin 2 → EReal) : EReal := max cninf ((Finset.univ : Finset (Fin 2)).fold max cninf l)
/-- The shifted exponentials and the softmax. -/
def ex (l : Fin 2 → EReal) (q : Fin 2) : EReal := Ideal.exp (l q - rmax l)
def sm (l : Fin 2 → EReal) (q : Fin 2) : EReal := Ideal.div (ex l q) (∑ q', ex l q')
/-- The mixed row. -/
def fused (tn kn : Fin 4096 → EReal) (w : Fin 2 → EReal) (j : Fin 4096) : EReal := w 0 * tn j + w 1 * kn j
/-- The last linear layer on a row. -/
def outRow (f : Fin 4096 → EReal) (Wout : Fin 4096 → Fin 4096 → EReal) (bout : Fin 4096 → EReal) (j : Fin 4096) : EReal :=
  (∑ k : Fin 4096, f k * Wout k j) + bout j

/-- The gate's two weights of a row from its two normalised rows. -/
def gate (tn kn : Fin 4096 → EReal) (W1 : Fin 8192 → Fin 4096 → EReal) (b1 : Fin 4096 → EReal)
    (W2 : Fin 4096 → Fin 2 → EReal) (b2 : Fin 2 → EReal) : Fin 2 → EReal :=
  sm (logit (hid tn kn W1 b1) W2 b2)

/-- The whole function: result row `r`, column `j`. -/
def G (T K : Fin 8192 → Fin 4096 → EReal) (gt bt gk bk : Fin 4096 → EReal) (W1 : Fin 8192 → Fin 4096 → EReal)
    (b1 : Fin 4096 → EReal) (W2 : Fin 4096 → Fin 2 → EReal) (b2 : Fin 2 → EReal) (Wout : Fin 4096 → Fin 4096 → EReal)
    (bout : Fin 4096 → EReal) (r : Fin 8192) (j : Fin 4096) : EReal :=
  outRow (fused (ln (T r) gt bt) (ln (K r) gk bk) (gate (ln (T r) gt bt) (ln (K r) gk bk) W1 b1 W2 b2)) Wout bout j

end Cert.Spec

end
-- ==== Proof.LibKeepdims.lean ====
/- Two layout readings used wherever a row statistic is kept as a column: an [a] array cast to [a, 1], and an [a, 1]
   column broadcast along the rows of an [a, b] array, each read at an index. -/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to [a, 1] reads, at (p, u), the operand at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, q), the operand's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KI.Val0.lean ====
/- Region 0's two result arrays after the region, read at a row and a column: the layer norm of that row of the input
   array, whatever row block the row lies in. -/
import proofs.«120078_j69518340653173_1_alg».proof.Proof.KI.Reg0Def
import proofs.«120078_j69518340653173_1_alg».proof.Proof.Spec
import proofs.«120078_j69518340653173_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators
open Cert.LibKeepdims

/-- Row p of a [256, 4096] block with column k put back is the index (p, k). -/
theorem lift_row (p : Fin 256) (k : Fin 4096) :
    (Facts₀.reduces_S256x4096_S256).lift (ix1 p) k = (ix2 p k : S256x4096.Idx) := by
  funext c
  apply Fin.ext
  match c with
  | ⟨0, _⟩ => rfl
  | ⟨1, _⟩ => rfl

/-- A row's lane sum: the add-reduction of a [256, 4096] block over its columns, read at row p. -/
theorem rowsum_apply (v : FVec Ideal S256x4096 .f32) (hφ : FTy.f32 = FTy.f32 ∨ FTy.f32 = FTy.bf16)
    (hacc : (0x00000000#32 : BitVec 32) = 0x00000000#32) (p : Fin 256) :
    multiReduction .add [1] S256 v 0x00000000#32 Facts₀.reduces_S256x4096_S256 hφ hacc (ix1 p) = ∑ k : Fin 4096, v (ix2 p k) :=
  (Ideal.multiReduction_add_single v _ _ hφ hacc (ix1 p)).trans
    (Finset.sum_congr rfl fun k _ => congrArg v (lift_row p k))

/-- A row statistic kept as a column: at (p, u) it is the statistic of row p. -/
theorem keep_apply (s : FVec Ideal S256 .f32) (p : Fin 256) (u : Fin 1) :
    shapeCast S256x1 s Facts₀.shapeCasts_S256_S256x1 (ix2 p u) = s (ix1 p) :=
  shapeCast_a_a1_apply s _ p u

/-- The column spread back over the row: at (p, q) it is the column's entry of row p. -/
theorem spread_apply (s : FVec Ideal S256x1 .f32) (p : Fin 256) (q : Fin 4096) :
    broadcastTo S256x4096 s Facts₀.broadcasts_S256x1_S256x4096 (ix2 p q) = s (ix2 p (0 : Fin 1)) :=
  broadcastTo_a1_ab_apply s _ p q

/-- A per-column vector spread over the rows: at (p, q) it is the vector's entry q. -/
theorem rowvec_apply (g : FVec Ideal S4096 .f32) (p : Fin 256) (q : Fin 4096) :
    broadcastTo S256x4096 (shapeCast S1x4096 g Facts₀.shapeCasts_S4096_S1x4096) Facts₀.broadcasts_S1x4096_S256x4096 (ix2 p q) = g (ix1 q) :=
  (broadcastTo_1b_ab_apply _ _ p q).trans (shapeCast_a_1a_apply g _ 0 q)

theorem rsqrt_apply {s : Shape} {φ : FTy} (a : FVec Ideal s φ) (i : s.Idx) : rsqrt a i = Ideal.rsqrt (a i) := rfl

/-- The mean column at row p is the mean of row p. -/
theorem mean_apply (x : Vec Ideal S256x4096 .f32) (p : Fin 256) (u : Fin 1) :
    (k0_pay3 x : S256x1.Idx → EReal) (ix2 p u) = Cert.Spec.mean (fun j' => x (ix2 p j')) := by
  unfold k0_pay3
  simp only [divf_apply, broadcast_apply, keep_apply]
  rw [rowsum_apply _ _ _ p]
  rfl

/-- The variance column at row p is the variance of row p. -/
theorem var_apply (x : Vec Ideal S256x4096 .f32) (p : Fin 256) (u : Fin 1) :
    (k0_pay4 x : S256x1.Idx → EReal) (ix2 p u) = Cert.Spec.var (fun j' => x (ix2 p j')) := by
  unfold k0_pay4
  simp only [divf_apply, broadcast_apply, keep_apply]
  rw [rowsum_apply _ _ _ p]
  simp only [mulf_apply, subf_apply, spread_apply, mean_apply]
  rfl

/-- The normalised block from a mean column and a variance column, read at (p, q). -/
theorem norm_apply (y : Vec Ideal S256x4096 .f32) (m v : FVec Ideal S256x1 .f32) (g b : Vec Ideal S4096 .f32) (p : Fin 256) (q : Fin 4096) :
    (k0_pay1 y m v g b : S256x4096.Idx → EReal) (ix2 p q)
      = (y (ix2 p q) - m (ix2 p (0 : Fin 1))) * Ideal.rsqrt (v (ix2 p (0 : Fin 1)) + Cert.Spec.ceps) * g (ix1 q) + b (ix1 q) := by
  unfold k0_pay1
  simp only [truncf_apply, addf_apply, mulf_apply, subf_apply, spread_apply, rowvec_apply, rsqrt_apply, broadcast_apply]
  rfl

theorem out0_7_apply (x : Vec Ideal S256x4096 .f32) (g b : Vec Ideal S4096 .f32) (p : Fin 256) (q : Fin 4096) :
    (out0_7 x g b : S256x4096.Idx → EReal) (ix2 p q)
      = Cert.Spec.ln (fun j' => x (ix2 p j')) (fun j' => g (ix1 j')) (fun j' => b (ix1 j')) q := by
  unfold out0_7
  rw [norm_apply, mean_apply, var_apply]
  rfl

/-- The first block's function is the second's: the same operations, the mean and the variance not named. -/
theorem out0_6_eq (x : Vec Ideal S256x4096 .f32) (g b : Vec Ideal S4096 .f32) : out0_6 x g b = out0_7 x g b := rfl

theorem out0_6_apply (x : Vec Ideal S256x4096 .f32) (g b : Vec Ideal S4096 .f32) (p : Fin 256) (q : Fin 4096) :
    (out0_6 x g b : S256x4096.Idx → EReal) (ix2 p q)
      = Cert.Spec.ln (fun j' => x (ix2 p j')) (fun j' => g (ix1 j')) (fun j' => b (ix1 j')) q := by
  rw [out0_6_eq]; exact out0_7_apply x g b p q

-- the TensorCore's buffer contents when the region is entered, at the ideal values
variable (V : (c : Dev nD) → (b : Ref sig .tc) → Buf (Elt Ideal) ((c : Thread nD τ).loc b))

/-! ## From the blocks to the arrays -/

/-- The layer norm of every row of an [8192, 4096] array, with per-column gain and bias. -/
def lnArr (X : S8192x4096.Idx → EReal) (g b : S4096.Idx → EReal) : S8192x4096.Idx → EReal :=
  fun i => Cert.Spec.ln (fun j' => X (ix2 (i 0) j')) (fun j' => g (ix1 j')) (fun j' => b (ix1 j')) (i 1)

/-- The layer norm of a row depends on the row, the gain and the bias entry by entry. -/
theorem ln_congr {x x' g g' b b' : Fin 4096 → EReal} (hx : ∀ j, x j = x' j) (hg : ∀ j, g j = g' j)
    (hb : ∀ j, b j = b' j) (q : Fin 4096) : Cert.Spec.ln x g b q = Cert.Spec.ln x' g' b' q := by
  rw [show x = x' from funext hx, show g = g' from funext hg, show b = b' from funext hb]

/-- The printed index maps over the grid: the row-block windows sit at block (t, 0), the vectors at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_2.index t (0 : Fin 1) = 0 ∧ win0_3.index t (0 : Fin 1) = 0
    ∧ win0_4.index t (0 : Fin 1) = 0 ∧ win0_5.index t (0 : Fin 1) = 0 :=
  (by decide +kernel : ∀ t : Fin grid0.N, _)

/-- Row p of block t is row 256 t + p of the array. -/
theorem row_lt (t : Fin cfg0.N) (p : Fin 256) : 256 * t.val + p.val < 8192 := by
  have ht : t.val < 32 := t.isLt
  have hp := p.isLt
  omega

/-- Input 0's block at point t, read at (p, q): row 256 t + p of its array. -/
theorem blk0_0_apply (c : Dev nD) (t : Fin cfg0.N) (p : Fin 256) (q : Fin 4096) :
    (iblk0 V c 0 t : S256x4096.Idx → EReal) (ix2 p q)
      = (V c main_arg0 : S8192x4096.Idx → EReal) (ix2 ⟨256 * t.val + p.val, row_lt t p⟩ q) := by
  obtain ⟨e00, e01, e10, e11, -⟩ := idx_facts0 t
  show (V c main_arg0 : S8192x4096.Idx → EReal) (((cfg0.win 0).blk t).view.emb (ix2 p q)) = _
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 4096 + 1 * q.val = q.val; omega

/-- Input 1's block at point t, read at (p, q): row 256 t + p of its array. -/
theorem blk0_1_apply (c : Dev nD) (t : Fin cfg0.N) (p : Fin 256) (q : Fin 4096) :
    (iblk0 V c 1 t : S256x4096.Idx → EReal) (ix2 p q)
      = (V c main_arg1 : S8192x4096.Idx → EReal) (ix2 ⟨256 * t.val + p.val, row_lt t p⟩ q) := by
  obtain ⟨e00, e01, e10, e11, -⟩ := idx_facts0 t
  show (V c main_arg1 : S8192x4096.Idx → EReal) (((cfg0.win 1).blk t).view.emb (ix2 p q)) = _
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 4096 + 1 * q.val = q.val; omega

/-- Input 2's block at any point is its whole vector. -/
theorem blk0_2_apply (c : Dev nD) (t : Fin cfg0.N) (q : Fin 4096) :
    (iblk0 V c 2 t : S4096.Idx → EReal) (ix1 q) = (V c main_arg2 : S4096.Idx → EReal) (ix1 q) := by
  obtain ⟨-, -, -, -, -, -, -, -, e2, e3, e4, e5⟩ := idx_facts0 t
  show (V c main_arg2 : S4096.Idx → EReal) (((cfg0.win 2).blk t).view.emb (ix1 q)) = _
  refine congrArg _ (funext fun a => Fin.ext ?_)
  match a with
  | ⟨0, _⟩ => show win0_2.index t (0 : Fin 1) * 4096 + 1 * q.val = q.val; omega

/-- Input 3's block at any point is its whole vector. -/
theorem blk0_3_apply (c : Dev nD) (t : Fin cfg0.N) (q : Fin 4096) :
    (iblk0 V c 3 t : S4096.Idx → EReal) (ix1 q) = (V c main_arg3 : S4096.Idx → EReal) (ix1 q) := by
  obtain ⟨-, -, -, -, -, -, -, -, e2, e3, e4, e5⟩ := idx_facts0 t
  show (V c main_arg3 : S4096.Idx → EReal) (((cfg0.win 3).blk t).view.emb (ix1 q)) = _
  refine congrArg _ (funext fun a => Fin.ext ?_)
  match a with
  | ⟨0, _⟩ => show win0_3.index t (0 : Fin 1) * 4096 + 1 * q.val = q.val; omega

/-- Input 4's block at any point is its whole vector. -/
theorem blk0_4_apply (c : Dev nD) (t : Fin cfg0.N) (q : Fin 4096) :
    (iblk0 V c 4 t : S4096.Idx → EReal) (ix1 q) = (V c main_arg4 : S4096.Idx → EReal) (ix1 q) := by
  obtain ⟨-, -, -, -, -, -, -, -, e2, e3, e4, e5⟩ := idx_facts0 t
  show (V c main_arg4 : S4096.Idx → EReal) (((cfg0.win 4).blk t).view.emb (ix1 q)) = _
  refine congrArg _ (funext fun a => Fin.ext ?_)
  match a with
  | ⟨0, _⟩ => show win0_4.index t (0 : Fin 1) * 4096 + 1 * q.val = q.val; omega

/-- Input 5's block at any point is its whole vector. -/
theorem blk0_5_apply (c : Dev nD) (t : Fin cfg0.N) (q : Fin 4096) :
    (iblk0 V c 5 t : S4096.Idx → EReal) (ix1 q) = (V c main_arg5 : S4096.Idx → EReal) (ix1 q) := by
  obtain ⟨-, -, -, -, -, -, -, -, e2, e3, e4, e5⟩ := idx_facts0 t
  show (V c main_arg5 : S4096.Idx → EReal) (((cfg0.win 5).blk t).view.emb (ix1 q)) = _
  refine congrArg _ (funext fun a => Fin.ext ?_)
  match a with
  | ⟨0, _⟩ => show win0_5.index t (0 : Fin 1) * 4096 + 1 * q.val = q.val; omega

/-! ## Output window 6 -/

/-- An element (p, q) of output 6's block at point t sits at row 256 t + p, column q of its array. -/
theorem emb0_6 (t : Fin cfg0.N) (p : Fin 256) (q : Fin 4096) :
    ((cfg0.win 6).blk t).view.emb (ix2 p q) = (ix2 ⟨256 * t.val + p.val, row_lt t p⟩ q : S8192x4096.Idx) := by
  obtain ⟨-, -, -, -, e60, e61, e70, e71, -⟩ := idx_facts0 t
  funext a; apply Fin.ext
  match a with
  | ⟨0, _⟩ => show win0_6.index t (0 : Fin 2) * 256 + 1 * p.val = 256 * t.val + p.val; omega
  | ⟨1, _⟩ => show win0_6.index t (1 : Fin 2) * 4096 + 1 * q.val = q.val; omega

/-- What point t writes back to output 6 is block t of the row-wise layer norm of the first input array. -/
theorem flushed0_6_eq (c : Dev nD) (t : Fin cfg0.N) :
    (dat0 (F := Ideal) V c).flushed 6 t = ((cfg0.win 6).blk t).view.read (Elt Ideal)
      (lnArr (V c main_arg0 : S8192x4096.Idx → EReal) (V c main_arg2 : S4096.Idx → EReal) (V c main_arg3 : S4096.Idx → EReal)) := by
  show (cfg0.win 6).cut (grid0.coords t) ((dat0 (F := Ideal) V c).after 6 t) = _
  rw [after0_6]
  funext y
  obtain ⟨p, q, rfl⟩ : ∃ (p : Fin 256) (q : Fin 4096), y = ix2 p q := ⟨y 0, y 1, eq_ix2 y⟩
  show out0_6 (iblk0 V c 0 t) (iblk0 V c 2 t) (iblk0 V c 3 t) (ix2 p q)
     = lnArr (V c main_arg0 : S8192x4096.Idx → EReal) (V c main_arg2 : S4096.Idx → EReal) (V c main_arg3 : S4096.Idx → EReal)
        (((cfg0.win 6).blk t).view.emb (ix2 p q))
  rw [out0_6_apply, emb0_6]
  exact ln_congr (fun j' => blk0_0_apply V c t p j') (fun j' => blk0_2_apply V c t j') (fun j' => blk0_3_apply V c t j') q

/-- An index of the array is in point t's block iff each coordinate is in the block's range on its axis. -/
theorem mem_blk0_6 (t : Fin cfg0.N) (i : S8192x4096.Idx) :
    i ∈ ((cfg0.win 6).blk t).view.set ↔ ∀ a : Fin 2, win0_6.index t a * S256x4096.size a ≤ (i a).val
      ∧ (i a).val < win0_6.index t a * S256x4096.size a + S256x4096.size a := by
  show i ∈ ((View.whole main_v0_0).slice (win0_6.rect t)).set ↔ _
  rw [View.set_slice_whole, Rect.mem_set_unit]
  exact Iff.rfl

/-- Row r of the array lies in the block of point r / 256, which is written back. -/
theorem cover0_6 (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ : ∃ t : Fin cfg0.N, t.val = (i 0).val / 256 :=
    ⟨⟨(i 0).val / 256, show (i 0).val / 256 < 32 by omega⟩, rfl⟩
  refine ⟨t, flush0_6 t, ?_⟩
  rw [mem_blk0_6]
  obtain ⟨-, -, -, -, e60, e61, e70, e71, -⟩ := idx_facts0 t
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 4096 ≤ (i 1).val ∧ (i 1).val < win0_6.index t (1 : Fin 2) * 4096 + 4096
    omega

/-! ## Output window 7 -/

/-- An element (p, q) of output 7's block at point t sits at row 256 t + p, column q of its array. -/
theorem emb0_7 (t : Fin cfg0.N) (p : Fin 256) (q : Fin 4096) :
    ((cfg0.win 7).blk t).view.emb (ix2 p q) = (ix2 ⟨256 * t.val + p.val, row_lt t p⟩ q : S8192x4096.Idx) := by
  obtain ⟨-, -, -, -, e60, e61, e70, e71, -⟩ := idx_facts0 t
  funext a; apply Fin.ext
  match a with
  | ⟨0, _⟩ => show win0_7.index t (0 : Fin 2) * 256 + 1 * p.val = 256 * t.val + p.val; omega
  | ⟨1, _⟩ => show win0_7.index t (1 : Fin 2) * 4096 + 1 * q.val = q.val; omega

/-- What point t writes back to output 7 is block t of the row-wise layer norm of the second input array. -/
theorem flushed0_7_eq (c : Dev nD) (t : Fin cfg0.N) :
    (dat0 (F := Ideal) V c).flushed 7 t = ((cfg0.win 7).blk t).view.read (Elt Ideal)
      (lnArr (V c main_arg1 : S8192x4096.Idx → EReal) (V c main_arg4 : S4096.Idx → EReal) (V c main_arg5 : S4096.Idx → EReal)) := by
  show (cfg0.win 7).cut (grid0.coords t) ((dat0 (F := Ideal) V c).after 7 t) = _
  rw [after0_7]
  funext y
  obtain ⟨p, q, rfl⟩ : ∃ (p : Fin 256) (q : Fin 4096), y = ix2 p q := ⟨y 0, y 1, eq_ix2 y⟩
  show out0_7 (iblk0 V c 1 t) (iblk0 V c 4 t) (iblk0 V c 5 t) (ix2 p q)
     = lnArr (V c main_arg1 : S8192x4096.Idx → EReal) (V c main_arg4 : S4096.Idx → EReal) (V c main_arg5 : S4096.Idx → EReal)
        (((cfg0.win 7).blk t).view.emb (ix2 p q))
  rw [out0_7_apply, emb0_7]
  exact ln_congr (fun j' => blk0_1_apply V c t p j') (fun j' => blk0_4_apply V c t j') (fun j' => blk0_5_apply V c t j') q

/-- An index of the array is in point t's block iff each coordinate is in the block's range on its axis. -/
theorem mem_blk0_7 (t : Fin cfg0.N) (i : S8192x4096.Idx) :
    i ∈ ((cfg0.win 7).blk t).view.set ↔ ∀ a : Fin 2, win0_7.index t a * S256x4096.size a ≤ (i a).val
      ∧ (i a).val < win0_7.index t a * S256x4096.size a + S256x4096.size a := by
  show i ∈ ((View.whole main_v0_1).slice (win0_7.rect t)).set ↔ _
  rw [View.set_slice_whole, Rect.mem_set_unit]
  exact Iff.rfl

/-- Row r of the array lies in the block of point r / 256, which is written back. -/
theorem cover0_7 (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨t, ht⟩ : ∃ t : Fin cfg0.N, t.val = (i 0).val / 256 :=
    ⟨⟨(i 0).val / 256, show (i 0).val / 256 < 32 by omega⟩, rfl⟩
  refine ⟨t, flush0_7 t, ?_⟩
  rw [mem_blk0_7]
  obtain ⟨-, -, -, -, e60, e61, e70, e71, -⟩ := idx_facts0 t
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 4096 ≤ (i 1).val ∧ (i 1).val < win0_7.index t (1 : Fin 2) * 4096 + 4096
    omega

/-! ## The two arrays after the region -/

/-- The first normalised array at row `r`, column `j`. -/
theorem val0_6 (c : Dev nD) (r : Fin 8192) (j : Fin 4096) :
    ((dat0 (F := Ideal) V c).arrAt 6 cfg0.N : S8192x4096.Idx → EReal) (ix2 r j)
      = Cert.Spec.ln (fun j' => (V c main_arg0 : S8192x4096.Idx → EReal) (ix2 r j'))
          (fun j' => (V c main_arg2 : S4096.Idx → EReal) (ix1 j')) (fun j' => (V c main_arg3 : S4096.Idx → EReal) (ix1 j')) j := by
  have h := (dat0 (F := Ideal) V c).arrAt_eq_of_cover 6
    (lnArr (V c main_arg0 : S8192x4096.Idx → EReal) (V c main_arg2 : S4096.Idx → EReal) (V c main_arg3 : S4096.Idx → EReal))
    (fun t _ => flushed0_6_eq V c t) cover0_6
  exact congrFun h (ix2 r j)

/-- The second normalised array at row `r`, column `j`. -/
theorem val0_7 (c : Dev nD) (r : Fin 8192) (j : Fin 4096) :
    ((dat0 (F := Ideal) V c).arrAt 7 cfg0.N : S8192x4096.Idx → EReal) (ix2 r j)
      = Cert.Spec.ln (fun j' => (V c main_arg1 : S8192x4096.Idx → EReal) (ix2 r j'))
          (fun j' => (V c main_arg4 : S4096.Idx → EReal) (ix1 j')) (fun j' => (V c main_arg5 : S4096.Idx → EReal) (ix1 j')) j := by
  have h := (dat0 (F := Ideal) V c).arrAt_eq_of_cover 7
    (lnArr (V c main_arg1 : S8192x4096.Idx → EReal) (V c main_arg4 : S4096.Idx → EReal) (V c main_arg5 : S4096.Idx → EReal))
    (fun t _ => flushed0_7_eq V c t) cover0_7
  exact congrFun h (ix2 r j)

end Cert.KernelIdeal.Hand

end
-- ==== Proof.KI.Val1Step.lean ====
/- Region 1's accumulation read at a row and a column: the value the accumulator restarts from, and one accumulation
   step as the accumulator plus two sums of 256 products, the 256-column slice read where the point's second coordinate
   puts it. -/
import proofs.«120078_j69518340653173_1_alg».proof.Proof.Gen.KernelIdeal.Skeleton
import proofs.«120078_j69518340653173_1_alg».proof.Proof.Spec
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-! ## A slice's matrix product read at an index -/

theorem lhs_dot1_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhs_dot1_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhs_dot1_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhs_dot1_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- A 256 × 256 slice times a 256 × 4096 block, from zero, at row `p` and column `q`: the sum of 256 products. -/
theorem matmul1_apply (a : FVec Ideal S256x256 .bf16) (b : FVec Ideal S256x4096 .bf16) (p : Fin 256) (q : Fin 4096) :
    matmul dot_S256x256_S256x4096_S256x4096_1_0_0_1_n_n none a b (constant (F := Ideal) S256x4096 .f32 0x00000000#32) (ix2 p q)
      = ∑ l : Fin 256, a (ix2 p l) * b (ix2 l q) := by
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 p q) ((contrEquiv1 dot_S256x256_S256x4096_S256x4096_1_0_0_1_n_n 256 rfl rfl).symm k) = ix2 p k := funext fun a => Fin.ext (by
    match a with
    | ⟨0, _⟩ => exact lhs_dot1_0 _ _
    | ⟨1, _⟩ => exact (lhs_dot1_1 _ _).trans hk)
  have er : dot_S256x256_S256x4096_S256x4096_1_0_0_1_n_n.rhsIdx (ix2 p q) ((contrEquiv1 dot_S256x256_S256x4096_S256x4096_1_0_0_1_n_n 256 rfl rfl).symm k) = ix2 k q := funext fun a => Fin.ext (by
    match a with
    | ⟨0, _⟩ => exact (rhs_dot1_0 _ _).trans hk
    | ⟨1, _⟩ => exact rhs_dot1_1 _ _)
  rw [el, er]

/-! ## One accumulation read at an index -/

/-- The value the accumulator restarts from is zero everywhere. -/
theorem k1_pay1_apply (p : Fin 256) (q : Fin 4096) : (k1_pay1 (F := Ideal)) (ix2 p q) = 0 := by
  unfold k1_pay1
  simp only [shapeCast_self]
  exact Ideal.ofBits_zero_f32

/-- One accumulation at row `p`, column `q`: the accumulator there plus the two sums of 256 products. -/
theorem k1_pay2_apply (v6 v9 : FVec Ideal S256x256 .bf16) (acc : FVec Ideal S256x4096 .f32) (x2 x3 : FVec Ideal S256x4096 .bf16)
    (p : Fin 256) (q : Fin 4096) :
    k1_pay2 (F := Ideal) v6 v9 acc x2 x3 (ix2 p q)
      = acc (ix2 p q) + ((∑ l : Fin 256, v6 (ix2 p l) * x2 (ix2 l q)) + (∑ l : Fin 256, v9 (ix2 p l) * x3 (ix2 l q))) := by
  unfold k1_pay2
  simp only [shapeCast_self]
  exact congrArg (acc (ix2 p q) + ·) (congrArg₂ (· + ·) (matmul1_apply v6 x2 p q) (matmul1_apply v9 x3 p q))

/-- The 256 columns a point loads from a 256 × 4096 block start at 256 times the point's second coordinate. -/
theorem ld1_slice_apply (i : grid1.Coords) (x : Vec Ideal S256x4096 .bf16) (p l : Fin 256) (k : Fin 4096)
    (hk : k.val = 256 * (i 1).val + l.val) :
    View.ld (Val := Elt Ideal) x (Rect.unit (s := S256x4096) (k1_off1 i) S256x256.size (k1_off1_inb i)) (ix2 p l) = x (ix2 p k) := by
  show x _ = x _
  refine congrArg x (funext fun a => Fin.ext ?_)
  match a with
  | ⟨0, _⟩ =>
    show k1_off1 i 0 + 1 * p.val = p.val
    rw [k1_off1_eq]
    show 0 + 1 * p.val = p.val
    omega
  | ⟨1, _⟩ =>
    show k1_off1 i 1 + 1 * l.val = k.val
    rw [k1_off1_eq, hk]
    show 256 * (i 1).val + 1 * l.val = _
    omega

/-- One accumulation on the blocks a point holds, at row `p`, column `q`: the slice is read where the point's second
    coordinate puts it. -/
theorem step1_apply (i : grid1.Coords) (x0 x1 x2 x3 : Vec Ideal S256x4096 .bf16) (acc : Vec Ideal S256x4096 .f32)
    (p : Fin 256) (q : Fin 4096) (hi : (i 1).val < 16) :
    k1_pay2 (F := Ideal) (View.ld (Val := Elt Ideal) x0 (Rect.unit (s := S256x4096) (k1_off1 i) S256x256.size (k1_off1_inb i)))
        (View.ld (Val := Elt Ideal) x1 (Rect.unit (s := S256x4096) (k1_off1 i) S256x256.size (k1_off1_inb i))) acc x2 x3 (ix2 p q)
      = acc (ix2 p q) + ((∑ l : Fin 256, x0 (ix2 p ⟨256 * (i 1).val + l.val, by omega⟩) * x2 (ix2 l q))
          + (∑ l : Fin 256, x1 (ix2 p ⟨256 * (i 1).val + l.val, by omega⟩) * x3 (ix2 l q))) := by
  refine (k1_pay2_apply _ _ acc x2 x3 p q).trans ?_
  refine congrArg (acc (ix2 p q) + ·) (congrArg₂ (· + ·) ?_ ?_)
  · exact Finset.sum_congr rfl fun l _ => congrArg (· * x2 (ix2 l q)) (ld1_slice_apply i x0 p l _ rfl)
  · exact Finset.sum_congr rfl fun l _ => congrArg (· * x3 (ix2 l q)) (ld1_slice_apply i x1 p l _ rfl)

end Cert.KernelIdeal.Hand

end
-- ==== Proof.KI.Val1Pay.lean ====
/- What region 1's last point of sixteen stores, read at a row and a column: the two normalised blocks mixed by the
   softmax of the two logits of the rectified accumulator plus bias. -/
import proofs.«120078_j69518340653173_1_alg».proof.Proof.Gen.KernelIdeal.Skeleton
import proofs.«120078_j69518340653173_1_alg».proof.Proof.Spec
import proofs.«120078_j69518340653173_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators
open Cert.LibKeepdims

/-! ## The [256, 4096] × [4096, 2] product into zero, read at a row and a column -/

theorem lhs_gate2_0 (i : S256x2.Idx) (q : dot_S256x4096_S4096x2_S256x2_1_0_0_1_n_n.contr.Idx) :
    (dot_S256x4096_S4096x2_S256x2_1_0_0_1_n_n.lhsIdx i q 0).val = (i 0).val := by
  unfold DotDims.lhsIdx
  rw [dif_neg (show ¬(0 : Fin S256x4096.rank) ∈ dot_S256x4096_S4096x2_S256x2_1_0_0_1_n_n.lhsBatch by decide), dif_pos (show (0 : Fin S256x4096.rank) ∈ dot_S256x4096_S4096x2_S256x2_1_0_0_1_n_n.lhsNonContracting by decide)]
  rfl
theorem lhs_gate2_1 (i : S256x2.Idx) (q : dot_S256x4096_S4096x2_S256x2_1_0_0_1_n_n.contr.Idx) :
    (dot_S256x4096_S4096x2_S256x2_1_0_0_1_n_n.lhsIdx i q 1).val = (q ⟨0, by decide⟩).val :=
  dot_S256x4096_S4096x2_S256x2_1_0_0_1_n_n.lhsIdx_val_of_single rfl i q
theorem rhs_gate2_0 (i : S256x2.Idx) (q : dot_S256x4096_S4096x2_S256x2_1_0_0_1_n_n.contr.Idx) :
    (dot_S256x4096_S4096x2_S256x2_1_0_0_1_n_n.rhsIdx i q 0).val = (q ⟨0, by decide⟩).val :=
  dot_S256x4096_S4096x2_S256x2_1_0_0_1_n_n.rhsIdx_val_of_single rfl i q
theorem rhs_gate2_1 (i : S256x2.Idx) (q : dot_S256x4096_S4096x2_S256x2_1_0_0_1_n_n.contr.Idx) :
    (dot_S256x4096_S4096x2_S256x2_1_0_0_1_n_n.rhsIdx i q 1).val = (i 1).val := by
  unfold DotDims.rhsIdx
  rw [dif_neg (show ¬(1 : Fin S4096x2.rank) ∈ dot_S256x4096_S4096x2_S256x2_1_0_0_1_n_n.rhsBatch by decide), dif_pos (show (1 : Fin S4096x2.rank) ∈ dot_S256x4096_S4096x2_S256x2_1_0_0_1_n_n.rhsNonContracting by decide)]
  rfl

/-- The product into the zero block at `(p, q')`: the sum over the 4096 contracted coordinates of row `p` of the left
    operand times column `q'` of the right. -/
theorem matmul_gate2_apply (lhs : FVec Ideal S256x4096 .bf16) (rhs : FVec Ideal S4096x2 .bf16) (p : Fin 256) (q' : Fin 2) :
    FloatOps.matmul dot_S256x4096_S4096x2_S256x2_1_0_0_1_n_n none lhs rhs (constant (F := Ideal) S256x2 .f32 0x00000000#32) (ix2 p q')
      = ∑ k : Fin 4096, lhs (ix2 p k) * rhs (ix2 k q') := by
  rw [Ideal.matmul_constant_zero_apply, ← Equiv.sum_comp (ValueIdx.contrEquiv1 dot_S256x4096_S4096x2_S256x2_1_0_0_1_n_n 4096 rfl rfl).symm]
  refine Finset.sum_congr rfl fun k _ => ?_
  have hk := ValueIdx.contrEquiv1_symm_val dot_S256x4096_S4096x2_S256x2_1_0_0_1_n_n 4096 rfl rfl k
  have el : dot_S256x4096_S4096x2_S256x2_1_0_0_1_n_n.lhsIdx (ix2 p q') ((ValueIdx.contrEquiv1 dot_S256x4096_S4096x2_S256x2_1_0_0_1_n_n 4096 rfl rfl).symm k) = ix2 p k := funext fun a => Fin.ext (by
    match a with
    | ⟨0, _⟩ => exact lhs_gate2_0 _ _
    | ⟨1, _⟩ => exact (lhs_gate2_1 _ _).trans hk)
  have er : dot_S256x4096_S4096x2_S256x2_1_0_0_1_n_n.rhsIdx (ix2 p q') ((ValueIdx.contrEquiv1 dot_S256x4096_S4096x2_S256x2_1_0_0_1_n_n 4096 rfl rfl).symm k) = ix2 k q' := funext fun a => Fin.ext (by
    match a with
    | ⟨0, _⟩ => exact (rhs_gate2_0 _ _).trans hk
    | ⟨1, _⟩ => exact rhs_gate2_1 _ _)
  rw [el, er]

/-- The reduced index `p` with the dropped coordinate `k` put back is `(p, k)`. -/
theorem lift_row2 (h : S256x2.Reduces [1] S256) (p : Fin 256) (k : Fin 2) : h.lift (ix1 p) k = ix2 p k :=
  funext fun c => Fin.ext (by
    match c with
    | ⟨0, _⟩ => rfl
    | ⟨1, _⟩ => rfl)

/-! ## The payload as five stages, each read at a row -/

/-- The hidden block: the accumulator plus the bias row, rectified. -/
def g1hid (acc : Vec Ideal S256x4096 .f32) (b1 : Vec Ideal S4096 .f32) : FVec Ideal S256x4096 .f32 :=
  maximumf (addf acc (broadcastTo S256x4096 (shapeCast S1x4096 b1 shapeCasts_S4096_S1x4096) broadcasts_S1x4096_S256x4096))
    (broadcast S256x4096 (Scalar.ofBits .f32 0x00000000#32))

theorem g1hid_apply (acc : Vec Ideal S256x4096 .f32) (b1 : Vec Ideal S4096 .f32) (p : Fin 256) (j : Fin 4096) :
    g1hid acc b1 (ix2 p j) = max (acc (ix2 p j) + b1 (ix1 j)) Cert.Spec.czero := by
  unfold g1hid
  exact congrArg (fun z => max (acc (ix2 p j) + z) Cert.Spec.czero)
    ((broadcastTo_1b_ab_apply _ _ p j).trans (shapeCast_a_1a_apply b1 _ 0 j))

/-- The two logits of every row: the hidden block through the second weight matrix, plus its bias row. -/
def g1logit (h : FVec Ideal S256x4096 .f32) (W2 : Vec Ideal S4096x2 .f32) (b2 : Vec Ideal S2 .f32) : FVec Ideal S256x2 .f32 :=
  addf (matmul dot_S256x4096_S4096x2_S256x2_1_0_0_1_n_n none (truncf .bf16 h bitsLt_bf16_f32) (truncf .bf16 W2 bitsLt_bf16_f32) (constant S256x2 .f32 0x00000000#32))
    (broadcastTo S256x2 (shapeCast S1x2 b2 shapeCasts_S2_S1x2) broadcasts_S1x2_S256x2)

theorem g1logit_apply (h : FVec Ideal S256x4096 .f32) (W2 : Vec Ideal S4096x2 .f32) (b2 : Vec Ideal S2 .f32) (p : Fin 256) (q' : Fin 2) :
    g1logit h W2 b2 (ix2 p q')
      = Cert.Spec.logit (fun j => h (ix2 p j)) (fun j q' => W2 (ix2 j q')) (fun q' => b2 (ix1 q')) q' := by
  unfold g1logit Cert.Spec.logit
  exact congrArg₂ (· + ·) (matmul_gate2_apply _ _ p q')
    ((broadcastTo_1b_ab_apply _ _ p q').trans (shapeCast_a_1a_apply b2 _ 0 q'))

/-- Every row's maximum logit: the fold of `max` from minus infinity, then once more against it. -/
def g1rmax (l : FVec Ideal S256x2 .f32) : FVec Ideal S256 .f32 :=
  maximumf (broadcast S256 (Scalar.ofBits .f32 0xFF800000#32))
    (multiReduction .maximumf [1] S256 l 0xFF800000#32 reduces_S256x2_S256 (.inl rfl) rfl)

theorem g1rmax_apply (l : FVec Ideal S256x2 .f32) (p : Fin 256) :
    g1rmax l (ix1 p) = Cert.Spec.rmax (fun q' => l (ix2 p q')) := by
  unfold g1rmax Cert.Spec.rmax
  refine congrArg (max Cert.Spec.cninf) ?_
  refine (Ideal.multiReduction_maximumf_single l _ reduces_S256x2_S256 (.inl rfl) rfl (ix1 p)).trans ?_
  exact congrArg (fun f => (Finset.univ : Finset (Fin 2)).fold max Cert.Spec.cninf f)
    (funext fun k => congrArg l (lift_row2 reduces_S256x2_S256 p k))

/-- The shifted exponentials. -/
def g1ex (l : FVec Ideal S256x2 .f32) : FVec Ideal S256x2 .f32 :=
  exp (subf l (broadcastTo S256x2 (shapeCast S256x1 (g1rmax l) shapeCasts_S256_S256x1) broadcasts_S256x1_S256x2))

theorem g1ex_apply (l : FVec Ideal S256x2 .f32) (p : Fin 256) (q' : Fin 2) :
    g1ex l (ix2 p q') = Cert.Spec.ex (fun q' => l (ix2 p q')) q' := by
  unfold g1ex Cert.Spec.ex
  exact congrArg (fun z => Ideal.exp (l (ix2 p q') - z))
    (((broadcastTo_a1_ab_apply _ _ p q').trans (shapeCast_a_a1_apply (g1rmax l) _ p 0)).trans (g1rmax_apply l p))

/-- The softmax of every row's two logits. -/
def g1sm (l : FVec Ideal S256x2 .f32) : FVec Ideal S256x2 .f32 :=
  divf (g1ex l) (broadcastTo S256x2 (shapeCast S256x1
    (multiReduction .add [1] S256 (g1ex l) 0x00000000#32 reduces_S256x2_S256 (.inl rfl) rfl) shapeCasts_S256_S256x1) broadcasts_S256x1_S256x2)

theorem g1sm_apply (l : FVec Ideal S256x2 .f32) (p : Fin 256) (q' : Fin 2) :
    g1sm l (ix2 p q') = Cert.Spec.sm (fun q' => l (ix2 p q')) q' := by
  unfold g1sm Cert.Spec.sm
  refine congrArg₂ Ideal.div (g1ex_apply l p q') ?_
  refine ((broadcastTo_a1_ab_apply _ _ p q').trans (shapeCast_a_a1_apply _ _ p 0)).trans ?_
  refine (Ideal.multiReduction_add_single (g1ex l) _ reduces_S256x2_S256 (.inl rfl) rfl (ix1 p)).trans ?_
  exact Finset.sum_congr rfl fun k _ => (congrArg (g1ex l) (lift_row2 reduces_S256x2_S256 p k)).trans (g1ex_apply l p k)

/-- The two blocks mixed row by row by the two weights. -/
def g1mix (w : FVec Ideal S256x2 .f32) (tb kb : Vec Ideal S256x4096 .bf16) : FVec Ideal S256x4096 .bf16 :=
  truncf .bf16 (addf
    (mulf (broadcastTo S256x4096 (extractStridedSlice S256x1 ![0, 0] w slices_S256x2_o0_0_S256x1) broadcasts_S256x1_S256x4096)
      (extf .f32 (shapeCast S256x4096 tb shapeCasts_S256x4096_S256x4096) bitsLt_bf16_f32))
    (mulf (broadcastTo S256x4096 (extractStridedSlice S256x1 ![0, 1] w slices_S256x2_o0_1_S256x1) broadcasts_S256x1_S256x4096)
      (extf .f32 (shapeCast S256x4096 kb shapeCasts_S256x4096_S256x4096) bitsLt_bf16_f32))) bitsLt_bf16_f32

theorem g1mix_apply (w : FVec Ideal S256x2 .f32) (tb kb : Vec Ideal S256x4096 .bf16) (p : Fin 256) (q : Fin 4096) :
    g1mix w tb kb (ix2 p q) = w (ix2 p (0 : Fin 2)) * tb (ix2 p q) + w (ix2 p (1 : Fin 2)) * kb (ix2 p q) := by
  unfold g1mix
  exact congrArg₂ (· + ·)
    (congrArg₂ (· * ·)
      ((broadcastTo_a1_ab_apply _ _ p q).trans (slice2_axis1_apply 0 w _ p (0 : Fin 1) (0 : Fin 2) rfl))
      (congrFun (shapeCast_self tb _) (ix2 p q)))
    (congrArg₂ (· * ·)
      ((broadcastTo_a1_ab_apply _ _ p q).trans (slice2_axis1_apply 1 w _ p (0 : Fin 1) (1 : Fin 2) rfl))
      (congrFun (shapeCast_self kb _) (ix2 p q)))

/-- The payload is the five stages composed: by unfolding. -/
theorem k1_pay3_eq_stages (acc : Vec Ideal S256x4096 .f32) (b1 : Vec Ideal S4096 .f32) (W2 : Vec Ideal S4096x2 .f32)
    (b2 : Vec Ideal S2 .f32) (tb kb : Vec Ideal S256x4096 .bf16) :
    k1_pay3 (F := Ideal) acc b1 W2 b2 tb kb = g1mix (g1sm (g1logit (g1hid acc b1) W2 b2)) tb kb := rfl

/-- The stored block at row `p`, column `q`. -/
theorem k1_pay3_apply (acc : Vec Ideal S256x4096 .f32) (b1 : Vec Ideal S4096 .f32) (W2 : Vec Ideal S4096x2 .f32)
    (b2 : Vec Ideal S2 .f32) (tb kb : Vec Ideal S256x4096 .bf16) (p : Fin 256) (q : Fin 4096) :
    k1_pay3 (F := Ideal) acc b1 W2 b2 tb kb (ix2 p q)
      = Cert.Spec.fused (fun j => tb (ix2 p j)) (fun j => kb (ix2 p j))
          (Cert.Spec.sm (Cert.Spec.logit (fun j => max (acc (ix2 p j) + b1 (ix1 j)) Cert.Spec.czero)
            (fun j q' => W2 (ix2 j q')) (fun q' => b2 (ix1 q')))) q := by
  rw [k1_pay3_eq_stages, g1mix_apply, g1sm_apply, g1sm_apply]
  have hl : (fun q' => g1logit (g1hid acc b1) W2 b2 (ix2 p q'))
      = Cert.Spec.logit (fun j => max (acc (ix2 p j) + b1 (ix1 j)) Cert.Spec.czero)
          (fun j q' => W2 (ix2 j q')) (fun q' => b2 (ix1 q')) := by
    funext q'
    refine (g1logit_apply _ W2 b2 p q').trans ?_
    exact congrArg (fun h => Cert.Spec.logit h (fun j q' => W2 (ix2 j q')) (fun q' => b2 (ix1 q')) q')
      (funext fun j => g1hid_apply acc b1 p j)
  rw [hl]
  rfl

end Cert.KernelIdeal.Hand

end
-- ==== Proof.SumAlgebra.lean ====
/- Sums over an additive commutative monoid regrouped: a sum over 4096 indices block by block (16 blocks of 256, 8
   blocks of 512), a sum over 8192 indices as its two halves, and a running total from zero as the sum of its terms.
   Only commutativity and associativity of the addition are used, so all of it holds on the extended reals. -/
import Mathlib.Algebra.BigOperators.Fin
import Mathlib.Algebra.BigOperators.Group.Finset.Basic

namespace Cert.SumAlgebra

open scoped BigOperators

variable {M : Type*} [AddCommMonoid M]

/-- A sum over 4096 = 16 × 256 indices, block by block. -/
theorem sum_16x256 (f : Fin 4096 → M) :
    ∑ k : Fin 4096, f k = ∑ kb : Fin 16, ∑ l : Fin 256, f ⟨256 * kb.val + l.val, by omega⟩ := by
  rw [← Fintype.sum_prod_type' (f := fun (kb : Fin 16) (l : Fin 256) => f ⟨256 * kb.val + l.val, by omega⟩)]
  exact (Fintype.sum_equiv (finProdFinEquiv (m := 16) (n := 256)) _ f (fun p => by
    congr 1; apply Fin.ext; simp [finProdFinEquiv]; omega)).symm

/-- A sum over 4096 = 8 × 512 indices, block by block. -/
theorem sum_8x512 (f : Fin 4096 → M) :
    ∑ k : Fin 4096, f k = ∑ kb : Fin 8, ∑ l : Fin 512, f ⟨512 * kb.val + l.val, by omega⟩ := by
  rw [← Fintype.sum_prod_type' (f := fun (kb : Fin 8) (l : Fin 512) => f ⟨512 * kb.val + l.val, by omega⟩)]
  exact (Fintype.sum_equiv (finProdFinEquiv (m := 8) (n := 512)) _ f (fun p => by
    congr 1; apply Fin.ext; simp [finProdFinEquiv]; omega)).symm

/-- A sum over 8192 indices as the sum over its first 4096 plus the sum over its last 4096. -/
theorem sum_halves (f : Fin 8192 → M) :
    ∑ k : Fin 8192, f k = (∑ k : Fin 4096, f ⟨k.val, by omega⟩) + ∑ k : Fin 4096, f ⟨4096 + k.val, by omega⟩ := by
  exact Fin.sum_univ_add (a := 4096) (b := 4096) f

/-- A running total that starts at zero plus the first term and adds one term per step is the sum of the terms. -/
theorem run_total (n : ℕ) (g : ℕ → M) (a : ℕ → M) (h0 : a 0 = 0 + g 0) (hs : ∀ k, k < n → a (k + 1) = a k + g (k + 1)) :
    a n = ∑ k : Fin (n + 1), g k.val := by
  induction n with
  | zero => exact (h0.trans (zero_add _)).trans (Fin.sum_univ_one (fun k : Fin 1 => g k.val)).symm
  | succ n ih =>
    rw [hs n (Nat.lt_succ_self n), ih (fun k hk => hs k (Nat.lt_succ_of_lt hk)), Fin.sum_univ_castSucc (n := n + 1)]
    simp

end Cert.SumAlgebra
-- ==== Proof.KI.Val1.lean ====
/- Region 1's result array after the region, read at a row and a column: the two normalised rows mixed by the gate's
   two weights of that row — the sixteen accumulations add up to the whole product with the two halves of the first
   weight matrix. -/
import proofs.«120078_j69518340653173_1_alg».proof.Proof.KI.Reg1Def
import proofs.«120078_j69518340653173_1_alg».proof.Proof.KI.Val1Step
import proofs.«120078_j69518340653173_1_alg».proof.Proof.KI.Val1Pay
import proofs.«120078_j69518340653173_1_alg».proof.Proof.SumAlgebra
import proofs.«120078_j69518340653173_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered, at the ideal values
variable (V : (c : Dev nD) → (b : Ref sig .tc) → Buf (Elt Ideal) ((c : Thread nD τ).loc b))

/-- The first weight matrix as region 1 finds it: its upper half in one array, its lower half in another. -/
def W1of (c : Dev nD) (k : Fin 8192) (j : Fin 4096) : EReal :=
  if h : k.val < 4096 then (V c main_v2 : S4096x4096.Idx → EReal) (ix2 (⟨k.val, h⟩ : Fin 4096) j)
  else (V c main_v4 : S4096x4096.Idx → EReal) (ix2 (⟨k.val - 4096, by omega⟩ : Fin 4096) j)

/-! ## The arrays and the blocks, at their literal types -/

abbrev g1tarr (c : Dev nD) : S8192x4096.Idx → EReal := V c main_v0_0
abbrev g1karr (c : Dev nD) : S8192x4096.Idx → EReal := V c main_v0_1
abbrev g1waarr (c : Dev nD) : S4096x4096.Idx → EReal := V c main_v2
abbrev g1wbarr (c : Dev nD) : S4096x4096.Idx → EReal := V c main_v4
abbrev g1w2arr (c : Dev nD) : S4096x2.Idx → EReal := V c main_arg8
abbrev g1b1arr (c : Dev nD) : S4096.Idx → EReal := V c main_arg7
abbrev g1b2arr (c : Dev nD) : S2.Idx → EReal := V c main_arg9

abbrev g1tblk (c : Dev nD) (t : Fin cfg1.N) : Vec Ideal S256x4096 .bf16 := iblk1 V c 0 t
abbrev g1kblk (c : Dev nD) (t : Fin cfg1.N) : Vec Ideal S256x4096 .bf16 := iblk1 V c 1 t
abbrev g1wablk (c : Dev nD) (t : Fin cfg1.N) : Vec Ideal S256x4096 .bf16 := iblk1 V c 2 t
abbrev g1wbblk (c : Dev nD) (t : Fin cfg1.N) : Vec Ideal S256x4096 .bf16 := iblk1 V c 3 t
abbrev g1w2blk (c : Dev nD) (t : Fin cfg1.N) : Vec Ideal S4096x2 .f32 := iblk1 V c 4 t
abbrev g1b1blk (c : Dev nD) (t : Fin cfg1.N) : Vec Ideal S4096 .f32 := iblk1 V c 5 t
abbrev g1b2blk (c : Dev nD) (t : Fin cfg1.N) : Vec Ideal S2 .f32 := iblk1 V c 6 t

/-- The printed index maps over the grid: the row block is the point's number divided by sixteen, the slice its
    remainder; the small operands are held whole. -/
theorem idx_facts1 : ∀ t : Fin cfg1.N,
    win1_0.index t (0 : Fin 2) = t.val / 16 ∧ win1_0.index t (1 : Fin 2) = 0
    ∧ win1_1.index t (0 : Fin 2) = t.val / 16 ∧ win1_1.index t (1 : Fin 2) = 0
    ∧ win1_2.index t (0 : Fin 2) = t.val % 16 ∧ win1_2.index t (1 : Fin 2) = 0
    ∧ win1_3.index t (0 : Fin 2) = t.val % 16 ∧ win1_3.index t (1 : Fin 2) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 2) = t.val / 16 ∧ win1_7.index t (1 : Fin 2) = 0
    ∧ ((grid1.coords t) 1).val = t.val % 16 :=
  (by decide +kernel : ∀ t : Fin grid1.N, _)

/-- The first normalised block at a point is rows `256 · (t / 16) …` of its array. -/
theorem g1tblk_apply (c : Dev nD) (t : Fin cfg1.N) (p : Fin 256) (j : Fin 4096) (r : Fin 8192) (j' : Fin 4096)
    (hr : r.val = 256 * (t.val / 16) + p.val) (hj : j'.val = j.val) :
    g1tblk V c t (ix2 p j) = g1tarr V c (ix2 r j') := by
  obtain ⟨e0, e1, -⟩ := idx_facts1 t
  show V c main_v0_0 (((cfg1.win 0).blk t).view.emb (ix2 p j)) = V c main_v0_0 (ix2 r j')
  refine congrArg (V c main_v0_0) (funext fun a => Fin.ext ?_)
  match a with
  | ⟨0, _⟩ => show win1_0.index t (0 : Fin 2) * 256 + 1 * p.val = r.val; omega
  | ⟨1, _⟩ => show win1_0.index t (1 : Fin 2) * 4096 + 1 * j.val = j'.val; omega

/-- The second normalised block likewise. -/
theorem g1kblk_apply (c : Dev nD) (t : Fin cfg1.N) (p : Fin 256) (j : Fin 4096) (r : Fin 8192) (j' : Fin 4096)
    (hr : r.val = 256 * (t.val / 16) + p.val) (hj : j'.val = j.val) :
    g1kblk V c t (ix2 p j) = g1karr V c (ix2 r j') := by
  obtain ⟨-, -, e0, e1, -⟩ := idx_facts1 t
  show V c main_v0_1 (((cfg1.win 1).blk t).view.emb (ix2 p j)) = V c main_v0_1 (ix2 r j')
  refine congrArg (V c main_v0_1) (funext fun a => Fin.ext ?_)
  match a with
  | ⟨0, _⟩ => show win1_1.index t (0 : Fin 2) * 256 + 1 * p.val = r.val; omega
  | ⟨1, _⟩ => show win1_1.index t (1 : Fin 2) * 4096 + 1 * j.val = j'.val; omega

/-- The block of the upper weight half at a point is rows `256 · (t % 16) …` of its array. -/
theorem g1wablk_apply (c : Dev nD) (t : Fin cfg1.N) (l : Fin 256) (q : Fin 4096) (k : Fin 4096)
    (hk : k.val = 256 * (t.val % 16) + l.val) :
    g1wablk V c t (ix2 l q) = g1waarr V c (ix2 k q) := by
  obtain ⟨-, -, -, -, e0, e1, -⟩ := idx_facts1 t
  show V c main_v2 (((cfg1.win 2).blk t).view.emb (ix2 l q)) = V c main_v2 (ix2 k q)
  refine congrArg (V c main_v2) (funext fun a => Fin.ext ?_)
  match a with
  | ⟨0, _⟩ => show win1_2.index t (0 : Fin 2) * 256 + 1 * l.val = k.val; omega
  | ⟨1, _⟩ => show win1_2.index t (1 : Fin 2) * 4096 + 1 * q.val = q.val; omega

/-- The block of the lower weight half likewise. -/
theorem g1wbblk_apply (c : Dev nD) (t : Fin cfg1.N) (l : Fin 256) (q : Fin 4096) (k : Fin 4096)
    (hk : k.val = 256 * (t.val % 16) + l.val) :
    g1wbblk V c t (ix2 l q) = g1wbarr V c (ix2 k q) := by
  obtain ⟨-, -, -, -, -, -, e0, e1, -⟩ := idx_facts1 t
  show V c main_v4 (((cfg1.win 3).blk t).view.emb (ix2 l q)) = V c main_v4 (ix2 k q)
  refine congrArg (V c main_v4) (funext fun a => Fin.ext ?_)
  match a with
  | ⟨0, _⟩ => show win1_3.index t (0 : Fin 2) * 256 + 1 * l.val = k.val; omega
  | ⟨1, _⟩ => show win1_3.index t (1 : Fin 2) * 4096 + 1 * q.val = q.val; omega

/-- The second weight matrix, the two biases: held whole at every point. -/
theorem g1w2blk_apply (c : Dev nD) (t : Fin cfg1.N) (j : Fin 4096) (q : Fin 2) :
    g1w2blk V c t (ix2 j q) = g1w2arr V c (ix2 j q) := by
  obtain ⟨-, -, -, -, -, -, -, -, e0, e1, -⟩ := idx_facts1 t
  show V c main_arg8 (((cfg1.win 4).blk t).view.emb (ix2 j q)) = V c main_arg8 (ix2 j q)
  refine congrArg (V c main_arg8) (funext fun a => Fin.ext ?_)
  match a with
  | ⟨0, _⟩ => show win1_4.index t (0 : Fin 2) * 4096 + 1 * j.val = j.val; omega
  | ⟨1, _⟩ => show win1_4.index t (1 : Fin 2) * 2 + 1 * q.val = q.val; omega

theorem g1b1blk_apply (c : Dev nD) (t : Fin cfg1.N) (j : Fin 4096) :
    g1b1blk V c t (ix1 j) = g1b1arr V c (ix1 j) := by
  obtain ⟨-, -, -, -, -, -, -, -, -, -, e0, -⟩ := idx_facts1 t
  show V c main_arg7 (((cfg1.win 5).blk t).view.emb (ix1 j)) = V c main_arg7 (ix1 j)
  refine congrArg (V c main_arg7) (funext fun a => Fin.ext ?_)
  match a with
  | ⟨0, _⟩ => show win1_5.index t (0 : Fin 1) * 4096 + 1 * j.val = j.val; omega

theorem g1b2blk_apply (c : Dev nD) (t : Fin cfg1.N) (q : Fin 2) :
    g1b2blk V c t (ix1 q) = g1b2arr V c (ix1 q) := by
  obtain ⟨-, -, -, -, -, -, -, -, -, -, -, e0, -⟩ := idx_facts1 t
  show V c main_arg9 (((cfg1.win 6).blk t).view.emb (ix1 q)) = V c main_arg9 (ix1 q)
  refine congrArg (V c main_arg9) (funext fun a => Fin.ext ?_)
  match a with
  | ⟨0, _⟩ => show win1_6.index t (0 : Fin 1) * 2 + 1 * q.val = q.val; omega

/-! ## The sixteen accumulations of a row block -/

/-- What slice `s` of the sixteen adds at row `r`, column `q`: 256 products with the upper weight half and 256 with
    the lower. -/
def slab1 (c : Dev nD) (r : Fin 8192) (q : Fin 4096) (s : Fin 16) : EReal :=
  (∑ l : Fin 256, g1tarr V c (ix2 r (⟨256 * s.val + l.val, by omega⟩ : Fin 4096)) * g1waarr V c (ix2 (⟨256 * s.val + l.val, by omega⟩ : Fin 4096) q))
    + (∑ l : Fin 256, g1karr V c (ix2 r (⟨256 * s.val + l.val, by omega⟩ : Fin 4096)) * g1wbarr V c (ix2 (⟨256 * s.val + l.val, by omega⟩ : Fin 4096) q))

/-- One accumulation at point `t`, at row `p` of its row block and column `q`: the accumulator there plus the slab of
    the slice the point's number names. -/
theorem step1_point (c : Dev nD) (t : Fin cfg1.N) (acc : Vec Ideal S256x4096 .f32) (p : Fin 256) (q : Fin 4096)
    (r : Fin 8192) (hr : r.val = 256 * (t.val / 16) + p.val) :
    step1 (grid1.coords t) (g1tblk V c t) (g1kblk V c t) (g1wablk V c t) (g1wbblk V c t) acc (ix2 p q)
      = acc (ix2 p q) + slab1 V c r q ⟨t.val % 16, Nat.mod_lt _ (by decide)⟩ := by
  obtain ⟨-, -, -, -, -, -, -, -, -, -, -, -, -, -, hc⟩ := idx_facts1 t
  have hi : ((grid1.coords t) 1).val < 16 := by rw [hc]; exact Nat.mod_lt _ (by decide)
  unfold step1
  refine (step1_apply (grid1.coords t) (g1tblk V c t) (g1kblk V c t) (g1wablk V c t) (g1wbblk V c t) acc p q hi).trans ?_
  unfold slab1
  refine congrArg (acc (ix2 p q) + ·) (congrArg₂ (· + ·) ?_ ?_)
  · exact Finset.sum_congr rfl fun l _ => congrArg₂ (· * ·)
      (g1tblk_apply V c t p _ r _ hr (by show 256 * (t.val % 16) + l.val = 256 * ((grid1.coords t) 1).val + l.val; rw [hc]))
      (g1wablk_apply V c t l q _ (by show 256 * (t.val % 16) + l.val = 256 * (t.val % 16) + l.val; rfl))
  · exact Finset.sum_congr rfl fun l _ => congrArg₂ (· * ·)
      (g1kblk_apply V c t p _ r _ hr (by show 256 * (t.val % 16) + l.val = 256 * ((grid1.coords t) 1).val + l.val; rw [hc]))
      (g1wbblk_apply V c t l q _ (by show 256 * (t.val % 16) + l.val = 256 * (t.val % 16) + l.val; rfl))

theorem N1 : cfg1.N = 512 := by decide

theorem acc1_same (c : Dev nD) (n n' : ℕ) (h : n < cfg1.N) (h' : n' < cfg1.N) (e : n = n') :
    acc1 V c n h = acc1 V c n' h' := by
  subst e; rfl

/-- After slice `k` of row block `ib` the accumulator holds, at row `p` and column `q`, the slabs of slices `0 … k`. -/
theorem acc1_run (c : Dev nD) (ib : Fin 32) (p : Fin 256) (q : Fin 4096) (r : Fin 8192) (hr : r.val = 256 * ib.val + p.val) :
    ∀ (k : ℕ) (hk : k < 16) (h : 16 * ib.val + k < cfg1.N),
      acc1 V c (16 * ib.val + k) h (ix2 p q) = ∑ s : Fin (k + 1), slab1 V c r q ⟨s.val, by omega⟩
  | 0, hk, h => by
    have hm : (16 * ib.val + 0) % 16 = 0 := by omega
    refine (congrFun (acc1_reset V c ⟨16 * ib.val + 0, h⟩ hm) (ix2 p q)).trans ?_
    refine (step1_point V c ⟨16 * ib.val + 0, h⟩ (k1_pay1 (F := Ideal)) p q r
      (by show r.val = 256 * ((16 * ib.val + 0) / 16) + p.val; omega)).trans ?_
    rw [k1_pay1_apply, zero_add, Fin.sum_univ_one]
    exact congrArg (slab1 V c r q) (Fin.ext hm)
  | k + 1, hk, h => by
    have hm : ¬ (16 * ib.val + (k + 1)) % 16 = 0 := by omega
    refine (congrFun (acc1_succ V c ⟨16 * ib.val + (k + 1), h⟩ hm) (ix2 p q)).trans ?_
    refine (step1_point V c ⟨16 * ib.val + (k + 1), h⟩
      (acc1 V c (16 * ib.val + (k + 1) - 1) (Nat.lt_of_le_of_lt (Nat.sub_le _ _) h)) p q r
      (by show r.val = 256 * ((16 * ib.val + (k + 1)) / 16) + p.val; omega)).trans ?_
    refine Eq.trans ?_ (Fin.sum_univ_castSucc (fun s : Fin (k + 1 + 1) => slab1 V c r q ⟨s.val, by omega⟩)).symm
    refine congrArg₂ (· + ·) ?_ (congrArg (slab1 V c r q) (Fin.ext ?_))
    · exact (congrFun (acc1_same V c _ (16 * ib.val + k) _ (by omega) (by omega)) (ix2 p q)).trans
        (acc1_run c ib p q r hr k (by omega) (by omega))
    · show (16 * ib.val + (k + 1)) % 16 = k + 1
      omega

/-- The sixteen slabs add up to the whole product of the joined row with the first weight matrix. -/
theorem slab1_total (c : Dev nD) (r : Fin 8192) (q : Fin 4096) :
    ∑ s : Fin 16, slab1 V c r q s
      = ∑ k' : Fin 8192, Cert.Spec.comb (fun j' => g1tarr V c (ix2 r j')) (fun j' => g1karr V c (ix2 r j')) k' * W1of V c k' q := by
  have hA := Cert.SumAlgebra.sum_16x256 (fun k : Fin 4096 => g1tarr V c (ix2 r k) * g1waarr V c (ix2 k q))
  have hB := Cert.SumAlgebra.sum_16x256 (fun k : Fin 4096 => g1karr V c (ix2 r k) * g1wbarr V c (ix2 k q))
  rw [Cert.SumAlgebra.sum_halves]
  unfold slab1
  rw [Finset.sum_add_distrib]
  refine congrArg₂ (· + ·) (hA.symm.trans ?_) (hB.symm.trans ?_)
  · refine Finset.sum_congr rfl fun k _ => ?_
    unfold Cert.Spec.comb W1of
    rw [dif_pos (show (⟨k.val, by omega⟩ : Fin 8192).val < 4096 from k.isLt), dif_pos (show (⟨k.val, by omega⟩ : Fin 8192).val < 4096 from k.isLt)]
  · refine Finset.sum_congr rfl fun k _ => ?_
    unfold Cert.Spec.comb W1of
    rw [dif_neg (show ¬ (⟨4096 + k.val, by omega⟩ : Fin 8192).val < 4096 from by show ¬ 4096 + k.val < 4096; omega),
      dif_neg (show ¬ (⟨4096 + k.val, by omega⟩ : Fin 8192).val < 4096 from by show ¬ 4096 + k.val < 4096; omega)]
    have e : (⟨(⟨4096 + k.val, by omega⟩ : Fin 8192).val - 4096, by show 4096 + k.val - 4096 < 4096; omega⟩ : Fin 4096) = k :=
      Fin.ext (by show 4096 + k.val - 4096 = k.val; omega)
    rw [e]

/-- At the last of a row block's sixteen points the accumulator holds the whole product. -/
theorem acc1_full (c : Dev nD) (t : Fin cfg1.N) (hf : t.val % 16 = 15) (p : Fin 256) (q : Fin 4096) (r : Fin 8192)
    (hr : r.val = 256 * (t.val / 16) + p.val) :
    acc1 V c t.val t.isLt (ix2 p q)
      = ∑ k' : Fin 8192, Cert.Spec.comb (fun j' => g1tarr V c (ix2 r j')) (fun j' => g1karr V c (ix2 r j')) k' * W1of V c k' q := by
  have hN := N1
  have hlt := t.isLt
  have hib : t.val / 16 < 32 := by omega
  have e := acc1_run V c ⟨t.val / 16, hib⟩ p q r hr 15 (by omega) (by show 16 * (t.val / 16) + 15 < cfg1.N; omega)
  rw [← slab1_total]
  exact (congrFun (acc1_same V c t.val (16 * (t.val / 16) + 15) t.isLt _ (by omega)) (ix2 p q)).trans e

/-! ## What the last point stores, and the array after the region -/

/-- The mixed array as one function of the arrays the region finds. -/
def mixed1 (c : Dev nD) : S8192x4096.Idx → EReal := fun i =>
  Cert.Spec.fused (fun j' => g1tarr V c (ix2 (i 0) j')) (fun j' => g1karr V c (ix2 (i 0) j'))
    (Cert.Spec.gate (fun j' => g1tarr V c (ix2 (i 0) j')) (fun j' => g1karr V c (ix2 (i 0) j')) (W1of V c)
      (fun j' => g1b1arr V c (ix1 j')) (fun j' q => g1w2arr V c (ix2 j' q)) (fun q => g1b2arr V c (ix1 q))) (i 1)

/-- What the last of a row block's sixteen points stores at row `p`, column `q`. -/
theorem out1_apply (c : Dev nD) (t : Fin cfg1.N) (hf : t.val % 16 = 15) (p : Fin 256) (q : Fin 4096) (r : Fin 8192)
    (hr : r.val = 256 * (t.val / 16) + p.val) :
    out1 V c t (ix2 p q) = mixed1 V c (ix2 r q) := by
  unfold out1
  refine (k1_pay3_apply (acc1 V c t.val t.isLt) (g1b1blk V c t) (g1w2blk V c t) (g1b2blk V c t) (g1tblk V c t) (g1kblk V c t) p q).trans ?_
  have e1 : (fun j => g1tblk V c t (ix2 p j)) = fun j' => g1tarr V c (ix2 r j') := funext fun j => g1tblk_apply V c t p j r j hr rfl
  have e2 : (fun j => g1kblk V c t (ix2 p j)) = fun j' => g1karr V c (ix2 r j') := funext fun j => g1kblk_apply V c t p j r j hr rfl
  have e3 : (fun j => max (acc1 V c t.val t.isLt (ix2 p j) + g1b1blk V c t (ix1 j)) Cert.Spec.czero)
      = Cert.Spec.hid (fun j' => g1tarr V c (ix2 r j')) (fun j' => g1karr V c (ix2 r j')) (W1of V c) (fun j' => g1b1arr V c (ix1 j')) :=
    funext fun j => by
      unfold Cert.Spec.hid
      rw [acc1_full V c t hf p j r hr, g1b1blk_apply]
  have e4 : (fun j q' => g1w2blk V c t (ix2 j q')) = fun j' q => g1w2arr V c (ix2 j' q) :=
    funext fun j => funext fun q' => g1w2blk_apply V c t j q'
  have e5 : (fun q' => g1b2blk V c t (ix1 q')) = fun q => g1b2arr V c (ix1 q) := funext fun q' => g1b2blk_apply V c t q'
  rw [e1, e2, e3, e4, e5]
  rfl

/-- What a point that writes back writes is its block of the mixed array. -/
theorem flushed1_eq (c : Dev nD) (t : Fin cfg1.N) (hf : (cfg1.win 7).flush t = true) :
    (dat1 (F := Ideal) V c).flushed 7 t = ((cfg1.win 7).blk t).view.read (Elt Ideal) (mixed1 V c) := by
  have hm : t.val % 16 = 15 := (flush1_7 t).mp hf
  show (cfg1.win 7).cut (grid1.coords t) ((dat1 (F := Ideal) V c).after 7 t) = _
  rw [after1_7]
  refine funext fun (y : S256x4096.Idx) => ?_
  obtain ⟨p, q, rfl⟩ : ∃ (p : Fin 256) (q : Fin 4096), y = ix2 p q := ⟨y 0, y 1, eq_ix2 y⟩
  obtain ⟨-, -, -, -, -, -, -, -, -, -, -, -, e0, e1, -⟩ := idx_facts1 t
  have hlt := t.isLt
  have hN := N1
  show out1 V c t (ix2 p q) = mixed1 V c (((cfg1.win 7).blk t).view.emb (ix2 p q))
  rw [out1_apply V c t hm p q ⟨256 * (t.val / 16) + p.val, by omega⟩ rfl]
  refine congrArg (mixed1 V c) (funext fun a => Fin.ext ?_)
  match a with
  | ⟨0, _⟩ => show 256 * (t.val / 16) + p.val = win1_7.index t (0 : Fin 2) * 256 + 1 * p.val; omega
  | ⟨1, _⟩ => show q.val = win1_7.index t (1 : Fin 2) * 4096 + 1 * q.val; omega

/-- An index of the array is in a point's block iff each coordinate is in the block's range on its axis. -/
theorem mem_blk1_7 (t : Fin cfg1.N) (i : S8192x4096.Idx) :
    i ∈ ((cfg1.win 7).blk t).view.set
      ↔ ∀ a : Fin 2, win1_7.index t a * S256x4096.size a ≤ (i a).val ∧ (i a).val < win1_7.index t a * S256x4096.size a + S256x4096.size a := by
  show i ∈ ((View.whole main_v5).slice (win1_7.rect t)).set ↔ _
  rw [View.set_slice_whole, Rect.mem_set_unit]
  exact Iff.rfl

/-- Row `r` lies in the block the last point of row block `r / 256` writes back. -/
theorem cover1 (i : S8192x4096.Idx) :
    ∃ t : Fin cfg1.N, (cfg1.win 7).flush t = true ∧ i ∈ ((cfg1.win 7).blk t).view.set := by
  have hi0 : (i 0).val < 8192 := (i 0).isLt
  have hi1 : (i 1).val < 4096 := (i 1).isLt
  have hN := N1
  have hb : 16 * ((i 0).val / 256) + 15 < cfg1.N := by omega
  obtain ⟨t, ht⟩ : ∃ t : Fin cfg1.N, t.val = 16 * ((i 0).val / 256) + 15 := ⟨⟨_, hb⟩, rfl⟩
  refine ⟨t, (flush1_7 t).mpr (by omega), ?_⟩
  rw [mem_blk1_7]
  obtain ⟨-, -, -, -, -, -, -, -, -, -, -, -, e0, e1, -⟩ := idx_facts1 t
  intro a
  match a with
  | ⟨0, _⟩ =>
    show win1_7.index t (0 : Fin 2) * 256 ≤ (i 0).val ∧ (i 0).val < win1_7.index t (0 : Fin 2) * 256 + 256
    omega
  | ⟨1, _⟩ =>
    show win1_7.index t (1 : Fin 2) * 4096 ≤ (i 1).val ∧ (i 1).val < win1_7.index t (1 : Fin 2) * 4096 + 4096
    omega

/-- The mixed array at row `r`, column `j`. -/
theorem val1 (c : Dev nD) (r : Fin 8192) (j : Fin 4096) :
    ((dat1 (F := Ideal) V c).arrAt 7 cfg1.N : S8192x4096.Idx → EReal) (ix2 r j)
      = Cert.Spec.fused (fun j' => (V c main_v0_0 : S8192x4096.Idx → EReal) (ix2 r j'))
          (fun j' => (V c main_v0_1 : S8192x4096.Idx → EReal) (ix2 r j'))
          (Cert.Spec.gate (fun j' => (V c main_v0_0 : S8192x4096.Idx → EReal) (ix2 r j'))
            (fun j' => (V c main_v0_1 : S8192x4096.Idx → EReal) (ix2 r j')) (W1of V c)
            (fun j' => (V c main_arg7 : S4096.Idx → EReal) (ix1 j'))
            (fun j' q => (V c main_arg8 : S4096x2.Idx → EReal) (ix2 j' q))
            (fun q => (V c main_arg9 : S2.Idx → EReal) (ix1 q))) j := by
  rw [(dat1 (F := Ideal) V c).arrAt_eq_of_cover 7 (mixed1 V c) (fun t hf => flushed1_eq V c t hf) cover1]
  rfl

end Cert.KernelIdeal.Hand

end
-- ==== Proof.KI.Val2.lean ====
/- Region 2's result array after the region, read at a row and a column: that row of the mixed array through the
   output weight matrix plus the bias — the eight accumulations add up to the whole product. -/
import proofs.«120078_j69518340653173_1_alg».proof.Proof.KI.Reg2Def
import proofs.«120078_j69518340653173_1_alg».proof.Proof.Spec
import proofs.«120078_j69518340653173_1_alg».proof.Proof.SumAlgebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## One accumulation at a row and a column -/

theorem lhs_k2dot_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhs_k2dot_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem rhs_k2dot_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem rhs_k2dot_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The block product at a row and a column: the sum over the 512 shared indices. -/
theorem k2_matmul_apply (x0 : FVec Ideal S256x512 .bf16) (x1 : FVec Ideal S512x4096 .bf16) (p : Fin 256) (q : Fin 4096) :
    (matmul (F := Ideal) dot_S256x512_S512x4096_S256x4096_1_0_0_1_n_n none x0 x1 (constant S256x4096 .f32 0x00000000#32) : S256x4096.Idx → EReal) (ix2 p q)
      = ∑ l : Fin 512, (x0 (ix2 p l) : EReal) * (x1 (ix2 l q) : EReal) := by
  simp only [matmul]
  rw [Ideal.matmul_constant_zero_apply, ← Equiv.sum_comp (ValueIdx.contrEquiv1 dot_S256x512_S512x4096_S256x4096_1_0_0_1_n_n 512 rfl rfl).symm]
  refine Finset.sum_congr rfl fun k _ => ?_
  have hk := ValueIdx.contrEquiv1_symm_val dot_S256x512_S512x4096_S256x4096_1_0_0_1_n_n 512 rfl rfl k
  have el : dot_S256x512_S512x4096_S256x4096_1_0_0_1_n_n.lhsIdx (ix2 p q) ((ValueIdx.contrEquiv1 dot_S256x512_S512x4096_S256x4096_1_0_0_1_n_n 512 rfl rfl).symm k) = ix2 p k := funext fun a => Fin.ext (by
    match a with
    | ⟨0, _⟩ => exact lhs_k2dot_0 _ _
    | ⟨1, _⟩ => exact (lhs_k2dot_1 _ _).trans hk)
  have er : dot_S256x512_S512x4096_S256x4096_1_0_0_1_n_n.rhsIdx (ix2 p q) ((ValueIdx.contrEquiv1 dot_S256x512_S512x4096_S256x4096_1_0_0_1_n_n 512 rfl rfl).symm k) = ix2 k q := funext fun a => Fin.ext (by
    match a with
    | ⟨0, _⟩ => exact (rhs_k2dot_0 _ _).trans hk
    | ⟨1, _⟩ => exact rhs_k2dot_1 _ _)
  rw [el, er]

/-- One accumulation at a row and a column: what was there plus the block product. -/
theorem step2_apply (x0 : Vec Ideal S256x512 .bf16) (x1 : Vec Ideal S512x4096 .bf16) (acc : Vec Ideal S256x4096 .f32) (p : Fin 256) (q : Fin 4096) :
    (step2 (F := Ideal) x0 x1 acc : S256x4096.Idx → EReal) (ix2 p q)
      = (acc (ix2 p q) : EReal) + ∑ l : Fin 512, (x0 (ix2 p l) : EReal) * (x1 (ix2 l q) : EReal) := by
  unfold step2 k2_pay2
  simp only [shapeCast_self]
  rw [addf_apply, k2_matmul_apply]

/-- The accumulator's restart value is zero everywhere. -/
theorem k2_pay1_apply (p : Fin 256) (q : Fin 4096) : (k2_pay1 (F := Ideal) : S256x4096.Idx → EReal) (ix2 p q) = 0 := by
  unfold k2_pay1
  simp only [shapeCast_self]
  rw [broadcast_apply]
  exact Ideal.ofBits_zero_f32

-- the TensorCore's buffer contents when the region is entered, at the ideal values
variable (V : (c : Dev nD) → (b : Ref sig .tc) → Buf (Elt Ideal) ((c : Thread nD τ).loc b))

/-! ## The blocks read off their arrays -/

/-- The windows' index maps over the grid: point `t` is row block `t / 8`, slice `t % 8`. -/
theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 1) = 0
    ∧ win2_3.index t (0 : Fin 2) = t.val / 8 ∧ win2_3.index t (1 : Fin 2) = 0 :=
  (by decide +kernel : ∀ t : Fin grid2.N, _)

/-- The block of mixed rows at point `t`: rows `256 (t / 8) …`, columns `512 (t % 8) …` of the mixed array. -/
theorem iblk2_0_apply (c : Dev nD) (t : Fin cfg2.N) (x : S256x512.Idx) (k : S8192x4096.Idx)
    (hk0 : (k 0).val = 256 * (t.val / 8) + (x 0).val) (hk1 : (k 1).val = 512 * (t.val % 8) + (x 1).val) :
    (iblk2 (F := Ideal) V c 0 t : Vec Ideal S256x512 .bf16) x = (V c main_v5 : S8192x4096.Idx → EReal) k := by
  obtain ⟨e0, e1, -⟩ := idx_facts2 t
  unfold iblk2
  rw [View.read_apply]
  show V c main_v5 _ = V c main_v5 _
  congr 1
  funext a
  apply Fin.ext
  match a with
  | ⟨0, _⟩ => show win2_0.index t 0 * 256 + 1 * (x 0).val = (k 0).val; rw [e0, hk0]; omega
  | ⟨1, _⟩ => show win2_0.index t 1 * 512 + 1 * (x 1).val = (k 1).val; rw [e1, hk1]; omega

/-- The block of weight rows at point `t`: rows `512 (t % 8) …` of the weight matrix, all columns. -/
theorem iblk2_1_apply (c : Dev nD) (t : Fin cfg2.N) (x : S512x4096.Idx) (k : S4096x4096.Idx)
    (hk0 : (k 0).val = 512 * (t.val % 8) + (x 0).val) (hk1 : (k 1).val = (x 1).val) :
    (iblk2 (F := Ideal) V c 1 t : Vec Ideal S512x4096 .bf16) x = (V c main_v6 : S4096x4096.Idx → EReal) k := by
  obtain ⟨-, -, e0, e1, -⟩ := idx_facts2 t
  unfold iblk2
  rw [View.read_apply]
  show V c main_v6 _ = V c main_v6 _
  congr 1
  funext a
  apply Fin.ext
  match a with
  | ⟨0, _⟩ => show win2_1.index t 0 * 512 + 1 * (x 0).val = (k 0).val; rw [e0, hk0]; omega
  | ⟨1, _⟩ => show win2_1.index t 1 * 4096 + 1 * (x 1).val = (k 1).val; rw [e1, hk1]; omega

/-- The bias block at every point is the whole bias row. -/
theorem iblk2_2_apply (c : Dev nD) (t : Fin cfg2.N) (x : S4096.Idx) :
    (iblk2 (F := Ideal) V c 2 t : Vec Ideal S4096 .f32) x = (V c main_arg11 : S4096.Idx → EReal) x := by
  obtain ⟨-, -, -, -, e0, -⟩ := idx_facts2 t
  unfold iblk2
  rw [View.read_apply]
  show V c main_arg11 _ = V c main_arg11 _
  congr 1
  funext a
  apply Fin.ext
  match a with
  | ⟨0, _⟩ => show win2_2.index t 0 * 4096 + 1 * (x 0).val = (x 0).val; rw [e0]; omega

/-! ## The accumulator within a row block -/

theorem N2' : cfg2.N = 256 := N_2

theorem tlt2 (t : Fin cfg2.N) : t.val < 256 := lt_of_lt_of_eq t.isLt N2'

/-- The three arrays the region reads, at their coordinates: the mixed rows, the output weights, the output bias. -/
abbrev mixedAt (c : Dev nD) (r : Fin 8192) (k : Fin 4096) : EReal := (V c main_v5 : S8192x4096.Idx → EReal) (ix2 r k)
abbrev woutAt (c : Dev nD) (k : Fin 4096) (j : Fin 4096) : EReal := (V c main_v6 : S4096x4096.Idx → EReal) (ix2 k j)
abbrev boutAt (c : Dev nD) (j : Fin 4096) : EReal := (V c main_arg11 : S4096.Idx → EReal) (ix1 j)

/-- Row `p` of row block `i` of the mixed array times column `q` of the weight matrix, over slice `kb` of the shared index. -/
def slice2 (c : Dev nD) (i : Fin 32) (p : Fin 256) (q : Fin 4096) (kb : Fin 8) : EReal :=
  ∑ l : Fin 512, mixedAt V c (⟨256 * i.val + p.val, by omega⟩ : Fin 8192) (⟨512 * kb.val + l.val, by omega⟩ : Fin 4096)
    * woutAt V c (⟨512 * kb.val + l.val, by omega⟩ : Fin 4096) q

/-- One accumulation at point `t`: what was there plus the point's slice of the product. -/
theorem step2_at (c : Dev nD) (t : Fin cfg2.N) (acc : Vec Ideal S256x4096 .f32) (p : Fin 256) (q : Fin 4096) :
    (step2 (F := Ideal) (iblk2 V c 0 t) (iblk2 V c 1 t) acc : S256x4096.Idx → EReal) (ix2 p q)
      = (acc (ix2 p q) : EReal) + slice2 V c ⟨t.val / 8, by have := tlt2 t; omega⟩ p q ⟨t.val % 8, by omega⟩ := by
  refine (step2_apply (iblk2 V c 0 t) (iblk2 V c 1 t) acc p q).trans ?_
  congr 1
  unfold slice2
  refine Finset.sum_congr rfl fun l _ => ?_
  rw [iblk2_0_apply V c t (ix2 p l) (ix2 (⟨256 * (t.val / 8) + p.val, by have := tlt2 t; omega⟩ : Fin 8192) (⟨512 * (t.val % 8) + l.val, by omega⟩ : Fin 4096)) rfl rfl,
    iblk2_1_apply V c t (ix2 l q) (ix2 (⟨512 * (t.val % 8) + l.val, by omega⟩ : Fin 4096) q) rfl rfl]

theorem acc2_congr (c : Dev nD) (n n' : ℕ) (h : n = n') (hn : n < cfg2.N) (hn' : n' < cfg2.N) :
    acc2 (F := Ideal) V c n hn = acc2 (F := Ideal) V c n' hn' := by
  subst h; rfl

theorem lt2 (i : Fin 32) (k : ℕ) (hk : k < 8) : 8 * i.val + k < cfg2.N := by rw [N2']; omega

theorem slice2_congr (c : Dev nD) (i i' : Fin 32) (p : Fin 256) (q : Fin 4096) (kb kb' : Fin 8) (hi : i.val = i'.val) (hk : kb.val = kb'.val) :
    slice2 V c i p q kb = slice2 V c i' p q kb' := by
  obtain rfl := Fin.ext hi
  obtain rfl := Fin.ext hk
  rfl

/-- After the point at slice `k` of row block `i` the accumulator holds the first `k + 1` slices of the product. -/
theorem acc2_apply (c : Dev nD) (i : Fin 32) (p : Fin 256) (q : Fin 4096) : ∀ (k : ℕ) (hk : k < 8),
    (acc2 (F := Ideal) V c (8 * i.val + k) (lt2 i k hk) : S256x4096.Idx → EReal) (ix2 p q)
      = ∑ kb : Fin (k + 1), slice2 V c i p q ⟨kb.val, by omega⟩ := by
  intro k
  induction k with
  | zero =>
    intro hk
    have h := acc2_reset (F := Ideal) V c ⟨8 * i.val + 0, lt2 i 0 hk⟩ (by show (8 * i.val + 0) % 8 = 0; omega)
    rw [show acc2 (F := Ideal) V c (8 * i.val + 0) (lt2 i 0 hk) = _ from h, step2_at, k2_pay1_apply, zero_add, Fin.sum_univ_one]
    exact slice2_congr V c _ _ p q _ _ (by show (8 * i.val + 0) / 8 = i.val; omega) (by show (8 * i.val + 0) % 8 = 0; omega)
  | succ k ih =>
    intro hk
    have h := acc2_succ (F := Ideal) V c ⟨8 * i.val + (k + 1), lt2 i (k + 1) hk⟩ (by show ¬ (8 * i.val + (k + 1)) % 8 = 0; omega)
    rw [show acc2 (F := Ideal) V c (8 * i.val + (k + 1)) (lt2 i (k + 1) hk) = _ from h, step2_at,
      acc2_congr V c _ (8 * i.val + k) (by show 8 * i.val + (k + 1) - 1 = 8 * i.val + k; omega) _ (lt2 i k (by omega)),
      ih (by omega), Fin.sum_univ_castSucc (n := k + 1)]
    refine congrArg (_ + ·) ?_
    exact slice2_congr V c _ _ p q _ _ (by show (8 * i.val + (k + 1)) / 8 = i.val; omega) (by show (8 * i.val + (k + 1)) % 8 = k + 1; omega)

/-! ## What the last point of a row block stores -/

/-- The stored block at a row and a column: the accumulator there plus the bias of the column. -/
theorem k2_pay3_apply (a : Vec Ideal S256x4096 .f32) (b : Vec Ideal S4096 .f32) (p : Fin 256) (q : Fin 4096) :
    (k2_pay3 (F := Ideal) a b : S256x4096.Idx → EReal) (ix2 p q) = (a (ix2 p q) : EReal) + (b (ix1 q) : EReal) := by
  unfold k2_pay3
  rw [addf_apply]
  refine congrArg (_ + ·) ?_
  rw [broadcastTo_apply _ broadcasts_S1x4096_S256x4096 (ix2 p q) (ix2 (0 : Fin 1) q) (fun a => by
        match a with
        | ⟨0, _⟩ => show (0 : Nat) = if (1 : Nat) = 1 then 0 else _; rw [if_pos rfl]
        | ⟨1, _⟩ => show q.val = if (4096 : Nat) = 1 then 0 else q.val; rw [if_neg (by decide)]),
    shapeCast_apply _ shapeCasts_S4096_S1x4096 (ix2 (0 : Fin 1) q) (ix1 q) (by
        rw [Shape.rowMajor_val_one, Shape.rowMajor_val_two]
        show q.val = 0 * 4096 + q.val
        omega)]

/-- The whole product of a row of the mixed array with a column of the weight matrix, slice by slice. -/
theorem sum_slices (c : Dev nD) (i : Fin 32) (p : Fin 256) (q : Fin 4096) :
    ∑ kb : Fin 8, slice2 V c i p q kb
      = ∑ k : Fin 4096, mixedAt V c (⟨256 * i.val + p.val, by omega⟩ : Fin 8192) k * woutAt V c k q := by
  unfold slice2
  exact (Cert.SumAlgebra.sum_8x512 (fun k : Fin 4096 => mixedAt V c (⟨256 * i.val + p.val, by omega⟩ : Fin 8192) k * woutAt V c k q)).symm

/-- What the last point of row block `i` stores, at a row and a column: that row through the weight matrix plus the bias. -/
theorem out2_apply (c : Dev nD) (t : Fin cfg2.N) (ht : t.val % 8 = 7) (p : Fin 256) (q : Fin 4096) :
    (out2 (F := Ideal) V c t : S256x4096.Idx → EReal) (ix2 p q)
      = Cert.Spec.outRow (fun k => mixedAt V c (⟨256 * (t.val / 8) + p.val, by have := tlt2 t; omega⟩ : Fin 8192) k)
          (fun k j' => woutAt V c k j') (fun j' => boutAt V c j') q := by
  have hlt := tlt2 t
  unfold out2
  refine (k2_pay3_apply _ _ p q).trans ?_
  unfold Cert.Spec.outRow
  rw [iblk2_2_apply V c t (ix1 q),
    acc2_congr V c t.val (8 * (⟨t.val / 8, by omega⟩ : Fin 32).val + 7) (by show t.val = 8 * (t.val / 8) + 7; omega) t.isLt (lt2 _ 7 (by omega)),
    acc2_apply V c ⟨t.val / 8, by omega⟩ p q 7 (by omega)]
  refine congrArg (· + _) ?_
  exact sum_slices V c ⟨t.val / 8, by omega⟩ p q

/-! ## From the stored blocks to the array -/

/-- The array the region leaves, index by index: each row of the mixed array through the weight matrix plus the bias. -/
abbrev G2 (c : Dev nD) : S8192x4096.Idx → EReal := fun i =>
  Cert.Spec.outRow (fun k => mixedAt V c (i 0) k) (fun k j' => woutAt V c k j') (fun j' => boutAt V c j') (i 1)

/-- The same at an index of the stored block, not yet split into its coordinates. -/
theorem out2_apply' (c : Dev nD) (t : Fin cfg2.N) (ht : t.val % 8 = 7) (y : S256x4096.Idx) :
    (out2 (F := Ideal) V c t : S256x4096.Idx → EReal) y
      = Cert.Spec.outRow (fun k => mixedAt V c (⟨256 * (t.val / 8) + (y 0).val, by have := tlt2 t; have hy : (y 0).val < 256 := (y 0).isLt; omega⟩ : Fin 8192) k)
          (fun k j' => woutAt V c k j') (fun j' => boutAt V c j') (y 1) := by
  obtain ⟨p, q, rfl⟩ : ∃ (p : Fin 256) (q : Fin 4096), y = ix2 p q := ⟨y 0, y 1, eq_ix2 y⟩
  exact out2_apply V c t ht p q

/-- What a flushing point writes back is its block of that array. -/
theorem flushed2_eq (c : Dev nD) (t : Fin cfg2.N) (hf : (cfg2.win 3).flush t = true) :
    (dat2 (F := Ideal) V c).flushed 3 t = ((cfg2.win 3).blk t).view.read (Elt Ideal) (G2 V c) := by
  have ht : t.val % 8 = 7 := (flush2_3 t).mp hf
  obtain ⟨-, -, -, -, -, e0, e1⟩ := idx_facts2 t
  show (cfg2.win 3).cut (grid2.coords t) ((dat2 (F := Ideal) V c).after 3 t) = _
  rw [after2_3]
  funext y
  show (out2 (F := Ideal) V c t : S256x4096.Idx → EReal) y = G2 V c (((cfg2.win 3).blk t).view.emb y)
  refine (out2_apply' V c t ht y).trans ?_
  have h0 : (((cfg2.win 3).blk t).view.emb y) 0 = (⟨256 * (t.val / 8) + (y 0).val, by have := tlt2 t; have hy : (y 0).val < 256 := (y 0).isLt; omega⟩ : Fin 8192) :=
    Fin.ext (by show win2_3.index t 0 * 256 + 1 * (y 0).val = 256 * (t.val / 8) + (y 0).val; rw [e0]; omega)
  have h1 : (((cfg2.win 3).blk t).view.emb y) 1 = y 1 :=
    Fin.ext (by show win2_3.index t 1 * 4096 + 1 * (y 1).val = (y 1).val; rw [e1]; omega)
  show _ = Cert.Spec.outRow (fun k => mixedAt V c ((((cfg2.win 3).blk t).view.emb y) 0) k) (fun k j' => woutAt V c k j') (fun j' => boutAt V c j') ((((cfg2.win 3).blk t).view.emb y) 1)
  rw [h0, h1]

/-- An index of the array is in point `t`'s block iff each coordinate is in the block's range on its axis. -/
theorem mem_blk2 (t : Fin cfg2.N) (i : S8192x4096.Idx) :
    i ∈ ((cfg2.win 3).blk t).view.set ↔ ∀ a : Fin 2, win2_3.index t a * S256x4096.size a ≤ (i a).val ∧ (i a).val < win2_3.index t a * S256x4096.size a + S256x4096.size a := by
  show i ∈ ((View.whole main_v7).slice (win2_3.rect t)).set ↔ _
  rw [View.set_slice_whole, Rect.mem_set_unit]
  exact Iff.rfl

/-- Every index is in the block of a flushing point: row `r` lies in row block `r / 256`, stored at its last point. -/
theorem cover2 (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, tv⟩ : ∃ t : Fin cfg2.N, t.val = 8 * ((i 0).val / 256) + 7 := ⟨⟨8 * ((i 0).val / 256) + 7, by rw [N2']; omega⟩, rfl⟩
  obtain ⟨-, -, -, -, -, e0, e1⟩ := idx_facts2 t
  refine ⟨t, (flush2_3 t).mpr (by omega), ?_⟩
  rw [mem_blk2]
  intro a
  match a with
  | ⟨0, _⟩ => show win2_3.index t 0 * 256 ≤ (i 0).val ∧ (i 0).val < win2_3.index t 0 * 256 + 256; rw [e0]; omega
  | ⟨1, _⟩ => show win2_3.index t 1 * 4096 ≤ (i 1).val ∧ (i 1).val < win2_3.index t 1 * 4096 + 4096; rw [e1]; omega

/-- The result array after the region is that array. -/
theorem final2 (c : Dev nD) : (dat2 (F := Ideal) V c).arrAt 3 cfg2.N = G2 V c :=
  (dat2 (F := Ideal) V c).arrAt_eq_of_cover 3 (G2 V c) (flushed2_eq V c) (cover2)

/-- The result array at row `r`, column `j`. -/
theorem val2 (c : Dev nD) (r : Fin 8192) (j : Fin 4096) :
    ((dat2 (F := Ideal) V c).arrAt 3 cfg2.N : S8192x4096.Idx → EReal) (ix2 r j)
      = Cert.Spec.outRow (fun k => (V c main_v5 : S8192x4096.Idx → EReal) (ix2 r k))
          (fun k j' => (V c main_v6 : S4096x4096.Idx → EReal) (ix2 k j'))
          (fun j' => (V c main_arg11 : S4096.Idx → EReal) (ix1 j')) j := by
  rw [final2 V c]

end Cert.KernelIdeal.Hand

end
-- ==== Proof.KI.Bridge.lean ====
/- The kernel's result array as the specification's function of the argument arrays: region 2's array is the last linear
   layer of region 1's, which is the gate's mix of region 0's two arrays, which are the two layer norms of the
   arguments; between the regions the host only slices the first weight matrix in two and changes formats, which at
   the ideal values changes nothing. -/
import proofs.«120078_j69518340653173_1_alg».proof.Proof.KI.Run
import proofs.«120078_j69518340653173_1_alg».proof.Proof.KI.Val0
import proofs.«120078_j69518340653173_1_alg».proof.Proof.KI.Val1
import proofs.«120078_j69518340653173_1_alg».proof.Proof.KI.Val2
import proofs.«120078_j69518340653173_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## What the host stretches compute, at any float instance -/

section Host
variable {F : FTy → Type} [FloatOps F] (m : (ℓ : Loc nD τ sig) → Buf (Elt F) ℓ)

theorem V2_v2_host (c : Dev nD) : V2 m c main_v2
    = ((truncf .bf16 · bitsLt_bf16_f32) : (⟨S4096x4096, .f32⟩ : BufTy).Contents (Elt F) → (⟨S4096x4096, .bf16⟩ : BufTy).Contents (Elt F))
        (((extractStridedSlice S4096x4096 ![0, 0] · slices_S8192x4096_S4096x4096_0_0) : (⟨S8192x4096, .f32⟩ : BufTy).Contents (Elt F) → (⟨S4096x4096, .f32⟩ : BufTy).Contents (Elt F))
          (W1 m c (Proc.devRef .tc main_arg6))) := by
  show StableHlo.after hostOps1 (W1 m c) (Proc.devRef .tc main_v2) = _
  after_results

theorem V2_v4_host (c : Dev nD) : V2 m c main_v4
    = ((truncf .bf16 · bitsLt_bf16_f32) : (⟨S4096x4096, .f32⟩ : BufTy).Contents (Elt F) → (⟨S4096x4096, .bf16⟩ : BufTy).Contents (Elt F))
        (((extractStridedSlice S4096x4096 ![4096, 0] · slices_S8192x4096_S4096x4096_4096_0) : (⟨S8192x4096, .f32⟩ : BufTy).Contents (Elt F) → (⟨S4096x4096, .f32⟩ : BufTy).Contents (Elt F))
          (W1 m c (Proc.devRef .tc main_arg6))) := by
  show StableHlo.after hostOps1 (W1 m c) (Proc.devRef .tc main_v4) = _
  after_results

theorem V4_v6_host (c : Dev nD) : V4 m c main_v6
    = ((truncf .bf16 · bitsLt_bf16_f32) : (⟨S4096x4096, .f32⟩ : BufTy).Contents (Elt F) → (⟨S4096x4096, .bf16⟩ : BufTy).Contents (Elt F))
        (W3 m c (Proc.devRef .tc main_arg10)) := by
  show StableHlo.after hostOps2 (W3 m c) (Proc.devRef .tc main_v6) = _
  after_results

end Host

variable (m : (ℓ : Loc nD τ sig) → Buf (Elt Ideal) ℓ)

/-! ## What each region finds in its arrays -/

/-- A buffer the first host stretch does not write and region 0 does not produce holds its launch contents when region 1
    is entered. -/
theorem V2_of_arg (c : Dev nD) (b : Ref sig .tc) (h1 : b ∉ hostOps1_W)
    (h0 : ∀ w, Pipeline.arrRef spec0 w = b → (cfg0.win w).isOut = false) :
    V2 m c b = m ((c : Thread nD τ).loc b) :=
  (StableHlo.after_of_writes_sub hostOps1 _ hostOps1_writes h1).trans (W1_keep m c b h0)

/-- Likewise when region 2 is entered. -/
theorem V4_of_arg (c : Dev nD) (b : Ref sig .tc) (h3 : b ∉ hostOps2_W)
    (h2 : ∀ w, Pipeline.arrRef spec1 w = b → (cfg1.win w).isOut = false) (h1 : b ∉ hostOps1_W)
    (h0 : ∀ w, Pipeline.arrRef spec0 w = b → (cfg0.win w).isOut = false) :
    V4 m c b = m ((c : Thread nD τ).loc b) :=
  (StableHlo.after_of_writes_sub hostOps2 _ hostOps2_writes h3).trans ((W3_keep m c b h2).trans (V2_of_arg m c b h1 h0))

/-- Region 1 finds region 0's two result arrays. -/
theorem V2_v0_0 (c : Dev nD) : V2 m c main_v0_0 = (dat0 (V0 m) c).arrAt 6 cfg0.N :=
  (StableHlo.after_of_writes_sub hostOps1 _ hostOps1_writes (by decide)).trans (W1_arr m c 6)
theorem V2_v0_1 (c : Dev nD) : V2 m c main_v0_1 = (dat0 (V0 m) c).arrAt 7 cfg0.N :=
  (StableHlo.after_of_writes_sub hostOps1 _ hostOps1_writes (by decide)).trans (W1_arr m c 7)

/-- It finds the upper half of the first weight matrix in one array, -/
theorem V2_v2 (c : Dev nD) (k j : Fin 4096) :
    (V2 m c main_v2 : S4096x4096.Idx → EReal) (ix2 k j)
      = (m ((c : Thread nD τ).loc main_arg6) : S8192x4096.Idx → EReal) (ix2 (⟨k.val, by omega⟩ : Fin 8192) j) := by
  rw [V2_v2_host m c, W1_keep m c main_arg6 (by decide)]
  show extractStridedSlice S4096x4096 ![0, 0] (m ((c : Thread nD τ).loc main_arg6) : S8192x4096.Idx → EReal) slices_S8192x4096_S4096x4096_0_0 (ix2 k j) = _
  refine (extractStridedSlice_apply _ _ _ _ (ix2 (⟨k.val, by omega⟩ : Fin 8192) j) fun a => ?_)
  match a with
  | ⟨0, _⟩ => simp
  | ⟨1, _⟩ => simp

/-- and the lower half in another. -/
theorem V2_v4 (c : Dev nD) (k j : Fin 4096) :
    (V2 m c main_v4 : S4096x4096.Idx → EReal) (ix2 k j)
      = (m ((c : Thread nD τ).loc main_arg6) : S8192x4096.Idx → EReal) (ix2 (⟨4096 + k.val, by omega⟩ : Fin 8192) j) := by
  rw [V2_v4_host m c, W1_keep m c main_arg6 (by decide)]
  show extractStridedSlice S4096x4096 ![4096, 0] (m ((c : Thread nD τ).loc main_arg6) : S8192x4096.Idx → EReal) slices_S8192x4096_S4096x4096_4096_0 (ix2 k j) = _
  refine (extractStridedSlice_apply _ _ _ _ (ix2 (⟨4096 + k.val, by omega⟩ : Fin 8192) j) fun a => ?_)
  match a with
  | ⟨0, _⟩ => simp
  | ⟨1, _⟩ => simp

/-- So the first weight matrix as region 1 finds it is the argument. -/
theorem W1of_eq (c : Dev nD) (k : Fin 8192) (j : Fin 4096) :
    W1of (V2 m) c k j = (m ((c : Thread nD τ).loc main_arg6) : S8192x4096.Idx → EReal) (ix2 k j) := by
  unfold W1of
  split
  · next h => rw [V2_v2]
  · next h =>
    rw [V2_v4]
    exact congrArg (fun k' : Fin 8192 => (m ((c : Thread nD τ).loc main_arg6) : S8192x4096.Idx → EReal) (ix2 k' j)) (Fin.ext (by simp; omega))

/-- Region 2 finds region 1's result array, -/
theorem V4_v5 (c : Dev nD) : V4 m c main_v5 = (dat1 (V2 m) c).arrAt 7 cfg1.N :=
  (StableHlo.after_of_writes_sub hostOps2 _ hostOps2_writes (by decide)).trans (W3_arr m c 7)

/-- and the output weight matrix. -/
theorem V4_v6 (c : Dev nD) (k j : Fin 4096) :
    (V4 m c main_v6 : S4096x4096.Idx → EReal) (ix2 k j)
      = (m ((c : Thread nD τ).loc main_arg10) : S4096x4096.Idx → EReal) (ix2 k j) := by
  rw [V4_v6_host m c, W3_keep m c main_arg10 (by decide)]
  have h : W2 m c (Proc.devRef .tc main_arg10) = m ((c : Thread nD τ).loc main_arg10) := V2_of_arg m c main_arg10 (by decide) (by decide)
  show (W2 m c (Proc.devRef .tc main_arg10) : S4096x4096.Idx → EReal) (ix2 k j) = _
  rw [h]

/-! ## The result -/

/-- THE KERNEL'S VALUE: the result array at row `r`, column `j`, is the specification's function of the arguments. -/
theorem result_eq (c : Dev nD) (r : Fin 8192) (j : Fin 4096) :
    ((dat2 (F := Ideal) (V4 m) c).arrAt 3 cfg2.N : S8192x4096.Idx → EReal) (ix2 r j)
      = Cert.Spec.G (fun r' j' => (m ((c : Thread nD τ).loc main_arg0) : S8192x4096.Idx → EReal) (ix2 r' j'))
          (fun r' j' => (m ((c : Thread nD τ).loc main_arg1) : S8192x4096.Idx → EReal) (ix2 r' j'))
          (fun j' => (m ((c : Thread nD τ).loc main_arg2) : S4096.Idx → EReal) (ix1 j'))
          (fun j' => (m ((c : Thread nD τ).loc main_arg3) : S4096.Idx → EReal) (ix1 j'))
          (fun j' => (m ((c : Thread nD τ).loc main_arg4) : S4096.Idx → EReal) (ix1 j'))
          (fun j' => (m ((c : Thread nD τ).loc main_arg5) : S4096.Idx → EReal) (ix1 j'))
          (fun k j' => (m ((c : Thread nD τ).loc main_arg6) : S8192x4096.Idx → EReal) (ix2 k j'))
          (fun j' => (m ((c : Thread nD τ).loc main_arg7) : S4096.Idx → EReal) (ix1 j'))
          (fun j' q => (m ((c : Thread nD τ).loc main_arg8) : S4096x2.Idx → EReal) (ix2 j' q))
          (fun q => (m ((c : Thread nD τ).loc main_arg9) : S2.Idx → EReal) (ix1 q))
          (fun k j' => (m ((c : Thread nD τ).loc main_arg10) : S4096x4096.Idx → EReal) (ix2 k j'))
          (fun j' => (m ((c : Thread nD τ).loc main_arg11) : S4096.Idx → EReal) (ix1 j')) r j := by
  rw [val2 (V4 m) c r j]
  unfold Cert.Spec.G
  have hT : ∀ j', (V2 m c main_v0_0 : S8192x4096.Idx → EReal) (ix2 r j')
      = Cert.Spec.ln (fun j'' => (m ((c : Thread nD τ).loc main_arg0) : S8192x4096.Idx → EReal) (ix2 r j''))
          (fun j'' => (m ((c : Thread nD τ).loc main_arg2) : S4096.Idx → EReal) (ix1 j''))
          (fun j'' => (m ((c : Thread nD τ).loc main_arg3) : S4096.Idx → EReal) (ix1 j'')) j' := fun j' => by
    rw [V2_v0_0 m c]; exact val0_6 (V0 m) c r j'
  have hK : ∀ j', (V2 m c main_v0_1 : S8192x4096.Idx → EReal) (ix2 r j')
      = Cert.Spec.ln (fun j'' => (m ((c : Thread nD τ).loc main_arg1) : S8192x4096.Idx → EReal) (ix2 r j''))
          (fun j'' => (m ((c : Thread nD τ).loc main_arg4) : S4096.Idx → EReal) (ix1 j''))
          (fun j'' => (m ((c : Thread nD τ).loc main_arg5) : S4096.Idx → EReal) (ix1 j'')) j' := fun j' => by
    rw [V2_v0_1 m c]; exact val0_7 (V0 m) c r j'
  have hF := fun k : Fin 4096 =>
    (show (V4 m c main_v5 : S8192x4096.Idx → EReal) (ix2 r k)
        = ((dat1 (F := Ideal) (V2 m) c).arrAt 7 cfg1.N : S8192x4096.Idx → EReal) (ix2 r k) from by rw [V4_v5 m c]).trans
      (val1 (V2 m) c r k)
  simp only [hF, funext hT, funext hK, funext fun k => funext fun j' => W1of_eq m c k j',
    funext fun k => funext fun j' => V4_v6 m c k j',
    V2_of_arg m c main_arg7 (by decide) (by decide), V2_of_arg m c main_arg8 (by decide) (by decide),
    V2_of_arg m c main_arg9 (by decide) (by decide),
    V4_of_arg m c main_arg11 (by decide) (by decide) (by decide) (by decide)]

end Cert.KernelIdeal.Hand

end
-- ==== Proof.RefRun.lean ====
/- The reference's run and its stages read at an index: the generated modules, brought in for the
   modules that state what the reference computes. -/
import proofs.«120078_j69518340653173_1_alg».proof.Proof.Gen.ReferenceIdeal.Run
import proofs.«120078_j69518340653173_1_alg».proof.Proof.Gen.ReferenceIdeal.Read
-- ==== Proof.RefVal.lean ====
/- The reference's result, read at a row and a column, is the specification's function of the argument arrays. -/
import proofs.«120078_j69518340653173_1_alg».proof.Proof.RefRun
import proofs.«120078_j69518340653173_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

/-! The reference's index maps, at an index given by its coordinates. -/
theorem i4 (r : Fin 8192) (j : Fin 4096) : idx_main_v4 (ix2 r j) = ix2 r (0 : Fin 1) := funext fun a => Fin.ext (by match a with | ⟨0, _⟩ => rfl | ⟨1, _⟩ => rfl)
theorem i11 (r : Fin 8192) (j : Fin 4096) : idx_main_v11 (ix2 r j) = ix2 r (0 : Fin 1) := funext fun a => Fin.ext (by match a with | ⟨0, _⟩ => rfl | ⟨1, _⟩ => rfl)
theorem i16 (r : Fin 8192) (j : Fin 4096) : idx_main_v16 (ix2 r j) = ix2 r (0 : Fin 1) := funext fun a => Fin.ext (by match a with | ⟨0, _⟩ => rfl | ⟨1, _⟩ => rfl)
theorem i28 (r : Fin 8192) (j : Fin 4096) : idx_main_v28 (ix2 r j) = ix2 r (0 : Fin 1) := funext fun a => Fin.ext (by match a with | ⟨0, _⟩ => rfl | ⟨1, _⟩ => rfl)
theorem i35 (r : Fin 8192) (j : Fin 4096) : idx_main_v35 (ix2 r j) = ix2 r (0 : Fin 1) := funext fun a => Fin.ext (by match a with | ⟨0, _⟩ => rfl | ⟨1, _⟩ => rfl)
theorem i40 (r : Fin 8192) (j : Fin 4096) : idx_main_v40 (ix2 r j) = ix2 r (0 : Fin 1) := funext fun a => Fin.ext (by match a with | ⟨0, _⟩ => rfl | ⟨1, _⟩ => rfl)
theorem i70 (r : Fin 8192) (j : Fin 4096) : idx_main_v70 (ix2 r j) = ix2 r (0 : Fin 1) := funext fun a => Fin.ext (by match a with | ⟨0, _⟩ => rfl | ⟨1, _⟩ => rfl)
theorem i73 (r : Fin 8192) (j : Fin 4096) : idx_main_v73 (ix2 r j) = ix2 r (0 : Fin 1) := funext fun a => Fin.ext (by match a with | ⟨0, _⟩ => rfl | ⟨1, _⟩ => rfl)
theorem i62 (r : Fin 8192) (q : Fin 2) : idx_main_v62 (ix2 r q) = ix2 r (0 : Fin 1) := funext fun a => Fin.ext (by match a with | ⟨0, _⟩ => rfl | ⟨1, _⟩ => rfl)
theorem i67 (r : Fin 8192) (q : Fin 2) : idx_main_v67 (ix2 r q) = ix2 r (0 : Fin 1) := funext fun a => Fin.ext (by match a with | ⟨0, _⟩ => rfl | ⟨1, _⟩ => rfl)
theorem i1 (r : Fin 8192) (z : Fin 1) : idx_main_v1 (ix2 r z) = ix1 r := funext fun a => Fin.ext (by match a with | ⟨0, _⟩ => rfl)
theorem i8 (r : Fin 8192) (z : Fin 1) : idx_main_v8 (ix2 r z) = ix1 r := funext fun a => Fin.ext (by match a with | ⟨0, _⟩ => rfl)
theorem i25 (r : Fin 8192) (z : Fin 1) : idx_main_v25 (ix2 r z) = ix1 r := funext fun a => Fin.ext (by match a with | ⟨0, _⟩ => rfl)
theorem i32 (r : Fin 8192) (z : Fin 1) : idx_main_v32 (ix2 r z) = ix1 r := funext fun a => Fin.ext (by match a with | ⟨0, _⟩ => rfl)
theorem i61 (r : Fin 8192) (z : Fin 1) : idx_main_v61 (ix2 r z) = ix1 r := funext fun a => Fin.ext (by match a with | ⟨0, _⟩ => rfl)
theorem i66 (r : Fin 8192) (z : Fin 1) : idx_main_v66 (ix2 r z) = ix1 r := funext fun a => Fin.ext (by match a with | ⟨0, _⟩ => rfl)
theorem i0 (r : Fin 8192) (k : Fin 4096) : idx_main_v0 (ix1 r) k = ix2 r k := funext fun a => Fin.ext (by match a with | ⟨0, _⟩ => rfl | ⟨1, _⟩ => rfl)
theorem i7 (r : Fin 8192) (k : Fin 4096) : idx_main_v7 (ix1 r) k = ix2 r k := funext fun a => Fin.ext (by match a with | ⟨0, _⟩ => rfl | ⟨1, _⟩ => rfl)
theorem i24 (r : Fin 8192) (k : Fin 4096) : idx_main_v24 (ix1 r) k = ix2 r k := funext fun a => Fin.ext (by match a with | ⟨0, _⟩ => rfl | ⟨1, _⟩ => rfl)
theorem i31 (r : Fin 8192) (k : Fin 4096) : idx_main_v31 (ix1 r) k = ix2 r k := funext fun a => Fin.ext (by match a with | ⟨0, _⟩ => rfl | ⟨1, _⟩ => rfl)
theorem i65 (r : Fin 8192) (k : Fin 2) : idx_main_v65 (ix1 r) k = ix2 r k := funext fun a => Fin.ext (by match a with | ⟨0, _⟩ => rfl | ⟨1, _⟩ => rfl)
theorem i19 (r : Fin 8192) (j : Fin 4096) : idx_main_v19 (ix2 r j) = ix2 (0 : Fin 1) j := funext fun a => Fin.ext (by match a with | ⟨0, _⟩ => rfl | ⟨1, _⟩ => rfl)
theorem i22 (r : Fin 8192) (j : Fin 4096) : idx_main_v22 (ix2 r j) = ix2 (0 : Fin 1) j := funext fun a => Fin.ext (by match a with | ⟨0, _⟩ => rfl | ⟨1, _⟩ => rfl)
theorem i43 (r : Fin 8192) (j : Fin 4096) : idx_main_v43 (ix2 r j) = ix2 (0 : Fin 1) j := funext fun a => Fin.ext (by match a with | ⟨0, _⟩ => rfl | ⟨1, _⟩ => rfl)
theorem i46 (r : Fin 8192) (j : Fin 4096) : idx_main_v46 (ix2 r j) = ix2 (0 : Fin 1) j := funext fun a => Fin.ext (by match a with | ⟨0, _⟩ => rfl | ⟨1, _⟩ => rfl)
theorem i51 (r : Fin 8192) (j : Fin 4096) : idx_main_v51 (ix2 r j) = ix2 (0 : Fin 1) j := funext fun a => Fin.ext (by match a with | ⟨0, _⟩ => rfl | ⟨1, _⟩ => rfl)
theorem i78 (r : Fin 8192) (j : Fin 4096) : idx_main_v78 (ix2 r j) = ix2 (0 : Fin 1) j := funext fun a => Fin.ext (by match a with | ⟨0, _⟩ => rfl | ⟨1, _⟩ => rfl)
theorem i56 (r : Fin 8192) (q : Fin 2) : idx_main_v56 (ix2 r q) = ix2 (0 : Fin 1) q := funext fun a => Fin.ext (by match a with | ⟨0, _⟩ => rfl | ⟨1, _⟩ => rfl)
theorem i18 (z : Fin 1) (j : Fin 4096) : idx_main_v18 (ix2 z j) = ix1 j := funext fun a => Fin.ext (by match a with | ⟨0, _⟩ => rfl)
theorem i21 (z : Fin 1) (j : Fin 4096) : idx_main_v21 (ix2 z j) = ix1 j := funext fun a => Fin.ext (by match a with | ⟨0, _⟩ => rfl)
theorem i42 (z : Fin 1) (j : Fin 4096) : idx_main_v42 (ix2 z j) = ix1 j := funext fun a => Fin.ext (by match a with | ⟨0, _⟩ => rfl)
theorem i45 (z : Fin 1) (j : Fin 4096) : idx_main_v45 (ix2 z j) = ix1 j := funext fun a => Fin.ext (by match a with | ⟨0, _⟩ => rfl)
theorem i50 (z : Fin 1) (j : Fin 4096) : idx_main_v50 (ix2 z j) = ix1 j := funext fun a => Fin.ext (by match a with | ⟨0, _⟩ => rfl)
theorem i77 (z : Fin 1) (j : Fin 4096) : idx_main_v77 (ix2 z j) = ix1 j := funext fun a => Fin.ext (by match a with | ⟨0, _⟩ => rfl)
theorem i55 (z : Fin 1) (q : Fin 2) : idx_main_v55 (ix2 z q) = ix1 q := funext fun a => Fin.ext (by match a with | ⟨0, _⟩ => rfl)
theorem i69 (r : Fin 8192) : idx_main_v69 (ix2 r (0 : Fin 1)) = ix2 r (0 : Fin 2) := funext fun a => Fin.ext (by match a with | ⟨0, _⟩ => rfl | ⟨1, _⟩ => rfl)
theorem i72 (r : Fin 8192) : idx_main_v72 (ix2 r (0 : Fin 1)) = ix2 r (1 : Fin 2) := funext fun a => Fin.ext (by match a with | ⟨0, _⟩ => rfl | ⟨1, _⟩ => rfl)
theorem l49 (r : Fin 8192) (j : Fin 4096) (k : Fin 8192) : lidx_main_v49 (ix2 r j) k = ix2 r k := funext fun a => Fin.ext (by match a with | ⟨0, _⟩ => rfl | ⟨1, _⟩ => rfl)
theorem r49 (r : Fin 8192) (j : Fin 4096) (k : Fin 8192) : ridx_main_v49 (ix2 r j) k = ix2 k j := funext fun a => Fin.ext (by match a with | ⟨0, _⟩ => rfl | ⟨1, _⟩ => rfl)
theorem l54 (r : Fin 8192) (q : Fin 2) (k : Fin 4096) : lidx_main_v54 (ix2 r q) k = ix2 r k := funext fun a => Fin.ext (by match a with | ⟨0, _⟩ => rfl | ⟨1, _⟩ => rfl)
theorem r54 (r : Fin 8192) (q : Fin 2) (k : Fin 4096) : ridx_main_v54 (ix2 r q) k = ix2 k q := funext fun a => Fin.ext (by match a with | ⟨0, _⟩ => rfl | ⟨1, _⟩ => rfl)
theorem l76 (r : Fin 8192) (j : Fin 4096) (k : Fin 4096) : lidx_main_v76 (ix2 r j) k = ix2 r k := funext fun a => Fin.ext (by match a with | ⟨0, _⟩ => rfl | ⟨1, _⟩ => rfl)
theorem r76 (r : Fin 8192) (j : Fin 4096) (k : Fin 4096) : ridx_main_v76 (ix2 r j) k = ix2 k j := funext fun a => Fin.ext (by match a with | ⟨0, _⟩ => rfl | ⟨1, _⟩ => rfl)

/-- The first layer norm read at a row and a column. -/
theorem ln0_eq (x0 : S8192x4096.Idx → EReal) (x2 x3 : S4096.Idx → EReal) (r : Fin 8192) (j : Fin 4096) :
    val_main_v23 (F := Ideal) x0 x2 x3 (ix2 r j)
      = Cert.Spec.ln (fun j' => x0 (ix2 r j')) (fun j' => x2 (ix1 j')) (fun j' => x3 (ix1 j')) j := by
  simp only [val_main_v23_apply, val_main_v22_apply, val_main_v21_apply, val_main_v20_apply, val_main_v19_apply,
    val_main_v18_apply, val_main_v17_apply, val_main_v16_apply, val_main_v15_apply, val_main_v14_apply, val_main_v13_apply,
    val_main_cst_3_apply, val_main_v12_apply, val_main_v11_apply, val_main_v10_apply, val_main_v9_apply, val_main_cst_2_apply,
    val_main_v8_apply, val_main_v7_apply, val_main_cst_1_apply, val_main_v6_apply, val_main_v5_apply, val_main_v4_apply,
    val_main_v3_apply, val_main_v2_apply, val_main_cst_0_apply, val_main_v1_apply, val_main_v0_apply, val_main_cst_apply,
    i4, i11, i16, i1, i8, i0, i7, i19, i22, i18, i21,
    Ideal.ofBits_def, Ideal.addf_def, Ideal.subf_def, Ideal.mulf_def, Ideal.hostDivf_def, Ideal.hostUnary_rsqrt_def,
    Ideal.ofBits_zero_f32, zero_add]
  rfl

/-- The second layer norm read at a row and a column. -/
theorem ln1_eq (x1 : S8192x4096.Idx → EReal) (x4 x5 : S4096.Idx → EReal) (r : Fin 8192) (j : Fin 4096) :
    val_main_v47 (F := Ideal) x1 x4 x5 (ix2 r j)
      = Cert.Spec.ln (fun j' => x1 (ix2 r j')) (fun j' => x4 (ix1 j')) (fun j' => x5 (ix1 j')) j := by
  simp only [val_main_v47_apply, val_main_v46_apply, val_main_v45_apply, val_main_v44_apply, val_main_v43_apply,
    val_main_v42_apply, val_main_v41_apply, val_main_v40_apply, val_main_v39_apply, val_main_v38_apply, val_main_v37_apply,
    val_main_cst_8_apply, val_main_v36_apply, val_main_v35_apply, val_main_v34_apply, val_main_v33_apply, val_main_cst_7_apply,
    val_main_v32_apply, val_main_v31_apply, val_main_cst_6_apply, val_main_v30_apply, val_main_v29_apply, val_main_v28_apply,
    val_main_v27_apply, val_main_v26_apply, val_main_cst_5_apply, val_main_v25_apply, val_main_v24_apply, val_main_cst_4_apply,
    i28, i35, i40, i25, i32, i24, i31, i43, i46, i42, i45,
    Ideal.ofBits_def, Ideal.addf_def, Ideal.subf_def, Ideal.mulf_def, Ideal.hostDivf_def, Ideal.hostUnary_rsqrt_def,
    Ideal.ofBits_zero_f32, zero_add]
  rfl

/-- The joined row: a column below 4096 reads the first normalised row, a column from 4096 on the second. -/
theorem comb_eq (x0 x1 : S8192x4096.Idx → EReal) (x2 x3 x4 x5 : S4096.Idx → EReal) (r : Fin 8192) (k : Fin 8192) :
    val_main_v48 (F := Ideal) x0 x1 x2 x3 x4 x5 (ix2 r k)
      = Cert.Spec.comb (Cert.Spec.ln (fun j' => x0 (ix2 r j')) (fun j' => x2 (ix1 j')) (fun j' => x3 (ix1 j')))
          (Cert.Spec.ln (fun j' => x1 (ix2 r j')) (fun j' => x4 (ix1 j')) (fun j' => x5 (ix1 j'))) k := by
  unfold val_main_v48 Cert.Spec.comb
  by_cases h : k.val < 4096
  · rw [dif_pos h, ← ln0_eq x0 x2 x3 r ⟨k.val, h⟩]
    generalize val_main_v23 (F := Ideal) x0 x2 x3 = y0
    generalize val_main_v47 (F := Ideal) x1 x4 x5 = y1
    exact concatenate_pair_apply_left (1 : Fin S8192x8192.rank) y0 y1 concatenates_S8192x4096_S8192x4096_S8192x8192_d1
      (ix2 r k) rfl (ix2 r ⟨k.val, h⟩) (fun b => by match b with | ⟨0, _⟩ => rfl | ⟨1, _⟩ => rfl)
  · have hk : k.val - 4096 < 4096 := by have := k.isLt; omega
    rw [dif_neg h, ← ln1_eq x1 x4 x5 r ⟨k.val - 4096, hk⟩]
    generalize val_main_v23 (F := Ideal) x0 x2 x3 = y0
    generalize val_main_v47 (F := Ideal) x1 x4 x5 = y1
    exact concatenate_pair_apply_right (1 : Fin S8192x8192.rank) y0 y1 concatenates_S8192x4096_S8192x4096_S8192x8192_d1
      (ix2 r k) rfl rfl (ix2 r ⟨k.val - 4096, hk⟩)
      (fun b hb => by
        have hb0 : b.val ≠ 1 := fun e => hb (Fin.ext e)
        have hb2 : b.val < 2 := b.isLt
        have hb1 : b = ⟨0, by decide⟩ := Fin.ext (by show b.val = 0; omega)
        subst hb1; rfl)
      (by show (k.val - 4096) + 4096 = k.val; omega)

/-- The hidden row: the joined row through the first weight matrix, plus bias, rectified. -/
theorem hid_eq (x0 x1 : S8192x4096.Idx → EReal) (x2 x3 x4 x5 : S4096.Idx → EReal) (x6 : S8192x4096.Idx → EReal) (x7 : S4096.Idx → EReal) (r : Fin 8192) (j : Fin 4096) :
    val_main_v53 (F := Ideal) x0 x1 x2 x3 x4 x5 x6 x7 (ix2 r j) = Cert.Spec.hid (Cert.Spec.ln (fun j' => x0 (ix2 r j')) (fun j' => x2 (ix1 j')) (fun j' => x3 (ix1 j')))
      (Cert.Spec.ln (fun j' => x1 (ix2 r j')) (fun j' => x4 (ix1 j')) (fun j' => x5 (ix1 j'))) (fun k j' => x6 (ix2 k j')) (fun j' => x7 (ix1 j')) j := by
  simp only [val_main_v53_apply, val_main_v52_apply, val_main_v51_apply, val_main_v50_apply, val_main_v49_apply,
    val_main_call0_v0_apply, val_main_call0_cst_apply, i51, i50, l49, r49, comb_eq, Ideal.ofBits_def, Ideal.addf_def, Ideal.subf_def, Ideal.mulf_def, Ideal.hostDivf_def, Ideal.maximumf_def]
  rfl

/-- The two logits. -/
theorem logit_eq (x0 x1 : S8192x4096.Idx → EReal) (x2 x3 x4 x5 : S4096.Idx → EReal) (x6 : S8192x4096.Idx → EReal) (x7 : S4096.Idx → EReal) (x8 : S4096x2.Idx → EReal) (x9 : S2.Idx → EReal) (r : Fin 8192) (q : Fin 2) :
    val_main_v57 (F := Ideal) x0 x1 x2 x3 x4 x5 x6 x7 x8 x9 (ix2 r q) = Cert.Spec.logit (Cert.Spec.hid (Cert.Spec.ln (fun j' => x0 (ix2 r j')) (fun j' => x2 (ix1 j')) (fun j' => x3 (ix1 j'))) (Cert.Spec.ln (fun j' => x1 (ix2 r j')) (fun j' => x4 (ix1 j')) (fun j' => x5 (ix1 j'))) (fun k j' => x6 (ix2 k j')) (fun j' => x7 (ix1 j')))
      (fun j' q' => x8 (ix2 j' q')) (fun q' => x9 (ix1 q')) q := by
  simp only [val_main_v57_apply, val_main_v56_apply, val_main_v55_apply, val_main_v54_apply, i56, i55, l54, r54, hid_eq, Ideal.ofBits_def, Ideal.addf_def, Ideal.subf_def, Ideal.mulf_def, Ideal.hostDivf_def, Ideal.maximumf_def]
  rfl

/-- The host's maximum over the two columns of a row, from minus infinity, is the fold of `max` over them. -/
theorem hostMax_eq (y : (⟨S8192x2, .f32⟩ : BufTy).Contents (Elt Ideal)) (r : Fin 8192) :
    Host.reduce (FloatOps.maximumf (F := Ideal) (φ := .f32)) y (val_main_cst_9 (F := Ideal)) reducesTo_S8192x2_S8192_d1 h_S_ (ix1 r)
      = (Finset.univ : Finset (Fin 2)).fold max Cert.Spec.cninf (fun q => y (ix2 r q)) := by
  have h : S8192x2.Reduces [1] S8192 := by decide
  rw [Host.reduce_eq_fold_single (FloatOps.maximumf (F := Ideal) (φ := .f32)) y _ reducesTo_S8192x2_S8192_d1 h h_S_]
  have hl : ∀ k : Fin (S8192x2.size 1), h.lift (ix1 r) k = ix2 r (⟨k.val, k.isLt⟩ : Fin 2) := fun k =>
    funext fun c => Fin.ext (by fin_cases c <;> rfl)
  have e : y ∘ h.lift (ix1 r) = fun q : Fin 2 => y (ix2 r q) := funext fun k => congrArg y (hl k)
  rw [e]
  rfl

/-- The row's maximum as the reference takes it. -/
theorem rmax_eq (x0 x1 : S8192x4096.Idx → EReal) (x2 x3 x4 x5 : S4096.Idx → EReal) (x6 : S8192x4096.Idx → EReal) (x7 : S4096.Idx → EReal) (x8 : S4096x2.Idx → EReal) (x9 : S2.Idx → EReal) (r : Fin 8192) :
    val_main_v60 (F := Ideal) x0 x1 x2 x3 x4 x5 x6 x7 x8 x9 (ix1 r)
      = Cert.Spec.rmax (fun q => val_main_v57 (F := Ideal) x0 x1 x2 x3 x4 x5 x6 x7 x8 x9 (ix2 r q)) := by
  rw [val_main_v60_apply, val_main_v59_apply, val_main_cst_10_apply]
  unfold val_main_v58
  generalize val_main_v57 (F := Ideal) x0 x1 x2 x3 x4 x5 x6 x7 x8 x9 = y
  rw [hostMax_eq y r]
  rfl

/-- The softmax of a row's two logits. -/
theorem sm_eq (x0 x1 : S8192x4096.Idx → EReal) (x2 x3 x4 x5 : S4096.Idx → EReal) (x6 : S8192x4096.Idx → EReal) (x7 : S4096.Idx → EReal) (x8 : S4096x2.Idx → EReal) (x9 : S2.Idx → EReal) (r : Fin 8192) (q : Fin 2) :
    val_main_v68 (F := Ideal) x0 x1 x2 x3 x4 x5 x6 x7 x8 x9 (ix2 r q)
      = Cert.Spec.sm (fun q' => val_main_v57 (F := Ideal) x0 x1 x2 x3 x4 x5 x6 x7 x8 x9 (ix2 r q')) q := by
  simp only [val_main_v68_apply, val_main_v67_apply, val_main_v66_apply, val_main_v65_apply, val_main_cst_11_apply,
    val_main_v64_apply, val_main_v63_apply, val_main_v62_apply, val_main_v61_apply, i67, i66, i65, i62, i61, rmax_eq,
    Ideal.ofBits_def, Ideal.subf_def, Ideal.hostDivf_def, Ideal.hostUnary_exp_def, Ideal.ofBits_zero_f32, zero_add]
  rfl

/-- The mixed row: the two normalised rows weighted by the gate. -/
theorem fused_eq (x0 x1 : S8192x4096.Idx → EReal) (x2 x3 x4 x5 : S4096.Idx → EReal) (x6 : S8192x4096.Idx → EReal) (x7 : S4096.Idx → EReal) (x8 : S4096x2.Idx → EReal) (x9 : S2.Idx → EReal) (r : Fin 8192) (j : Fin 4096) :
    val_main_v75 (F := Ideal) x0 x1 x2 x3 x4 x5 x6 x7 x8 x9 (ix2 r j)
      = Cert.Spec.fused (Cert.Spec.ln (fun j' => x0 (ix2 r j')) (fun j' => x2 (ix1 j')) (fun j' => x3 (ix1 j')))
          (Cert.Spec.ln (fun j' => x1 (ix2 r j')) (fun j' => x4 (ix1 j')) (fun j' => x5 (ix1 j')))
          (Cert.Spec.gate (Cert.Spec.ln (fun j' => x0 (ix2 r j')) (fun j' => x2 (ix1 j')) (fun j' => x3 (ix1 j')))
            (Cert.Spec.ln (fun j' => x1 (ix2 r j')) (fun j' => x4 (ix1 j')) (fun j' => x5 (ix1 j'))) (fun k j' => x6 (ix2 k j')) (fun j' => x7 (ix1 j')) (fun j' q' => x8 (ix2 j' q')) (fun q' => x9 (ix1 q'))) j := by
  simp only [val_main_v75_apply, val_main_v74_apply, val_main_v73_apply, val_main_v72_apply, val_main_v71_apply,
    val_main_v70_apply, val_main_v69_apply, i70, i73, i69, i72, sm_eq, logit_eq, ln0_eq, ln1_eq, Ideal.addf_def, Ideal.mulf_def]
  rfl

/-- The reference's last stage at row `r`, column `j`, of any argument arrays. -/
theorem ref_eq (x0 x1 : S8192x4096.Idx → EReal) (x2 x3 x4 x5 : S4096.Idx → EReal) (x6 : S8192x4096.Idx → EReal)
    (x7 : S4096.Idx → EReal) (x8 : S4096x2.Idx → EReal) (x9 : S2.Idx → EReal) (x10 : S4096x4096.Idx → EReal)
    (x11 : S4096.Idx → EReal) (r : Fin 8192) (j : Fin 4096) :
    val_main_v79 (F := Ideal) x0 x1 x2 x3 x4 x5 x6 x7 x8 x9 x10 x11 (ix2 r j)
      = Cert.Spec.G (fun r' j' => x0 (ix2 r' j')) (fun r' j' => x1 (ix2 r' j')) (fun j' => x2 (ix1 j')) (fun j' => x3 (ix1 j'))
          (fun j' => x4 (ix1 j')) (fun j' => x5 (ix1 j')) (fun k j' => x6 (ix2 k j')) (fun j' => x7 (ix1 j'))
          (fun j' q => x8 (ix2 j' q)) (fun q => x9 (ix1 q)) (fun k j' => x10 (ix2 k j')) (fun j' => x11 (ix1 j')) r j := by
  simp only [val_main_v79_apply, val_main_v78_apply, val_main_v77_apply, val_main_v76_apply, i78, i77, l76, r76, fused_eq,
    Ideal.addf_def]
  rfl

end Cert.ReferenceIdeal.RefValue

end
-- ==== Proof.lean ====
/- The proof of the certificate's claim. The kernel is three regions — two layer norms of the two inputs' rows; a gate
   (the two normalised rows side by side through a linear layer accumulated over sixteen column slices, rectified,
   two logits, their softmax) mixing the two normalised rows; a last linear layer accumulated over eight slices — and
   the reference the same function written with whole-array operations. Over the extended reals the two agree index
   by index: format changes are the identity, and the kernel's blockwise accumulations are the reference's sums
   regrouped, which needs only that addition is commutative and associative. The frames: each kernel region's body is
   run at every grid point against explicit contents of its windows and of the accumulator it carries; the reference's
   frame is its run with the result dropped. Nothing was rewritten by the idealization, so there is nothing to
   preserve. -/
import proofs.«120078_j69518340653173_1_alg».proof.Defs
import proofs.«120078_j69518340653173_1_alg».proof.Proof.Gen.Kernel
import proofs.«120078_j69518340653173_1_alg».proof.Proof.Gen.KernelIdeal
import proofs.«120078_j69518340653173_1_alg».proof.Proof.Gen.ReferenceIdeal
import proofs.«120078_j69518340653173_1_alg».proof.Proof.Gen.Pre_finite_inputs
import proofs.«120078_j69518340653173_1_alg».proof.Proof.K.Run
import proofs.«120078_j69518340653173_1_alg».proof.Proof.KI.Run
import proofs.«120078_j69518340653173_1_alg».proof.Proof.KI.Bridge
import proofs.«120078_j69518340653173_1_alg».proof.Proof.RefRun
import proofs.«120078_j69518340653173_1_alg».proof.Proof.RefVal
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's function of the arguments in their result arrays, and the arguments
    agree. -/
theorem algebraic : Cert.algebraic_KernelIdeal_ReferenceIdeal := by
  intro m ρ m' ρ' _ hagree
  refine ⟨fun c => (Cert.KernelIdeal.Hand.dat2 (F := Ideal) (Cert.KernelIdeal.Hand.V4 m) c).arrAt 3 Cert.KernelIdeal.cfg2.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq]
  obtain ⟨h0, h1, h2, h3, h4, h5, h6, h7, h8, h9, h10, h11⟩ := hagree c
  rw [h0, h1, h2, h3, h4, h5, h6, h7, h8, h9, h10, h11]
  funext i
  obtain ⟨r, j, rfl⟩ : ∃ (r : Fin 8192) (j : Fin 4096), i = ix2 r j := ⟨i 0, i 1, eq_ix2 i⟩
  exact (Cert.ReferenceIdeal.RefValue.ref_eq _ _ _ _ _ _ _ _ _ _ _ _ r j).trans
    (Cert.KernelIdeal.Hand.result_eq m c r j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
